-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg2 : IVec S4096 32) (main_v13 : IVec S_ 1) (main_v16 : IVec S10000x512 1) : IVec S_ 1 :=
  let main_c_5 : IVec S_ 1 := constantI S_ 1 1#1
  let main_v17 : IVec S_ 1 := (fun x v => Host.reduce IntOp.andi x v reducesTo_S10000x512_S_d0_1 h_S_) main_v16 main_c_5
  let main_v18 : IVec S_ 1 := andi main_v13 main_v17
  let main_c_6 : IVec S_ 32 := constantI S_ 32 0#32
  let main_v19 : IVec S4096 32 := broadcastInDim S4096 ![] bcast_S_S4096 main_c_6
  let main_v20 : IVec S4096 1 := cmpi .sge main_arg2 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v18 main_v21
  let main_c_8 : IVec S_ 32 := constantI S_ 32 10000#32
  let main_v23 : IVec S4096 32 := broadcastInDim S4096 ![] bcast_S_S4096 main_c_8
  let main_v24 : IVec S4096 1 := cmpi .slt main_arg2 main_v23
  let main_c_9 : IVec S_ 1 := constantI S_ 1 1#1
  let main_v25 : IVec S_ 1 := (fun x v => Host.reduce IntOp.andi x v reducesTo_S4096_S_d0 h_S_) main_v24 main_c_9
  let main_v26 : IVec S_ 1 := andi main_v22 main_v25
  main_v26

def fn {F : FTy → Type} [FloatOps F] (main_arg0 : FVec F S4096x512 .f32) (main_arg1 : FVec F S4096x512 .f32) (main_arg2 : IVec S4096 32) (main_arg3 : FVec F S10000x512 .f32) (main_arg4 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S10000x512 .f32 := Host.absf main_arg3
  let main_cst_2 : FVec F S_ .f32 := constant S_ .f32 0x7F800000#32
  let main_v10 : FVec F S10000x512 .f32 := broadcastInDim S10000x512 ![] bcast_S_S10000x512 main_cst_2
  let main_v11 : IVec S10000x512 1 := cmpf .olt main_v9 main_v10
  let main_c_3 : IVec S_ 1 := constantI S_ 1 1#1
  let main_v12 : IVec S_ 1 := (fun x v => Host.reduce IntOp.andi x v reducesTo_S10000x512_S_d0_1 h_S_) main_v11 main_c_3
  let main_v13 : IVec S_ 1 := andi main_v8 main_v12
  let main_v14 : FVec F S10000x512 .f32 := Host.absf main_arg4
  let main_cst_4 : FVec F S_ .f32 := constant S_ .f32 0x7F800000#32
  let main_v15 : FVec F S10000x512 .f32 := broadcastInDim S10000x512 ![] bcast_S_S10000x512 main_cst_4
  let main_v16 : IVec S10000x512 1 := cmpf .olt main_v14 main_v15
  fn_part1 (F := F) main_arg2 main_v13 main_v16
-- ==== Kernel.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S10240x512 : Shape := ⟨2, ![10240, 512]⟩
abbrev S4096x1 : Shape := ⟨2, ![4096, 1]⟩
abbrev S512x512 : Shape := ⟨2, ![512, 512]⟩
abbrev S2048x512 : Shape := ⟨2, ![2048, 512]⟩
abbrev S512x1 : Shape := ⟨2, ![512, 1]⟩
abbrev S512x2048 : Shape := ⟨2, ![512, 2048]⟩
abbrev S512 : Shape := ⟨1, ![512]⟩
abbrev S1 : Shape := ⟨1, ![1]⟩
abbrev S1x1 : Shape := ⟨2, ![1, 1]⟩

abbrev nBuf : Space → Nat
  | .hbm => 70
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S10000x512, .f32⟩
  | .hbm, ⟨4, _⟩ => ⟨S10000x512, .f32⟩
  | .hbm, ⟨5, _⟩ => ⟨S_, .i32⟩
  | .hbm, ⟨6, _⟩ => ⟨S_, .f32⟩
  | .hbm, ⟨7, _⟩ => ⟨S10240x512, .f32⟩
  | .hbm, ⟨8, _⟩ => ⟨S10240x512, .bf16⟩
  | .hbm, ⟨9, _⟩ => ⟨S4096x512, .bf16⟩
  | .hbm, ⟨10, _⟩ => ⟨S4096x512, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S4096x1, .i32⟩
  | .hbm, ⟨38, _⟩ => ⟨S1, .i32⟩
  | .hbm, ⟨39, _⟩ => ⟨S_, .i32⟩
  | .hbm, ⟨40, _⟩ => ⟨S4096x1, .i32⟩
  | .hbm, ⟨41, _⟩ => ⟨S4096x1, .i1⟩
  | .hbm, ⟨42, _⟩ => ⟨S1x1, .i32⟩
  | .hbm, ⟨43, _⟩ => ⟨S4096x1, .i32⟩
  | .hbm, ⟨44, _⟩ => ⟨S4096x1, .i1⟩
  | .hbm, ⟨45, _⟩ => ⟨S4096x1, .i1⟩
  | .hbm, ⟨46, _⟩ => ⟨S_, .i1⟩
  | .hbm, ⟨47, _⟩ => ⟨S4096, .i1⟩
  | .hbm, ⟨48, _⟩ => ⟨S4096x512, .f32⟩
  | .hbm, ⟨49, _⟩ => ⟨S4096x512, .i1⟩
  | .hbm, ⟨50, _⟩ => ⟨S_, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S_, .f32⟩
  | .hbm, ⟨56, _⟩ => ⟨S_, .f32⟩
  | .hbm, ⟨57, _⟩ => ⟨S4096x512, .f32⟩
  | .hbm, ⟨58, _⟩ => ⟨S4096x512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .bf16⟩
  | .local _ .vmem, ⟨5, _⟩ => ⟨S2048x512, .bf16⟩
  | .local _ .vmem, ⟨6, _⟩ => ⟨S512x1, .i32⟩
  | .local _ .vmem, ⟨7, _⟩ => ⟨S512x1, .i32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_c_1 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v4 : Ref sig .tc := ⟨.hbm, 18, rfl⟩
abbrev main_v5 : Ref sig .tc := ⟨.hbm, 19, rfl⟩
abbrev main_v6_0 : Ref sig .tc := ⟨.hbm, 20, rfl⟩
abbrev main_v6_1 : Ref sig .tc := ⟨.hbm, 21, rfl⟩
abbrev main_cst : Ref sig .tc := ⟨.hbm, 22, rfl⟩
abbrev main_v7 : Ref sig .tc := ⟨.hbm, 23, rfl⟩
abbrev main_cst_2 : Ref sig .tc := ⟨.hbm, 24, rfl⟩
abbrev main_v8 : Ref sig .tc := ⟨.hbm, 25, rfl⟩
abbrev main_cst_3 : Ref sig .tc := ⟨.hbm, 26, rfl⟩
abbrev main_v9 : Ref sig .tc := ⟨.hbm, 27, rfl⟩
abbrev main_cst_4 : Ref sig .tc := ⟨.hbm, 28, rfl⟩
abbrev main_v10 : Ref sig .tc := ⟨.hbm, 29, rfl⟩
abbrev main_call2_c : Ref sig .tc := ⟨.hbm, 30, rfl⟩
abbrev main_call2_v0 : Ref sig .tc := ⟨.hbm, 31, rfl⟩
abbrev main_call2_v1 : Ref sig .tc := ⟨.hbm, 32, rfl⟩
abbrev main_call2_c_0 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_c_1 : Ref sig .tc := ⟨.hbm, 38, rfl⟩
abbrev main_call2_c_2 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_v9 : Ref sig .tc := ⟨.hbm, 43, rfl⟩
abbrev main_call2_v10 : Ref sig .tc := ⟨.hbm, 44, rfl⟩
abbrev main_call2_v11 : Ref sig .tc := ⟨.hbm, 45, rfl⟩
abbrev main_call2_c_3 : Ref sig .tc := ⟨.hbm, 46, rfl⟩
abbrev main_call2_v12 : Ref sig .tc := ⟨.hbm, 47, rfl⟩
abbrev main_call2_v13 : Ref sig .tc := ⟨.hbm, 48, rfl⟩
abbrev main_call2_v14 : Ref sig .tc := ⟨.hbm, 49, rfl⟩
abbrev main_call2_cst : Ref sig .tc := ⟨.hbm, 50, rfl⟩
abbrev main_call2_v15 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_cst_5 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_cst_6 : Ref sig .tc := ⟨.hbm, 59, rfl⟩
abbrev main_v17 : Ref sig .tc := ⟨.hbm, 60, rfl⟩
abbrev main_v18 : Ref sig .tc := ⟨.hbm, 61, rfl⟩
abbrev main_cst_7 : Ref sig .tc := ⟨.hbm, 62, rfl⟩
abbrev main_v19 : Ref sig .tc := ⟨.hbm, 63, rfl⟩
abbrev main_v20 : Ref sig .tc := ⟨.hbm, 64, rfl⟩
abbrev main_cst_8 : Ref sig .tc := ⟨.hbm, 65, rfl⟩
abbrev main_v21 : Ref sig .tc := ⟨.hbm, 66, rfl⟩
abbrev main_cst_9 : Ref sig .tc := ⟨.hbm, 67, rfl⟩
abbrev main_v22 : Ref sig .tc := ⟨.hbm, 68, rfl⟩
abbrev main_v23 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 5], ![false, false]⟩

def k0_cond2 (i : grid0.Coords) : BitVec 1 :=
  let arg1 : BitVec 32 := BitVec.ofNat 32 (i 1).val
  let c4_i32 : BitVec 32 := 4#32
  let v49 : BitVec 1 := Scalar.cmpi .eq arg1 c4_i32
  let v50 : BitVec 32 := Scalar.extui v49
  let c0_i32_23 : BitVec 32 := 0#32
  let v51 : BitVec 1 := Scalar.cmpi .ne v50 c0_i32_23
  v51

def k0_cond3 (i : grid0.Coords) : BitVec 1 :=
  let arg1 : BitVec 32 := BitVec.ofNat 32 (i 1).val
  let c4_i32_44 : BitVec 32 := 4#32
  let v88 : BitVec 1 := Scalar.cmpi .eq arg1 c4_i32_44
  let v89 : BitVec 32 := Scalar.extui v88
  let c0_i32_45 : BitVec 32 := 0#32
  let v90 : BitVec 1 := Scalar.cmpi .ne v89 c0_i32_45
  v90

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  pads_S10000x512_S10240x512_02400_000 : S10000x512.Pads (![0, 0] : Fin 2 → Nat) ![240, 0] ![0, 0] S10240x512
  h_S_ : 0 < S_.numel
  bitsLt_bf16_f32 : FTy.bits .bf16 < FTy.bits .f32
  bcast_S_S4096 : S_.BroadcastsInDim S4096 (![] : Fin 0 → Fin S4096.rank)
  shapeCasts_S4096_S4096x1 : S4096.ShapeCasts S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  iota_S512x2048_d1_w32 : S512x2048.Iotas .tc 32 [1]
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x2048_S512 : S512x2048.Reduces [1] S512
  shapeCasts_S512_S512x1 : S512.ShapeCasts S512x1
  broadcasts_S512x1_S512x2048 : S512x1.Broadcasts S512x2048
  reducesTo_S4096x1_S_d0_1 : S4096x1.ReducesTo [0, 1] S_
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x512_0 : S4096.BroadcastsInDim S4096x512 (![0] : Fin 1 → Fin S4096x512.rank)
  bcast_S_S4096x512 : S_.BroadcastsInDim S4096x512 (![] : Fin 0 → Fin S4096x512.rank)
  reducesTo_S4096x512_S_d0_1 : S4096x512.ReducesTo [0, 1] S_
  dot_S512x512_S2048x512_S512x2048_1_1_0_0_n_n_wf : DotDims.WF S512x512 S2048x512 S512x2048 [1] [1] [0] [0] [] []
  gather_S10000x512_S4096x1_S4096x512_1_0_n_n_0_1_1512_wf : GatherDims.WF S10000x512 S4096x1 S4096x512 [1] [0] [] [0] [] 1 ![1, 512]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .bf16 = 32 ∨ (Rect.block (s := S4096x512) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .bf16 = 32 ∨ (Rect.block (s := S4096x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S10240x512.size a
  hwx0_2 : ∀ i : grid0.Coords, EltTy.bits .bf16 = 32 ∨ (Rect.block (s := S10240x512) S2048x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .i32 = 32 ∨ (Rect.block (s := S4096x1) S512x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf

abbrev win0_0 : Pipeline.Window sig grid0 :=
  Pipeline.Window.ofSpec (Memref.whole main_v2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S512x10000 : Shape := ⟨2, ![512, 10000]⟩
abbrev S4096x10000 : Shape := ⟨2, ![4096, 10000]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩

abbrev nBuf : Space → Nat
  | .hbm => 121
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096, .i32⟩
  | .hbm, ⟨3, _⟩ => ⟨S10000x512, .f32⟩
  | .hbm, ⟨4, _⟩ => ⟨S10000x512, .f32⟩
  | .hbm, ⟨5, _⟩ => ⟨S512x10000, .f32⟩
  | .hbm, ⟨6, _⟩ => ⟨S4096x10000, .f32⟩
  | .hbm, ⟨7, _⟩ => ⟨S512x10000, .f32⟩
  | .hbm, ⟨8, _⟩ => ⟨S4096x10000, .f32⟩
  | .hbm, ⟨9, _⟩ => ⟨S_, .f32⟩
  | .hbm, ⟨10, _⟩ => ⟨S4096, .f32⟩
  | .hbm, ⟨11, _⟩ => ⟨S_, .f32⟩
  | .hbm, ⟨12, _⟩ => ⟨S4096, .f32⟩
  | .hbm, ⟨13, _⟩ => ⟨S4096, .f32⟩
  | .hbm, ⟨14, _⟩ => ⟨S4096x1, .f32⟩
  | .hbm, ⟨15, _⟩ => ⟨S4096x10000, .f32⟩
  | .hbm, ⟨16, _⟩ => ⟨S4096x10000, .f32⟩
  | .hbm, ⟨17, _⟩ => ⟨S4096x10000, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S4096x1, .f32⟩
  | .hbm, ⟨22, _⟩ => ⟨S4096x10000, .f32⟩
  | .hbm, ⟨23, _⟩ => ⟨S4096x10000, .f32⟩
  | .hbm, ⟨24, _⟩ => ⟨S4096x1, .i32⟩
  | .hbm, ⟨25, _⟩ => ⟨S_, .i32⟩
  | .hbm, ⟨26, _⟩ => ⟨S4096x1, .i32⟩
  | .hbm, ⟨27, _⟩ => ⟨S4096x1, .i1⟩
  | .hbm, ⟨28, _⟩ => ⟨S_, .i32⟩
  | .hbm, ⟨29, _⟩ => ⟨S4096x1, .i32⟩
  | .hbm, ⟨30, _⟩ => ⟨S4096x1, .i32⟩
  | .hbm, ⟨31, _⟩ => ⟨S4096x1, .i32⟩
  | .hbm, ⟨32, _⟩ => ⟨S4096x1x1, .i32⟩
  | .hbm, ⟨33, _⟩ => ⟨S1, .i32⟩
  | .hbm, ⟨34, _⟩ => ⟨S_, .i32⟩
  | .hbm, ⟨35, _⟩ => ⟨S4096x1x1, .i32⟩
  | .hbm, ⟨36, _⟩ => ⟨S4096x1x1, .i1⟩
  | .hbm, ⟨37, _⟩ => ⟨S1x1x1, .i32⟩
  | .hbm, ⟨38, _⟩ => ⟨S4096x1x1, .i32⟩
  | .hbm, ⟨39, _⟩ => ⟨S4096x1x1, .i1⟩
  | .hbm, ⟨40, _⟩ => ⟨S4096x1x1, .i1⟩
  | .hbm, ⟨41, _⟩ => ⟨S_, .i1⟩
  | .hbm, ⟨42, _⟩ => ⟨S4096x1, .i1⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S4096, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x1, .f32⟩
  | .hbm, ⟨58, _⟩ => ⟨S4096x10000, .f32⟩
  | .hbm, ⟨59, _⟩ => ⟨S4096x10000, .f32⟩
  | .hbm, ⟨60, _⟩ => ⟨S4096x10000, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1, .f32⟩
  | .hbm, ⟨65, _⟩ => ⟨S4096x10000, .f32⟩
  | .hbm, ⟨66, _⟩ => ⟨S4096x10000, .f32⟩
  | .hbm, ⟨67, _⟩ => ⟨S4096x1, .i32⟩
  | .hbm, ⟨68, _⟩ => ⟨S_, .i32⟩
  | .hbm, ⟨69, _⟩ => ⟨S4096x1, .i32⟩
  | .hbm, ⟨70, _⟩ => ⟨S4096x1, .i1⟩
  | .hbm, ⟨71, _⟩ => ⟨S_, .i32⟩
  | .hbm, ⟨72, _⟩ => ⟨S4096x1, .i32⟩
  | .hbm, ⟨73, _⟩ => ⟨S4096x1, .i32⟩
  | .hbm, ⟨74, _⟩ => ⟨S4096x1, .i32⟩
  | .hbm, ⟨75, _⟩ => ⟨S4096x1x1, .i32⟩
  | .hbm, ⟨76, _⟩ => ⟨S1, .i32⟩
  | .hbm, ⟨77, _⟩ => ⟨S_, .i32⟩
  | .hbm, ⟨78, _⟩ => ⟨S4096x1x1, .i32⟩
  | .hbm, ⟨79, _⟩ => ⟨S4096x1x1, .i1⟩
  | .hbm, ⟨80, _⟩ => ⟨S1x1x1, .i32⟩
  | .hbm, ⟨81, _⟩ => ⟨S4096x1x1, .i32⟩
  | .hbm, ⟨82, _⟩ => ⟨S4096x1x1, .i1⟩
  | .hbm, ⟨83, _⟩ => ⟨S4096x1x1, .i1⟩
  | .hbm, ⟨84, _⟩ => ⟨S_, .i1⟩
  | .hbm, ⟨85, _⟩ => ⟨S4096x1, .i1⟩
  | .hbm, ⟨86, _⟩ => ⟨S4096x1, .f32⟩
  | .hbm, ⟨87, _⟩ => ⟨S_, .f32⟩
  | .hbm, ⟨88, _⟩ => ⟨S4096x1, .f32⟩
  | .hbm, ⟨89, _⟩ => ⟨S4096x1, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .i32⟩
  | .hbm, ⟨96, _⟩ => ⟨S4096, .i32⟩
  | .hbm, ⟨97, _⟩ => ⟨S4096, .i1⟩
  | .hbm, ⟨98, _⟩ => ⟨S_, .i32⟩
  | .hbm, ⟨99, _⟩ => ⟨S4096, .i32⟩
  | .hbm, ⟨100, _⟩ => ⟨S4096, .i32⟩
  | .hbm, ⟨101, _⟩ => ⟨S4096, .i32⟩
  | .hbm, ⟨102, _⟩ => ⟨S4096x1, .i32⟩
  | .hbm, ⟨103, _⟩ => ⟨S4096x512, .f32⟩
  | .hbm, ⟨104, _⟩ => ⟨S4096x512, .f32⟩
  | .hbm, ⟨105, _⟩ => ⟨S4096x512, .f32⟩
  | .hbm, ⟨106, _⟩ => ⟨S_, .f32⟩
  | .hbm, ⟨107, _⟩ => ⟨S_, .f32⟩
  | .hbm, ⟨108, _⟩ => ⟨S4096x512, .f32⟩
  | .hbm, ⟨109, _⟩ => ⟨S4096x512, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_call0_cst_0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_cst_1 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_v4 : Ref sig .tc := ⟨.hbm, 23, rfl⟩
abbrev main_v5 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_cst : Ref sig .tc := ⟨.hbm, 44, rfl⟩
abbrev main_call1_v14 : Ref sig .tc := ⟨.hbm, 45, rfl⟩
abbrev main_v6 : Ref sig .tc := ⟨.hbm, 46, rfl⟩
abbrev main_cst : Ref sig .tc := ⟨.hbm, 47, rfl⟩
abbrev main_v7 : Ref sig .tc := ⟨.hbm, 48, rfl⟩
abbrev main_cst_0 : Ref sig .tc := ⟨.hbm, 49, rfl⟩
abbrev main_v8 : Ref sig .tc := ⟨.hbm, 50, rfl⟩
abbrev main_v9 : Ref sig .tc := ⟨.hbm, 51, rfl⟩
abbrev main_call2_cst : Ref sig .tc := ⟨.hbm, 52, rfl⟩
abbrev main_call2_v0 : Ref sig .tc := ⟨.hbm, 53, rfl⟩
abbrev main_call2_cst_0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_v6 : Ref sig .tc := ⟨.hbm, 60, rfl⟩
abbrev main_call2_cst_1 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_v10 : Ref sig .tc := ⟨.hbm, 66, rfl⟩
abbrev main_v11 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_cst : Ref sig .tc := ⟨.hbm, 87, rfl⟩
abbrev main_call3_v14 : Ref sig .tc := ⟨.hbm, 88, rfl⟩
abbrev main_v12 : Ref sig .tc := ⟨.hbm, 89, rfl⟩
abbrev main_cst_1 : Ref sig .tc := ⟨.hbm, 90, rfl⟩
abbrev main_v13 : Ref sig .tc := ⟨.hbm, 91, rfl⟩
abbrev main_cst_2 : Ref sig .tc := ⟨.hbm, 92, rfl⟩
abbrev main_v14 : Ref sig .tc := ⟨.hbm, 93, rfl⟩
abbrev main_v15 : Ref sig .tc := ⟨.hbm, 94, rfl⟩
abbrev main_c : Ref sig .tc := ⟨.hbm, 95, rfl⟩
abbrev main_v16 : Ref sig .tc := ⟨.hbm, 96, rfl⟩
abbrev main_v17 : Ref sig .tc := ⟨.hbm, 97, rfl⟩
abbrev main_c_3 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_v21 : Ref sig .tc := ⟨.hbm, 102, rfl⟩
abbrev main_v22 : Ref sig .tc := ⟨.hbm, 103, rfl⟩
abbrev main_v23 : Ref sig .tc := ⟨.hbm, 104, rfl⟩
abbrev main_v24 : Ref sig .tc := ⟨.hbm, 105, rfl⟩
abbrev main_cst_4 : Ref sig .tc := ⟨.hbm, 106, rfl⟩
abbrev main_v25 : Ref sig .tc := ⟨.hbm, 107, rfl⟩
abbrev main_v26 : Ref sig .tc := ⟨.hbm, 108, rfl⟩
abbrev main_v27 : Ref sig .tc := ⟨.hbm, 109, rfl⟩
abbrev main_cst_5 : Ref sig .tc := ⟨.hbm, 110, rfl⟩
abbrev main_v28 : Ref sig .tc := ⟨.hbm, 111, rfl⟩
abbrev main_v29 : Ref sig .tc := ⟨.hbm, 112, rfl⟩
abbrev main_cst_6 : Ref sig .tc := ⟨.hbm, 113, rfl⟩
abbrev main_v30 : Ref sig .tc := ⟨.hbm, 114, rfl⟩
abbrev main_v31 : Ref sig .tc := ⟨.hbm, 115, rfl⟩
abbrev main_cst_7 : Ref sig .tc := ⟨.hbm, 116, rfl⟩
abbrev main_v32 : Ref sig .tc := ⟨.hbm, 117, rfl⟩
abbrev main_cst_8 : Ref sig .tc := ⟨.hbm, 118, rfl⟩
abbrev main_v33 : Ref sig .tc := ⟨.hbm, 119, rfl⟩
abbrev main_v34 : Ref sig .tc := ⟨.hbm, 120, rfl⟩

abbrev nD : Nat := 1
abbrev τ : Topo := Topo.v7x

variable {F : FTy → Type} [FloatOps F]

class Facts₀ : Prop where
  transposes_S10000x512_S512x10000_1_0 : S10000x512.Transposes [1, 0] S512x10000
  reducesTo_S4096x10000_S4096_d1 : S4096x10000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x10000_0_1 : S4096x1.BroadcastsInDim S4096x10000 (![0, 1] : Fin 2 → Fin S4096x10000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  reducesTo_S4096x1_S_d0_1 : S4096x1.ReducesTo [0, 1] S_
  reducesTo_S4096x512_S_d0_1 : S4096x512.ReducesTo [0, 1] S_
  dot_S4096x512_S512x10000_S4096x10000_1_0_0_1_n_n_wf : DotDims.WF S4096x512 S512x10000 S4096x10000 [1] [0] [0] [1] [] []
  gather_S4096x10000_S4096x1x1_S4096x1_n_1_0_0_1_2_11_wf : GatherDims.WF S4096x10000 S4096x1x1 S4096x1 [] [1] [0] [1] [0] 2 ![1, 1]
  gather_S10000x512_S4096x1_S4096x512_1_0_n_n_0_1_1512_wf : GatherDims.WF S10000x512 S4096x1 S4096x512 [1] [0] [] [0] [] 1 ![1, 512]

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf
def gather_S4096x10000_S4096x1x1_S4096x1_n_1_0_0_1_2_11 : GatherDims S4096x10000 S4096x1x1 S4096x1 where
  offsetDims := []
  collapsedSliceDims := [1]
  operandBatchingDims := [0]
  startIndicesBatchingDims := [0]
  startIndexMap := [1]
  indexVectorDim := 2
  sliceSizes := ![1, 1]
  wf := gather_S4096x10000_S4096x1x1_S4096x1_n_1_0_0_1_2_11_wf
def gather_S10000x512_S4096x1_S4096x512_1_0_n_n_0_1_1512 : GatherDims S10000x512 S4096x1 S4096x512 where
  offsetDims := [1]
  collapsedSliceDims := [0]
  operandBatchingDims := []
  startIndicesBatchingDims := []
  startIndexMap := [0]
  indexVectorDim := 1
  sliceSizes := ![1, 512]
  wf := gather_S10000x512_S4096x1_S4096x512_1_0_n_n_0_1_1512_wf

class Facts : Prop extends Facts₀ where

variable [Facts]
-- ==== Proof.RefRun2.lean ====
/-
  The reference program's run, read over its stages: every weakly fair execution of its 116 host operations terminates with the
  result buffer at the last stage's value of the five argument arrays, and the arguments unchanged. The operations are taken
  a stretch at a time: after each stretch every buffer it wrote holds its stage's value of the arguments, the stages being
  nested exactly as the program's operations are.
-/
import proofs.«406640_j61916248539750_2_alg».proof.Proof.RefRunP
import proofs.«406640_j61916248539750_2_alg».proof.Proof.RefReadP
import Idealize.ShloMosaic.Lib.StableHlo.Run

noncomputable section

namespace Cert.RefRun

open Cert.ReferenceIdeal Cert.ReferenceIdeal.Gen Cert.ReferenceIdeal.Value Cert.ReferenceIdeal.Read Idealize.ShloMosaic Idealize.ShloMosaic.TcCoe Idealize.SL.Sem Idealize.ShloMosaic.StableHlo

variable {F : FTy → Type} [FloatOps F]

/-! ### The operations in five stretches, cut where few buffers are live

  ops 0-18   the two logit products and the soft batch's log-softmax: leaves `main_v3` (hard logits), `main_v4`
  ops 19-46  the soft batch's pick at the labels and its negated mean: reads `main_v4`, leaves `main_v9`
  ops 47-61  the hard batch's log-softmax: reads `main_v3`, leaves `main_v10`
  ops 62-89  the hard batch's pick and negated mean: reads `main_v10`, leaves `main_v15`
  ops 90-115 the center rows, the two sums of squares and the final sum: reads `main_v9`, `main_v15`, leaves `main_v34` -/

abbrev s1 : List (HloOp τ sig (Elt F)) := (ops (F := F)).take 19
abbrev r1 : List (HloOp τ sig (Elt F)) := (ops (F := F)).drop 19
abbrev s2 : List (HloOp τ sig (Elt F)) := (r1 (F := F)).take 28
abbrev r2 : List (HloOp τ sig (Elt F)) := (r1 (F := F)).drop 28
abbrev s3 : List (HloOp τ sig (Elt F)) := (r2 (F := F)).take 15
abbrev r3 : List (HloOp τ sig (Elt F)) := (r2 (F := F)).drop 15
abbrev s4 : List (HloOp τ sig (Elt F)) := (r3 (F := F)).take 28
abbrev s5 : List (HloOp τ sig (Elt F)) := (r3 (F := F)).drop 28

/-- Two lines of operations one after the other: the second from what the first leaves. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole line is the five stretches in order. -/
theorem after_ops (V : Valuation τ sig (Elt F)) :
    after (ops (F := F)) V = after s5 (after s4 (after s3 (after s2 (after s1 V)))) := by
  have h : (ops : List (HloOp τ sig (Elt F))) = s1 ++ (s2 ++ (s3 ++ (s4 ++ s5))) := by
    simp only [s1, s2, s3, s4, s5, r1, r2, r3, List.take_append_drop]
  exact (congrArg (fun l => after l V) h).trans
    (by rw [after_app, after_app, after_app, after_app])

/-- A value written through a typed reference and read back through it is the value. -/
theorem ofBuf_toBuf {T : BufTy} (x : TRef sig T) (v : T.Contents (Elt F)) : x.ofBuf (x.toBuf v) = v := by
  obtain ⟨r, h, _, _⟩ := x
  subst h
  rfl

/-- Opens a stretch into its literal operations and folds it: what is left is an equation between the operations' functions
    applied to the entry valuation at the buffers the stretch reads. -/
local macro "open_stretch" : tactic =>
  `(tactic| (simp only [s1, s2, s3, s4, s5, r1, r2, r3, ops, List.take_succ_cons, List.take_zero, List.drop_succ_cons,
      List.drop_zero]
             after_results_simp))

/-! ### Stretch 1 -/

theorem s1_v3 (W : Valuation τ sig (Elt F)) :
    after s1 W (Proc.devRef .tc main_v3)
      = val_main_v3 (F := F) (W (Proc.devRef .tc main_arg1)) (W (Proc.devRef .tc main_arg4)) := by
  open_stretch
  rfl

theorem s1_v4 (W : Valuation τ sig (Elt F)) :
    after s1 W (Proc.devRef .tc main_v4)
      = val_main_v4 (F := F) (W (Proc.devRef .tc main_arg0)) (W (Proc.devRef .tc main_arg4)) := by
  open_stretch
  simp only [ofBuf_toBuf]
  rfl

/-- The stretch writes none of the arguments. -/
theorem s1_keep (W : Valuation τ sig (Elt F)) :
    after s1 W (Proc.devRef .tc main_arg0) = W (Proc.devRef .tc main_arg0)
    ∧ after s1 W (Proc.devRef .tc main_arg1) = W (Proc.devRef .tc main_arg1)
    ∧ after s1 W (Proc.devRef .tc main_arg2) = W (Proc.devRef .tc main_arg2)
    ∧ after s1 W (Proc.devRef .tc main_arg3) = W (Proc.devRef .tc main_arg3)
    ∧ after s1 W (Proc.devRef .tc main_arg4) = W (Proc.devRef .tc main_arg4) := by
  refine ⟨?_, ?_, ?_, ?_, ?_⟩ <;> open_stretch

/-! ### Stretch 2 -/

theorem s2_v9 (W : Valuation τ sig (Elt F)) (a0 : (⟨S4096x512, .f32⟩ : BufTy).Contents (Elt F))
    (a2 : (⟨S4096, .i32⟩ : BufTy).Contents (Elt F)) (a4 : (⟨S10000x512, .f32⟩ : BufTy).Contents (Elt F))
    (h4 : W (Proc.devRef .tc main_v4) = val_main_v4 (F := F) a0 a4) (h2 : W (Proc.devRef .tc main_arg2) = a2) :
    after s2 W (Proc.devRef .tc main_v9) = val_main_v9 (F := F) a0 a2 a4 := by
  open_stretch
  simp only [ofBuf_toBuf]
  rw [h4, h2]
  rfl

/-- The stretch writes neither the hard logits nor an argument. -/
theorem s2_keep (W : Valuation τ sig (Elt F)) :
    after s2 W (Proc.devRef .tc main_v3) = W (Proc.devRef .tc main_v3)
    ∧ after s2 W (Proc.devRef .tc main_arg0) = W (Proc.devRef .tc main_arg0)
    ∧ after s2 W (Proc.devRef .tc main_arg1) = W (Proc.devRef .tc main_arg1)
    ∧ after s2 W (Proc.devRef .tc main_arg2) = W (Proc.devRef .tc main_arg2)
    ∧ after s2 W (Proc.devRef .tc main_arg3) = W (Proc.devRef .tc main_arg3)
    ∧ after s2 W (Proc.devRef .tc main_arg4) = W (Proc.devRef .tc main_arg4) := by
  refine ⟨?_, ?_, ?_, ?_, ?_, ?_⟩ <;> open_stretch

/-! ### Stretch 3 -/

theorem s3_v10 (W : Valuation τ sig (Elt F)) (a1 : (⟨S4096x512, .f32⟩ : BufTy).Contents (Elt F))
    (a4 : (⟨S10000x512, .f32⟩ : BufTy).Contents (Elt F))
    (h3 : W (Proc.devRef .tc main_v3) = val_main_v3 (F := F) a1 a4) :
    after s3 W (Proc.devRef .tc main_v10) = val_main_v10 (F := F) a1 a4 := by
  open_stretch
  simp only [ofBuf_toBuf]
  rw [h3]
  rfl

/-- The stretch writes neither the soft mean nor an argument. -/
theorem s3_keep (W : Valuation τ sig (Elt F)) :
    after s3 W (Proc.devRef .tc main_v9) = W (Proc.devRef .tc main_v9)
    ∧ after s3 W (Proc.devRef .tc main_arg0) = W (Proc.devRef .tc main_arg0)
    ∧ after s3 W (Proc.devRef .tc main_arg1) = W (Proc.devRef .tc main_arg1)
    ∧ after s3 W (Proc.devRef .tc main_arg2) = W (Proc.devRef .tc main_arg2)
    ∧ after s3 W (Proc.devRef .tc main_arg3) = W (Proc.devRef .tc main_arg3)
    ∧ after s3 W (Proc.devRef .tc main_arg4) = W (Proc.devRef .tc main_arg4) := by
  refine ⟨?_, ?_, ?_, ?_, ?_, ?_⟩ <;> open_stretch

/-! ### Stretch 4 -/

theorem s4_v15 (W : Valuation τ sig (Elt F)) (a1 : (⟨S4096x512, .f32⟩ : BufTy).Contents (Elt F))
    (a2 : (⟨S4096, .i32⟩ : BufTy).Contents (Elt F)) (a4 : (⟨S10000x512, .f32⟩ : BufTy).Contents (Elt F))
    (h10 : W (Proc.devRef .tc main_v10) = val_main_v10 (F := F) a1 a4) (h2 : W (Proc.devRef .tc main_arg2) = a2) :
    after s4 W (Proc.devRef .tc main_v15) = val_main_v15 (F := F) a1 a2 a4 := by
  open_stretch
  simp only [ofBuf_toBuf]
  rw [h10, h2]
  rfl

theorem s4_keep (W : Valuation τ sig (Elt F)) :
    after s4 W (Proc.devRef .tc main_v9) = W (Proc.devRef .tc main_v9)
    ∧ after s4 W (Proc.devRef .tc main_arg0) = W (Proc.devRef .tc main_arg0)
    ∧ after s4 W (Proc.devRef .tc main_arg1) = W (Proc.devRef .tc main_arg1)
    ∧ after s4 W (Proc.devRef .tc main_arg2) = W (Proc.devRef .tc main_arg2)
    ∧ after s4 W (Proc.devRef .tc main_arg3) = W (Proc.devRef .tc main_arg3)
    ∧ after s4 W (Proc.devRef .tc main_arg4) = W (Proc.devRef .tc main_arg4) := by
  refine ⟨?_, ?_, ?_, ?_, ?_, ?_⟩ <;> open_stretch

/-! ### Stretch 5 -/

theorem s5_v34 (W : Valuation τ sig (Elt F)) (a0 a1 : (⟨S4096x512, .f32⟩ : BufTy).Contents (Elt F))
    (a2 : (⟨S4096, .i32⟩ : BufTy).Contents (Elt F)) (a3 a4 : (⟨S10000x512, .f32⟩ : BufTy).Contents (Elt F))
    (h9 : W (Proc.devRef .tc main_v9) = val_main_v9 (F := F) a0 a2 a4)
    (h15 : W (Proc.devRef .tc main_v15) = val_main_v15 (F := F) a1 a2 a4)
    (h0 : W (Proc.devRef .tc main_arg0) = a0) (h1 : W (Proc.devRef .tc main_arg1) = a1)
    (h2 : W (Proc.devRef .tc main_arg2) = a2) (h3 : W (Proc.devRef .tc main_arg3) = a3) :
    after s5 W (Proc.devRef .tc main_v34) = val_main_v34 (F := F) a0 a1 a2 a3 a4 := by
  open_stretch
  rw [h9, h15, h0, h1, h2, h3]
  rfl

theorem s5_keep (W : Valuation τ sig (Elt F)) :
    after s5 W (Proc.devRef .tc main_arg0) = W (Proc.devRef .tc main_arg0)
    ∧ after s5 W (Proc.devRef .tc main_arg1) = W (Proc.devRef .tc main_arg1)
    ∧ after s5 W (Proc.devRef .tc main_arg2) = W (Proc.devRef .tc main_arg2)
    ∧ after s5 W (Proc.devRef .tc main_arg3) = W (Proc.devRef .tc main_arg3)
    ∧ after s5 W (Proc.devRef .tc main_arg4) = W (Proc.devRef .tc main_arg4) := by
  refine ⟨?_, ?_, ?_, ?_, ?_⟩ <;> open_stretch

/-! ### The whole line -/

/-- After all 116 operations the result buffer holds the last stage's value of the arguments, and the arguments are
    unchanged: each stretch's facts carried to the next. -/
theorem after_all (V : Valuation τ sig (Elt F)) :
    after (ops (F := F)) V (Proc.devRef .tc main_v34)
        = val_main_v34 (F := F) (V (Proc.devRef .tc main_arg0)) (V (Proc.devRef .tc main_arg1))
            (V (Proc.devRef .tc main_arg2)) (V (Proc.devRef .tc main_arg3)) (V (Proc.devRef .tc main_arg4))
    ∧ after (ops (F := F)) V (Proc.devRef .tc main_arg0) = V (Proc.devRef .tc main_arg0)
    ∧ after (ops (F := F)) V (Proc.devRef .tc main_arg1) = V (Proc.devRef .tc main_arg1)
    ∧ after (ops (F := F)) V (Proc.devRef .tc main_arg2) = V (Proc.devRef .tc main_arg2)
    ∧ after (ops (F := F)) V (Proc.devRef .tc main_arg3) = V (Proc.devRef .tc main_arg3)
    ∧ after (ops (F := F)) V (Proc.devRef .tc main_arg4) = V (Proc.devRef .tc main_arg4) := by
  rw [after_ops V]
  -- after stretch 1
  obtain ⟨p0, p1, p2, p3, p4⟩ := s1_keep V
  have p_v3 := s1_v3 V
  have p_v4 := s1_v4 V
  -- after stretch 2
  obtain ⟨q_v3, q0, q1, q2, q3, q4⟩ := s2_keep (after s1 V)
  have q_v9 := s2_v9 (after s1 V) _ _ _ p_v4 p2
  -- after stretch 3
  obtain ⟨t_v9, t0, t1, t2, t3, t4⟩ := s3_keep (after s2 (after s1 V))
  have t_v10 := s3_v10 (after s2 (after s1 V)) _ _ (q_v3.trans p_v3)
  -- after stretch 4
  obtain ⟨u_v9, u0, u1, u2, u3, u4⟩ := s4_keep (after s3 (after s2 (after s1 V)))
  have u_v15 := s4_v15 (after s3 (after s2 (after s1 V))) _ _ _ t_v10 (t2.trans (q2.trans p2))
  -- after stretch 5
  obtain ⟨w0, w1, w2, w3, w4⟩ := s5_keep (after s4 (after s3 (after s2 (after s1 V))))
  exact ⟨s5_v34 (after s4 (after s3 (after s2 (after s1 V)))) _ _ _ _ _
      (u_v9.trans (t_v9.trans q_v9)) u_v15
      (u0.trans (t0.trans (q0.trans p0))) (u1.trans (t1.trans (q1.trans p1)))
      (u2.trans (t2.trans (q2.trans p2))) (u3.trans (t3.trans (q3.trans p3))),
    w0.trans (u0.trans (t0.trans (q0.trans p0))), w1.trans (u1.trans (t1.trans (q1.trans p1))),
    w2.trans (u2.trans (t2.trans (q2.trans p2))), w3.trans (u3.trans (t3.trans (q3.trans p3))),
    w4.trans (u4.trans (t4.trans (q4.trans p4)))⟩

/-- The run, read over the stages. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = val_main_v34 (F := F) (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ?_)
    (run_seq scopedRefs_eq scopedSems_eq defs main (fun _ => ops) main_eq (fun _ => ops_sub) m ρ)
  obtain ⟨e, e0, e1, e2, e3, e4⟩ := after_all (F := F) (launchContents m c)
  exact ⟨(h c main_v34).trans e, (h c main_arg0).trans e0, (h c main_arg1).trans e1, (h c main_arg2).trans e2,
    (h c main_arg3).trans e3, (h c main_arg4).trans e4⟩

end Cert.RefRun

end
-- ==== Proof.KBody.lean ====
/-
  The kernel body's arithmetic read at an index, at the ideal instance: one class tile of the fused cross-entropy step.
  For the class tile at grid coordinate i 1 (classes (i 1)*2048 + j, j < 2048), a batch block x [512, 512], the weight
  block w [2048, 512] and the label block, each stored value at row r is the corresponding component of Spec.step:
  the masked logit of (r, j) is the inner product of row r of x and row j of w when the class is below 10000, -infinity
  otherwise; the new maximum is the old one against the tile's; the new sum rescales the old one; the target sum adds the
  masked logit where the label equals the class.
-/
import proofs.«406640_j61916248539750_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.Body

open Cert.KernelIdeal Cert.KernelIdeal.Gen Idealize.ShloMosaic Idealize.ShloMosaic.ValueIdx

/-- The masked logit of row `r` against class `j` of the tile at `i`. -/
def zt (i : grid0.Coords) (x : S512x512.Idx → EReal) (w : S2048x512.Idx → EReal) (r : Fin 512) (j : Fin 2048) : EReal :=
  if (i 1).val * 2048 + j.val < 10000 then ∑ k : Fin 512, x (ix2 r k) * w (ix2 j k) else ⊥

/-- The tile's row maximum over -infinity. -/
def ztMax (i : grid0.Coords) (x : S512x512.Idx → EReal) (w : S2048x512.Idx → EReal) (r : Fin 512) : EReal :=
  (Finset.univ : Finset (Fin 2048)).fold max ⊥ fun j => zt i x w r j

/-! ## The class mask, the block product and the two row reductions at an index -/

/-- The class mask at `(r, j)` is set exactly when class `(i 1) * 2048 + j` is one of the 10000: the tile number is below 5, so
    the 32-bit sum does not wrap and is read as the natural number it encodes. -/
theorem mask_apply (i : grid0.Coords) (r : Fin 512) (j : Fin 2048) :
    k0_pay14 i (ix2 r j) = 1#1 ↔ (i 1).val * 2048 + j.val < 10000 := by
  have hi : (i 1).val < 5 := (i 1).isLt
  have hj := j.isLt
  show IntOp.cmpi .slt (IntOp.addi (IntOp.muli (BitVec.ofNat 32 (i 1).val) 2048#32)
      (iota .tc S512x2048 32 [1] iota_S512x2048_d1_w32 (ix2 r j))) 10000#32 = 1#1 ↔ _
  rw [iota_single_apply]
  show IntOp.cmpi .slt (BitVec.ofNat 32 (i 1).val * 2048#32 + BitVec.ofNat 32 j.val) 10000#32 = 1#1 ↔ _
  have hx : (BitVec.ofNat 32 (i 1).val * 2048#32 + BitVec.ofNat 32 j.val).toNat = (i 1).val * 2048 + j.val := by
    rw [BitVec.toNat_add, BitVec.toNat_mul, BitVec.toNat_ofNat, BitVec.toNat_ofNat, BitVec.toNat_ofNat]
    omega
  rw [StableHlo.Predicate.slt_iff_toNat (by rw [hx]; omega) (by decide), hx]
  rfl

/-! ### The block product at an index

The product contracts axis 1 of both blocks: at output `(r, j)` and contraction coordinate `k` the left operand is read at `(r, k)`
and the right one at `(j, k)`. The four coordinate facts, one per operand axis. -/

theorem lhs_0 (o : S512x2048.Idx) (q : dot_S512x512_S2048x512_S512x2048_1_1_0_0_n_n.contr.Idx) :
    (dot_S512x512_S2048x512_S512x2048_1_1_0_0_n_n.lhsIdx o q 0).val = (o 0).val := by
  unfold DotDims.lhsIdx
  rw [dif_neg (show ¬(0 : Fin S512x512.rank) ∈ dot_S512x512_S2048x512_S512x2048_1_1_0_0_n_n.lhsBatch by decide), dif_pos (show (0 : Fin S512x512.rank) ∈ dot_S512x512_S2048x512_S512x2048_1_1_0_0_n_n.lhsNonContracting by decide)]
  rfl
theorem lhs_1 (o : S512x2048.Idx) (q : dot_S512x512_S2048x512_S512x2048_1_1_0_0_n_n.contr.Idx) :
    (dot_S512x512_S2048x512_S512x2048_1_1_0_0_n_n.lhsIdx o q 1).val = (q ⟨0, by decide⟩).val :=
  dot_S512x512_S2048x512_S512x2048_1_1_0_0_n_n.lhsIdx_val_of_single rfl o q
theorem rhs_0 (o : S512x2048.Idx) (q : dot_S512x512_S2048x512_S512x2048_1_1_0_0_n_n.contr.Idx) :
    (dot_S512x512_S2048x512_S512x2048_1_1_0_0_n_n.rhsIdx o q 0).val = (o 1).val := by
  unfold DotDims.rhsIdx
  rw [dif_neg (show ¬(0 : Fin S2048x512.rank) ∈ dot_S512x512_S2048x512_S512x2048_1_1_0_0_n_n.rhsBatch by decide), dif_pos (show (0 : Fin S2048x512.rank) ∈ dot_S512x512_S2048x512_S512x2048_1_1_0_0_n_n.rhsNonContracting by decide)]
  rfl
theorem rhs_1 (o : S512x2048.Idx) (q : dot_S512x512_S2048x512_S512x2048_1_1_0_0_n_n.contr.Idx) :
    (dot_S512x512_S2048x512_S512x2048_1_1_0_0_n_n.rhsIdx o q 1).val = (q ⟨0, by decide⟩).val :=
  dot_S512x512_S2048x512_S512x2048_1_1_0_0_n_n.rhsIdx_val_of_single rfl o q

/-- The block product into the zero accumulator, at `(r, j)`: row `r` of the left block against row `j` of the right one. -/
theorem matmul_zero_apply (x : FVec Ideal S512x512 .bf16) (w : FVec Ideal S2048x512 .bf16) (r : Fin 512) (j : Fin 2048) :
    matmul dot_S512x512_S2048x512_S512x2048_1_1_0_0_n_n none x w (constant (F := Ideal) S512x2048 .f32 0x00000000#32) (ix2 r j)
      = ∑ k : Fin 512, x (ix2 r k) * w (ix2 j k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 r j) ((contrEquiv1 dot_S512x512_S2048x512_S512x2048_1_1_0_0_n_n 512 rfl rfl).symm k) = ix2 r k := funext fun a => Fin.ext (by
    match a with
    | ⟨0, _⟩ => exact lhs_0 _ _
    | ⟨1, _⟩ => exact (lhs_1 _ _).trans hk)
  have er : dot_S512x512_S2048x512_S512x2048_1_1_0_0_n_n.rhsIdx (ix2 r j) ((contrEquiv1 dot_S512x512_S2048x512_S512x2048_1_1_0_0_n_n 512 rfl rfl).symm k) = ix2 j k := funext fun a => Fin.ext (by
    match a with
    | ⟨0, _⟩ => exact rhs_0 _ _
    | ⟨1, _⟩ => exact (rhs_1 _ _).trans hk)
  rw [el, er]

/-- The fill value of the classes past the last one is -infinity. -/
theorem neg_big_eq : (Named.named (F := Ideal) κ "neg_big" (φ := .f32) 0xFF333332#32 : Ideal .f32) = ⊥ := rfl

/-- The select of the product under the class mask against the fill, at `(r, j)`. -/
theorem masked_apply (i : grid0.Coords) (x : FVec Ideal S512x512 .bf16) (w : FVec Ideal S2048x512 .bf16) (r : Fin 512) (j : Fin 2048) :
    Scalar.select (k0_pay14 i (ix2 r j))
        (matmul dot_S512x512_S2048x512_S512x2048_1_1_0_0_n_n none x w (constant (F := Ideal) S512x2048 .f32 0x00000000#32) (ix2 r j))
        (Named.named (F := Ideal) κ "neg_big" (φ := .f32) 0xFF333332#32 : Ideal .f32)
      = zt i x w r j := by
  rw [matmul_zero_apply]
  unfold zt
  by_cases h : (i 1).val * 2048 + j.val < 10000
  · rw [if_pos h, (mask_apply i r j).mpr h, select_one]
  · rw [if_neg h, eq_zero_of_ne_one (fun e => h ((mask_apply i r j).mp e)), select_zero, neg_big_eq]

/-! ### The keepdims column forms, and the reduced row's index -/

/-- An `[a]` array cast to the column `[a, 1]` reads, at `(r, u)`, the operand at `r`. -/
theorem shapeCast_a_a1_apply {α : Type} {a : ℕ} (v : (⟨1, ![a]⟩ : Shape).Idx → α) (h : (⟨1, ![a]⟩ : Shape).ShapeCasts ⟨2, ![a, 1]⟩)
    (r : Fin a) (u : Fin 1) : shapeCast ⟨2, ![a, 1]⟩ v h (ix2 r u) = v (ix1 r) :=
  shapeCast_apply v h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at `r`. -/
theorem broadcastTo_a1_ab_apply {α : Type} {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Row `r` with the lane coordinate `k` put back is `(r, k)`. -/
theorem lift_row (r : Fin 512) (k : Fin 2048) :
    Facts₀.reduces_S512x2048_S512.lift (ix1 r) k = ix2 r k :=
  funext fun a => Fin.ext (by
    match a with
    | ⟨0, _⟩ => rfl
    | ⟨1, _⟩ => rfl)

/-- The accumulator word of the maximum is -infinity. -/
theorem ofBits_neg_inf : Ideal.ofBits .f32 0xFF800000#32 = ⊥ := by simp [Ideal.ofBits, Ideal.ieee]

/-- The row maximum of a `[512, 2048]` block from -infinity, as a column, at row `r`. -/
theorem rowMax_apply (z : FVec Ideal S512x2048 .f32) (r : Fin 512) :
    shapeCast S512x1 (multiReduction (F := Ideal) .maximumf [1] S512 z 0xFF800000#32 reduces_S512x2048_S512 (.inl rfl) rfl) shapeCasts_S512_S512x1 (ix2 r 0)
      = (Finset.univ : Finset (Fin 2048)).fold max ⊥ fun j => z (ix2 r j) := by
  rw [shapeCast_a_a1_apply]
  refine (Ideal.multiReduction_maximumf_single z 0xFF800000#32 reduces_S512x2048_S512 (.inl rfl) rfl (ix1 r)).trans ?_
  show (Finset.univ : Finset (Fin 2048)).fold max (Ideal.ofBits .f32 0xFF800000#32) (fun k => z (reduces_S512x2048_S512.lift (ix1 r) k)) = _
  rw [ofBits_neg_inf]
  exact Finset.fold_congr fun k _ => congrArg z (lift_row r k)

/-- The row sum of a `[512, 2048]` block from zero, as a column, at row `r`. -/
theorem rowSum_apply (z : FVec Ideal S512x2048 .f32) (r : Fin 512) :
    shapeCast S512x1 (multiReduction (F := Ideal) .add [1] S512 z 0x00000000#32 reduces_S512x2048_S512 (.inl rfl) rfl) shapeCasts_S512_S512x1 (ix2 r 0)
      = ∑ j : Fin 2048, z (ix2 r j) := by
  rw [shapeCast_a_a1_apply]
  refine (Ideal.multiReduction_add_single z 0x00000000#32 reduces_S512x2048_S512 (.inl rfl) rfl (ix1 r)).trans ?_
  show ∑ k : Fin 2048, z (reduces_S512x2048_S512.lift (ix1 r) k) = _
  exact Finset.sum_congr rfl fun k _ => congrArg z (lift_row r k)

/-- The new maximum over any masked-logit block that reads as `zt`. -/
theorem newMax_apply (i : grid0.Coords) (w : S2048x512.Idx → EReal) (x : S512x512.Idx → EReal) (z : FVec Ideal S512x2048 .f32)
    (hz : ∀ r j, z (ix2 r j) = zt i x w r j) (mp : FVec Ideal S512x1 .f32) (r : Fin 512) :
    maximumf mp (shapeCast S512x1 (multiReduction (F := Ideal) .maximumf [1] S512 z 0xFF800000#32 reduces_S512x2048_S512 (.inl rfl) rfl) shapeCasts_S512_S512x1) (ix2 r 0)
      = max (mp (ix2 r 0)) (ztMax i x w r) := by
  rw [maximumf_apply, rowMax_apply]
  unfold ztMax
  exact congrArg (max (mp (ix2 r 0))) (Finset.fold_congr fun j _ => hz r j)

/-- The new sum over any masked-logit block that reads as `zt` and any column that reads as the new maximum. -/
theorem newSum_apply (i : grid0.Coords) (w : S2048x512.Idx → EReal) (x : S512x512.Idx → EReal) (z : FVec Ideal S512x2048 .f32)
    (hz : ∀ r j, z (ix2 r j) = zt i x w r j) (m mp lp : FVec Ideal S512x1 .f32) (r : Fin 512)
    (hm : m (ix2 r 0) = max (mp (ix2 r 0)) (ztMax i x w r)) :
    addf (mulf (exp (subf mp m)) lp)
        (shapeCast S512x1 (multiReduction (F := Ideal) .add [1] S512 (exp (subf z (broadcastTo S512x2048 m broadcasts_S512x1_S512x2048)))
          0x00000000#32 reduces_S512x2048_S512 (.inl rfl) rfl) shapeCasts_S512_S512x1) (ix2 r 0)
      = Ideal.exp (mp (ix2 r 0) - max (mp (ix2 r 0)) (ztMax i x w r)) * lp (ix2 r 0)
        + ∑ j : Fin 2048, Ideal.exp (zt i x w r j - max (mp (ix2 r 0)) (ztMax i x w r)) := by
  rw [addf_apply, mulf_apply, rowSum_apply]
  show Ideal.exp (mp (ix2 r 0) - m (ix2 r 0)) * lp (ix2 r 0)
      + ∑ j : Fin 2048, Ideal.exp (z (ix2 r j) - broadcastTo S512x2048 m broadcasts_S512x1_S512x2048 (ix2 r j)) = _
  rw [hm]
  refine congrArg _ (Finset.sum_congr rfl fun j _ => ?_)
  rw [broadcastTo_a1_ab_apply, hz, hm]

/-! ## The soft path (payloads 15, 16, 17) -/

theorem pay15_apply (i : grid0.Coords) (w : Vec Ideal S2048x512 .bf16) (x : Vec Ideal S512x512 .bf16) (r : Fin 512) (j : Fin 2048) :
    k0_pay15 (F := Ideal) i w x (ix2 r j) = zt i x w r j := by
  unfold k0_pay15 k0_pay11
  rw [shapeCast_self, shapeCast_self]
  exact masked_apply i x w r j

theorem pay16_apply (i : grid0.Coords) (w : Vec Ideal S2048x512 .bf16) (x : Vec Ideal S512x512 .bf16) (mp : Vec Ideal S512x1 .f32) (r : Fin 512) :
    k0_pay16 (F := Ideal) i w x mp (ix2 r 0) = max (mp (ix2 r 0)) (ztMax i x w r) := by
  unfold k0_pay16
  exact newMax_apply i w x _ (fun r j => pay15_apply i w x r j) mp r

theorem pay17_apply (i : grid0.Coords) (w : Vec Ideal S2048x512 .bf16) (x : Vec Ideal S512x512 .bf16) (mp lp : Vec Ideal S512x1 .f32) (r : Fin 512) :
    k0_pay17 (F := Ideal) i w x mp lp (ix2 r 0)
      = Ideal.exp (mp (ix2 r 0) - max (mp (ix2 r 0)) (ztMax i x w r)) * lp (ix2 r 0)
        + ∑ j : Fin 2048, Ideal.exp (zt i x w r j - max (mp (ix2 r 0)) (ztMax i x w r)) := by
  unfold k0_pay17
  rw [shapeCast_self]
  exact newSum_apply i w x _ (fun r j => pay15_apply i w x r j) _ mp lp r (pay16_apply i w x mp r)

/-! ## The hard path (payloads 22, 23, 24) -/

theorem pay22_apply (i : grid0.Coords) (w : Vec Ideal S2048x512 .bf16) (x : Vec Ideal S512x512 .bf16) (r : Fin 512) (j : Fin 2048) :
    k0_pay22 (F := Ideal) (k0_pay11 w) (k0_pay14 i) x (ix2 r j) = zt i x w r j := by
  unfold k0_pay22 k0_pay11
  rw [shapeCast_self, shapeCast_self]
  exact masked_apply i x w r j

theorem pay23_apply (i : grid0.Coords) (w : Vec Ideal S2048x512 .bf16) (x : Vec Ideal S512x512 .bf16) (mp : Vec Ideal S512x1 .f32) (r : Fin 512) :
    k0_pay23 (F := Ideal) (k0_pay11 w) (k0_pay14 i) x mp (ix2 r 0) = max (mp (ix2 r 0)) (ztMax i x w r) := by
  unfold k0_pay23
  exact newMax_apply i w x _ (fun r j => pay22_apply i w x r j) mp r

theorem pay24_apply (i : grid0.Coords) (w : Vec Ideal S2048x512 .bf16) (x : Vec Ideal S512x512 .bf16) (mp lp : Vec Ideal S512x1 .f32) (r : Fin 512) :
    k0_pay24 (F := Ideal) (k0_pay11 w) (k0_pay14 i) x mp lp (ix2 r 0)
      = Ideal.exp (mp (ix2 r 0) - max (mp (ix2 r 0)) (ztMax i x w r)) * lp (ix2 r 0)
        + ∑ j : Fin 2048, Ideal.exp (zt i x w r j - max (mp (ix2 r 0)) (ztMax i x w r)) := by
  unfold k0_pay24
  exact newSum_apply i w x _ (fun r j => pay22_apply i w x r j) _ mp lp r (pay23_apply i w x mp r)

end Cert.KernelIdeal.Body

end
-- ==== Proof.KBody2.lean ====
/-
  The rest of the kernel body's arithmetic read at an index, at the ideal instance: the target's logit added where the
  row's label equals the tile's class, the stores that only pass a value on, the resets at the first class tile, and the
  final loss (m + log l) - t of a row.
-/
import proofs.«406640_j61916248539750_2_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Body2

open Cert.KernelIdeal Cert.KernelIdeal.Gen Idealize.ShloMosaic Idealize.ShloMosaic.ValueIdx

/-- The source index over row r with lane k inserted is (r, k). -/
theorem lift_lane (h : S512x2048.Reduces [1] S512) (r : Fin 512) (k : Fin 2048) : h.lift (ix1 r) k = ix2 r k := by
  funext c
  match c with
  | ⟨0, _⟩ => exact Fin.ext rfl
  | ⟨1, _⟩ => exact Fin.ext rfl

/-- A [512] vector viewed as a [512, 1] column reads row r at (r, 0). -/
theorem shapeCast_col_apply {α : Type} (v : S512.Idx → α) (h : S512.ShapeCasts S512x1) (r : Fin 512) :
    shapeCast S512x1 v h (ix2 r 0) = v (ix1 r) := by
  refine shapeCast_apply v h (ix2 r 0) (ix1 r) ?_
  rw [Shape.rowMajor_val_one, Shape.rowMajor_val_two]
  show r.val = r.val * 1 + 0
  omega

/-- A [512, 1] column broadcast along the lanes reads (r, 0) at every (r, j). -/
theorem broadcastTo_col_apply {α : Type} (v : S512x1.Idx → α) (h : S512x1.Broadcasts S512x2048) (r : Fin 512) (j : Fin 2048) :
    broadcastTo S512x2048 v h (ix2 r j) = v (ix2 r 0) := by
  refine broadcastTo_apply v h (ix2 r j) (ix2 r 0) fun a => ?_
  match a with
  | ⟨0, _⟩ => rfl
  | ⟨1, _⟩ => rfl

/-- The class index of lane j of the tile at grid coordinate i 1 is (i 1) * 2048 + j. -/
theorem pay13_apply (i : grid0.Coords) (r : Fin 512) (j : Fin 2048) :
    k0_pay13 i (ix2 r j) = BitVec.ofNat 32 ((i 1).val * 2048 + j.val) := by
  unfold k0_pay13
  show IntOp.addi (Scalar.muli (BitVec.ofNat 32 (i 1).val) 2048#32) (iota .tc S512x2048 32 [1] iota_S512x2048_d1_w32 (ix2 r j)) = _
  rw [iota_single_apply]
  show BitVec.ofNat 32 (i 1).val * 2048#32 + BitVec.ofNat 32 j.val = _
  rw [BitVec.ofNat_add, BitVec.ofNat_mul]

/-- The label column broadcast along the lanes reads the row's label. -/
theorem pay18_apply (tgv : Vec Ideal S512x1 .i32) (r : Fin 512) (j : Fin 2048) :
    k0_pay18 (F := Ideal) tgv (ix2 r j) = tgv (ix2 r 0) := by
  unfold k0_pay18 k0_pay12
  rw [broadcastTo_col_apply, shapeCast_self]

/-- An equality compare against a word below 2^32 is 1 exactly when the unsigned readings agree. -/
theorem cmpi_eq_ofNat_iff (a : BitVec 32) (n : Nat) (hn : n < 2 ^ 32) :
    IntOp.cmpi .eq a (BitVec.ofNat 32 n) = 1#1 ↔ a.toNat = n := by
  have h1 : IntOp.cmpi .eq a (BitVec.ofNat 32 n) = 1#1 ↔ a = BitVec.ofNat 32 n := by
    show BitVec.ofBool (a == BitVec.ofNat 32 n) = 1#1 ↔ _
    by_cases e : a = BitVec.ofNat 32 n
    · subst e; simp
    · have hb : (a == BitVec.ofNat 32 n) = false := beq_eq_false_iff_ne.mpr e
      rw [hb]
      exact ⟨fun h => absurd h (by decide), fun h => absurd h e⟩
  rw [h1]
  constructor
  · intro h; rw [h, BitVec.toNat_ofNat]; exact Nat.mod_eq_of_lt hn
  · intro h; apply BitVec.eq_of_toNat_eq; rw [h, BitVec.toNat_ofNat]; exact (Nat.mod_eq_of_lt hn).symm

/-- The select on the label compare is the if on the label's class. -/
theorem select_label (i : grid0.Coords) (a : BitVec 32) (j : Fin 2048) (A : EReal) :
    Scalar.select (IntOp.cmpi .eq a (BitVec.ofNat 32 ((i 1).val * 2048 + j.val))) A (0 : EReal)
      = if a.toNat = (i 1).val * 2048 + j.val then A else 0 := by
  have hi : (i 1).val < 5 := (i 1).isLt
  have hj : j.val < 2048 := j.isLt
  have hn : (i 1).val * 2048 + j.val < 2 ^ 32 := by omega
  unfold Scalar.select
  by_cases h : a.toNat = (i 1).val * 2048 + j.val
  · rw [if_pos h]; exact if_pos ((cmpi_eq_ofNat_iff a _ hn).mpr h)
  · rw [if_neg h]; exact if_neg (fun hc => h ((cmpi_eq_ofNat_iff a _ hn).mp hc))

/-- The f32 pattern of negative infinity is the bottom extended real. -/
theorem ofBits_ninf_f32 : Ideal.ofBits .f32 0xFF800000#32 = (⊥ : EReal) := by
  simp [Ideal.ofBits, Ideal.ieee]

theorem pay19_apply (i : grid0.Coords) (w : Vec Ideal S2048x512 .bf16) (x : Vec Ideal S512x512 .bf16) (tgv : Vec Ideal S512x1 .i32)
    (tp : Vec Ideal S512x1 .f32) (r : Fin 512) :
    k0_pay19 (F := Ideal) (k0_pay13 i) (k0_pay15 i w x) (k0_pay18 tgv) tp (ix2 r 0)
      = tp (ix2 r 0) + ∑ j : Fin 2048, if (tgv (ix2 r 0) : BitVec 32).toNat = (i 1).val * 2048 + j.val then k0_pay15 (F := Ideal) i w x (ix2 r j) else 0 := by
  unfold k0_pay19
  rw [shapeCast_self, addf_apply, shapeCast_col_apply]
  refine congrArg (tp (ix2 r 0) + ·) ?_
  refine (Ideal.multiReduction_add_single _ 0x00000000#32 reduces_S512x2048_S512 _ _ (ix1 r)).trans ?_
  refine Finset.sum_congr rfl fun (j : Fin 2048) _ => ?_
  rw [lift_lane]
  show Scalar.select (IntOp.cmpi .eq (k0_pay18 (F := Ideal) tgv (ix2 r j)) (k0_pay13 i (ix2 r j))) (k0_pay15 (F := Ideal) i w x (ix2 r j)) (Ideal.ofBits .f32 0x00000000#32) = _
  rw [pay18_apply, pay13_apply, Ideal.ofBits_zero_f32]
  exact select_label i _ j _

theorem pay20_eq (v : FVec Ideal S512x1 .f32) : k0_pay20 (F := Ideal) v = v := by
  unfold k0_pay20; exact shapeCast_self _ _

theorem pay2_apply (i : grid0.Coords) (w : Vec Ideal S2048x512 .bf16) (x : Vec Ideal S512x512 .bf16) (tgv : Vec Ideal S512x1 .i32)
    (tp : Vec Ideal S512x1 .f32) (r : Fin 512) :
    k0_pay2 (F := Ideal) (k0_pay12 tgv) (k0_pay13 i) (k0_pay22 (k0_pay11 w) (k0_pay14 i) x) tp (ix2 r 0)
      = tp (ix2 r 0) + ∑ j : Fin 2048, if (tgv (ix2 r 0) : BitVec 32).toNat = (i 1).val * 2048 + j.val then k0_pay22 (F := Ideal) (k0_pay11 w) (k0_pay14 i) x (ix2 r j) else 0 := by
  unfold k0_pay2
  rw [shapeCast_self, addf_apply, shapeCast_col_apply]
  refine congrArg (tp (ix2 r 0) + ·) ?_
  refine (Ideal.multiReduction_add_single _ 0x00000000#32 reduces_S512x2048_S512 _ _ (ix1 r)).trans ?_
  refine Finset.sum_congr rfl fun (j : Fin 2048) _ => ?_
  rw [lift_lane]
  show Scalar.select (IntOp.cmpi .eq (broadcastTo S512x2048 (k0_pay12 (F := Ideal) tgv) broadcasts_S512x1_S512x2048 (ix2 r j)) (k0_pay13 i (ix2 r j)))
    (k0_pay22 (F := Ideal) (k0_pay11 w) (k0_pay14 i) x (ix2 r j)) (Ideal.ofBits .f32 0x00000000#32) = _
  rw [broadcastTo_col_apply, pay13_apply, Ideal.ofBits_zero_f32]
  unfold k0_pay12
  rw [shapeCast_self]
  exact select_label i _ j _

theorem pay1_eq (v : FVec Ideal S512x1 .f32) : k0_pay1 (F := Ideal) v = v := by
  unfold k0_pay1; exact shapeCast_self _ _

theorem pay3_eq (v : FVec Ideal S512x1 .f32) : k0_pay3 (F := Ideal) v = v := by
  unfold k0_pay3; exact shapeCast_self _ _

theorem pay5_apply (y : S512x1.Idx) : k0_pay5 (F := Ideal) y = (⊥ : EReal) := by
  unfold k0_pay5
  rw [shapeCast_self]
  exact ofBits_ninf_f32

theorem pay6_apply (y : S512x1.Idx) : k0_pay6 (F := Ideal) y = (0 : EReal) := by
  unfold k0_pay6
  rw [shapeCast_self]
  exact Ideal.ofBits_zero_f32

theorem pay7_apply (y : S512x1.Idx) : k0_pay7 (F := Ideal) y = (0 : EReal) := by
  unfold k0_pay7
  rw [shapeCast_self]
  exact Ideal.ofBits_zero_f32

theorem pay8_apply (y : S512x1.Idx) : k0_pay8 (F := Ideal) y = (⊥ : EReal) := by
  unfold k0_pay8
  rw [shapeCast_self]
  exact ofBits_ninf_f32

theorem pay9_apply (y : S512x1.Idx) : k0_pay9 (F := Ideal) y = (0 : EReal) := by
  unfold k0_pay9
  rw [shapeCast_self]
  exact Ideal.ofBits_zero_f32

theorem pay10_apply (y : S512x1.Idx) : k0_pay10 (F := Ideal) y = (0 : EReal) := by
  unfold k0_pay10
  rw [shapeCast_self]
  exact Ideal.ofBits_zero_f32

theorem pay21_apply (a b c : Vec Ideal S512x1 .f32) (y : S512x1.Idx) :
    k0_pay21 (F := Ideal) a b c y = (a y + Ideal.log (b y)) - c y := rfl

theorem pay4_apply (a b c : Vec Ideal S512x1 .f32) (y : S512x1.Idx) :
    k0_pay4 (F := Ideal) a b c y = (a y + Ideal.log (b y)) - c y := rfl

end Cert.KernelIdeal.Body2

end
-- ==== Proof.Spec.lean ====
/-
  The mathematics of the fused cross-entropy kernel, free of any program.

  Per batch row the kernel walks the class axis, padded from C = 10000 to 5 tiles of 2048, and carries three numbers:
  the running maximum m of the masked logits seen so far, the sum l of exp (logit - m) over them, and the target's logit t.
  A padded class carries the masked logit -infinity: it is the identity of the maximum and its exponential is 0. After the
  last tile the row's loss is (m + log l) - t. The reference takes the maximum M of the C logits once, and its row value
  is (x_tg - M) - log (sum_j exp (x_j - M)); the kernel's loss is its negation.
-/
import Idealize.ShloMosaic.PureOps.Ideal

noncomputable section

namespace Cert.Spec

open Idealize.ShloMosaic

/-- The logit of one row against one class row: the inner product over the feature axis. -/
def dot {K : ℕ} (x w : Fin K → EReal) : EReal := ∑ k, x k * w k

/-- The masked logit over the padded class axis: class `n` carries its logit when `n < C` and -infinity otherwise. -/
def masked {C : ℕ} (lg : Fin C → EReal) (n : ℕ) : EReal := if h : n < C then lg ⟨n, h⟩ else ⊥

/-- What a row carries between class tiles: the running maximum, the running sum of exponentials, the target's logit. -/
structure St where
  m : EReal
  l : EReal
  t : EReal

/-- Before the first tile: maximum -infinity, both sums zero. -/
def St.init : St := ⟨⊥, 0, 0⟩

/-- The maximum of the masked logits of tile `ci` (width `T`), over -infinity. -/
def tileMax (T : ℕ) (z : ℕ → EReal) (ci : ℕ) : EReal :=
  (Finset.univ : Finset (Fin T)).fold max ⊥ fun j : Fin T => z (ci * T + j.val)

/-- One class tile: the new maximum; the old sum rescaled by exp (m - m') plus the tile's exponentials at m'; the target's
    logit added where the tile holds the target class. -/
def step (T : ℕ) (z : ℕ → EReal) (tg : ℕ) (ci : ℕ) (s : St) : St :=
  let m' := max s.m (tileMax T z ci)
  ⟨m', Ideal.exp (s.m - m') * s.l + ∑ j : Fin T, Ideal.exp (z (ci * T + j.val) - m'),
    s.t + ∑ j : Fin T, if tg = ci * T + j.val then z (ci * T + j.val) else 0⟩

/-- The state after the first `n` tiles. -/
def run (T : ℕ) (z : ℕ → EReal) (tg : ℕ) : ℕ → St
  | 0 => St.init
  | n + 1 => step T z tg n (run T z tg n)

/-- The kernel's loss of one row after `nT` tiles: log-sum-exp minus the target's logit. -/
def rowLoss (T nT : ℕ) (z : ℕ → EReal) (tg : ℕ) : EReal :=
  ((run T z tg nT).m + Ideal.log (run T z tg nT).l) - (run T z tg nT).t

/-- The reference's row maximum: the C logits over -infinity. -/
def refMax {C : ℕ} (lg : Fin C → EReal) : EReal := (Finset.univ : Finset (Fin C)).fold max ⊥ lg

/-- The reference's log-softmax of one row at the target class. -/
def refLogp {C : ℕ} (lg : Fin C → EReal) (tg : Fin C) : EReal :=
  (lg tg - refMax lg) - Ideal.log (∑ j, Ideal.exp (lg j - refMax lg))

end Cert.Spec

end
-- ==== Proof.KStep.lean ====
/-
  One class tile of the kernel body, row by row, is Spec.step. The body's updated columns (new maximum, new sum of
  exponentials, new target logit; soft path and hard path) read at row r are the components of Spec.step applied to the state
  the old columns hold at row r, once the tile's masked logits of row r are the row's masked logits z over the padded class
  axis and the block's label is the row's label. The reset columns hold Spec.St.init.
-/
import proofs.«406640_j61916248539750_2_alg».proof.Proof.KBody
import proofs.«406640_j61916248539750_2_alg».proof.Proof.KBody2
import proofs.«406640_j61916248539750_2_alg».proof.Proof.Spec

noncomputable section

namespace Cert.KernelIdeal.Step

open Cert.KernelIdeal Cert.KernelIdeal.Gen Idealize.ShloMosaic Idealize.ShloMosaic.ValueIdx

section
variable {F : FTy → Type} [FloatOps F] [Named F]

/-- The updated state of one tile as the body computes it: the soft path's maximum, sum and target logit, then the hard path's. -/
def newMs (i : grid0.Coords) (x0 : Vec F S512x512 .bf16) (x2 : Vec F S2048x512 .bf16) (ms : Vec F S512x1 .f32) : FVec F S512x1 .f32 :=
  k0_pay20 (k0_pay16 i x2 x0 ms)
def newLs (i : grid0.Coords) (x0 : Vec F S512x512 .bf16) (x2 : Vec F S2048x512 .bf16) (ms ls : Vec F S512x1 .f32) : FVec F S512x1 .f32 :=
  k0_pay17 i x2 x0 ms ls
def newTs (i : grid0.Coords) (x0 : Vec F S512x512 .bf16) (x2 : Vec F S2048x512 .bf16) (x3 : Vec F S512x1 .i32) (ts : Vec F S512x1 .f32) : FVec F S512x1 .f32 :=
  k0_pay19 (k0_pay13 i) (k0_pay15 i x2 x0) (k0_pay18 x3) ts
def newMh (i : grid0.Coords) (x1 : Vec F S512x512 .bf16) (x2 : Vec F S2048x512 .bf16) (mh : Vec F S512x1 .f32) : FVec F S512x1 .f32 :=
  k0_pay3 (k0_pay23 (k0_pay11 x2) (k0_pay14 i) x1 mh)
def newLh (i : grid0.Coords) (x1 : Vec F S512x512 .bf16) (x2 : Vec F S2048x512 .bf16) (mh lh : Vec F S512x1 .f32) : FVec F S512x1 .f32 :=
  k0_pay1 (k0_pay24 (k0_pay11 x2) (k0_pay14 i) x1 mh lh)
def newTh (i : grid0.Coords) (x1 : Vec F S512x512 .bf16) (x2 : Vec F S2048x512 .bf16) (x3 : Vec F S512x1 .i32) (th : Vec F S512x1 .f32) : FVec F S512x1 .f32 :=
  k0_pay2 (k0_pay12 x3) (k0_pay13 i) (k0_pay22 (k0_pay11 x2) (k0_pay14 i) x1) th

end

/-- The soft path's tile at row `r`. -/
theorem soft_step (i : grid0.Coords) (x0 : Vec Ideal S512x512 .bf16) (x2 : Vec Ideal S2048x512 .bf16) (x3 : Vec Ideal S512x1 .i32)
    (ms ls ts : Vec Ideal S512x1 .f32) (r : Fin 512) (z : ℕ → EReal) (tg : ℕ) (s : Spec.St)
    (hz : ∀ j : Fin 2048, Body.zt i x0 x2 r j = z ((i 1).val * 2048 + j.val))
    (htg : (x3 (ix2 r 0) : BitVec 32).toNat = tg)
    (hm : (ms (ix2 r 0) : EReal) = s.m) (hl : (ls (ix2 r 0) : EReal) = s.l) (ht : (ts (ix2 r 0) : EReal) = s.t) :
    (newMs (F := Ideal) i x0 x2 ms (ix2 r 0) : EReal) = (Spec.step 2048 z tg (i 1).val s).m
    ∧ (newLs (F := Ideal) i x0 x2 ms ls (ix2 r 0) : EReal) = (Spec.step 2048 z tg (i 1).val s).l
    ∧ (newTs (F := Ideal) i x0 x2 x3 ts (ix2 r 0) : EReal) = (Spec.step 2048 z tg (i 1).val s).t := by
  have hf : (fun j : Fin 2048 => Body.zt i x0 x2 r j) = fun j : Fin 2048 => z ((i 1).val * 2048 + j.val) := funext hz
  have hmax : Body.ztMax i x0 x2 r = Spec.tileMax 2048 z (i 1).val := by
    unfold Body.ztMax Spec.tileMax
    rw [hf]
  refine ⟨?_, ?_, ?_⟩
  · unfold newMs
    rw [Body2.pay20_eq, Body.pay16_apply, hm, hmax]
    rfl
  · unfold newLs
    rw [Body.pay17_apply, hm, hl, hmax]
    simp only [hz]
    rfl
  · unfold newTs
    rw [Body2.pay19_apply, htg, ht]
    simp only [Body.pay15_apply, hz]
    rfl

/-- The hard path's tile at row `r`. -/
theorem hard_step (i : grid0.Coords) (x1 : Vec Ideal S512x512 .bf16) (x2 : Vec Ideal S2048x512 .bf16) (x3 : Vec Ideal S512x1 .i32)
    (mh lh th : Vec Ideal S512x1 .f32) (r : Fin 512) (z : ℕ → EReal) (tg : ℕ) (s : Spec.St)
    (hz : ∀ j : Fin 2048, Body.zt i x1 x2 r j = z ((i 1).val * 2048 + j.val))
    (htg : (x3 (ix2 r 0) : BitVec 32).toNat = tg)
    (hm : (mh (ix2 r 0) : EReal) = s.m) (hl : (lh (ix2 r 0) : EReal) = s.l) (ht : (th (ix2 r 0) : EReal) = s.t) :
    (newMh (F := Ideal) i x1 x2 mh (ix2 r 0) : EReal) = (Spec.step 2048 z tg (i 1).val s).m
    ∧ (newLh (F := Ideal) i x1 x2 mh lh (ix2 r 0) : EReal) = (Spec.step 2048 z tg (i 1).val s).l
    ∧ (newTh (F := Ideal) i x1 x2 x3 th (ix2 r 0) : EReal) = (Spec.step 2048 z tg (i 1).val s).t := by
  have hf : (fun j : Fin 2048 => Body.zt i x1 x2 r j) = fun j : Fin 2048 => z ((i 1).val * 2048 + j.val) := funext hz
  have hmax : Body.ztMax i x1 x2 r = Spec.tileMax 2048 z (i 1).val := by
    unfold Body.ztMax Spec.tileMax
    rw [hf]
  refine ⟨?_, ?_, ?_⟩
  · unfold newMh
    rw [Body2.pay3_eq, Body.pay23_apply, hm, hmax]
    rfl
  · unfold newLh
    rw [Body2.pay1_eq, Body.pay24_apply, hm, hl, hmax]
    simp only [hz]
    rfl
  · unfold newTh
    rw [Body2.pay2_apply, htg, ht]
    simp only [Body.pay22_apply, hz]
    rfl

/-- The reset columns hold the initial state. -/
theorem reset_soft (y : S512x1.Idx) :
    (k0_pay5 (F := Ideal) y : EReal) = Spec.St.init.m ∧ (k0_pay6 (F := Ideal) y : EReal) = Spec.St.init.l
      ∧ (k0_pay7 (F := Ideal) y : EReal) = Spec.St.init.t := by
  exact ⟨Body2.pay5_apply y, Body2.pay6_apply y, Body2.pay7_apply y⟩

theorem reset_hard (y : S512x1.Idx) :
    (k0_pay8 (F := Ideal) y : EReal) = Spec.St.init.m ∧ (k0_pay9 (F := Ideal) y : EReal) = Spec.St.init.l
      ∧ (k0_pay10 (F := Ideal) y : EReal) = Spec.St.init.t := by
  exact ⟨Body2.pay8_apply y, Body2.pay9_apply y, Body2.pay10_apply y⟩

end Cert.KernelIdeal.Step

end
-- ==== Proof.KPieces.lean ====
/-
  What each control case of the kernel body leaves in the six carried scratch buffers and, at the last class tile, in the
  two output blocks, as the body's own arithmetic of the point's input blocks and of what the scratch held before: the
  first class tile starts from the reset values, the others from what the point before left; the last tile also writes
  (m + log l) - t of the updated state.
-/
import proofs.«406640_j61916248539750_2_alg».proof.Proof.KernelIdealFrameP
import proofs.«406640_j61916248539750_2_alg».proof.Proof.KStep
import Idealize.ShloMosaic.Lib.Pipeline.Value
import Idealize.ShloMosaic.Lib.Tactic

noncomputable section

namespace Cert.KernelIdeal.Pieces

open Cert.KernelIdeal Cert.KernelIdeal.Gen Cert.KernelIdeal.Step Idealize.ShloMosaic Idealize.ShloMosaic.TcCoe Idealize.SL.Sem

variable {F : FTy → Type} [FloatOps F] [Named F]

/-- The zero offsets of a whole-buffer load or store. -/
theorem hz : (![0, 0] : Fin 2 → Nat) = fun _ => 0 := funext fun a => by fin_cases a <;> rfl

theorem soutA_0 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_0 c i a2 h2 a3 h3 a4 h4 a5 h5 a6 h6 a7 h7 a8 h8 a9 h9 a10 h10 a11 h11 a12 h12 a13 h13 hc0 hc1 hc2 x0 x1 x2 x3 = newMs i x0 x2 (k0_pay5 (F := F)) := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMs]

theorem soutA_1 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_1 c i a2 h2 a3 h3 a4 h4 a5 h5 a6 h6 a7 h7 a8 h8 a9 h9 a10 h10 a11 h11 a12 h12 a13 h13 hc0 hc1 hc2 x0 x1 x2 x3 = newLs i x0 x2 (k0_pay5 (F := F)) (k0_pay6 (F := F)) := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLs]

theorem soutA_2 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_2 c i a2 h2 a3 h3 a4 h4 a5 h5 a6 h6 a7 h7 a8 h8 a9 h9 a10 h10 a11 h11 a12 h12 a13 h13 hc0 hc1 hc2 x0 x1 x2 x3 = newTs i x0 x2 x3 (k0_pay7 (F := F)) := by
  unfold sout0_A_2
  rw [View.read_writes_eq_canon _ _ _ (scover0_A_2 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTs]

theorem soutA_3 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_3 c i a2 h2 a3 h3 a4 h4 a5 h5 a6 h6 a7 h7 a8 h8 a9 h9 a10 h10 a11 h11 a12 h12 a13 h13 hc0 hc1 hc2 x0 x1 x2 x3 = newMh i x1 x2 (k0_pay8 (F := F)) := by
  unfold sout0_A_3
  rw [View.read_writes_eq_canon _ _ _ (scover0_A_3 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMh]

theorem soutA_4 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_4 c i a2 h2 a3 h3 a4 h4 a5 h5 a6 h6 a7 h7 a8 h8 a9 h9 a10 h10 a11 h11 a12 h12 a13 h13 hc0 hc1 hc2 x0 x1 x2 x3 = newLh i x1 x2 (k0_pay8 (F := F)) (k0_pay9 (F := F)) := by
  unfold sout0_A_4
  rw [View.read_writes_eq_canon _ _ _ (scover0_A_4 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLh]

theorem soutA_5 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : cond0_0 i) (hc1 : ¬cond0_1 i) (hc2 : ¬cond0_2 i) (x0 x1 : Vec F S512x512 .bf16) (x2 : Vec F S2048x512 .bf16) (x3 : Vec F S512x1 .i32) :
    sout0_A_5 c i a2 h2 a3 h3 a4 h4 a5 h5 a6 h6 a7 h7 a8 h8 a9 h9 a10 h10 a11 h11 a12 h12 a13 h13 hc0 hc1 hc2 x0 x1 x2 x3 = newTh i x1 x2 x3 (k0_pay10 (F := F)) := by
  unfold sout0_A_5
  rw [View.read_writes_eq_canon _ _ _ (scover0_A_5 c i a2 h2 a3 h3 a4 h4 a5 h5 a6 h6 a7 h7 a8 h8 a9 h9 a10 h10 a11 h11 a12 h12 a13 h13 hc0 hc1 hc2 x0 x1 x2 x3)]
  unfold kernelRun0_A
  dsimp only
  sl_unfold_words
  rw [View.canon_cons_unit_zero (S := S512x1) hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTh]

theorem soutB_0 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_0 c i a2 h2 a3 h3 a4 h4 a5 h5 a6 h6 a7 h7 a8 h8 a9 h9 a10 h10 a11 h11 a12 h12 a13 h13 hc0 hc1 hc2 x0 x1 x2 x3 s0 s1 s2 s3 s4 s5 = newMs i x0 x2 s0 := by
  unfold sout0_B_0
  rw [View.read_writes_eq_canon _ _ _ (scover0_B_0 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMs]

theorem soutB_1 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_1 c i a2 h2 a3 h3 a4 h4 a5 h5 a6 h6 a7 h7 a8 h8 a9 h9 a10 h10 a11 h11 a12 h12 a13 h13 hc0 hc1 hc2 x0 x1 x2 x3 s0 s1 s2 s3 s4 s5 = newLs i x0 x2 s0 s1 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLs]

theorem soutB_2 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_2 c i a2 h2 a3 h3 a4 h4 a5 h5 a6 h6 a7 h7 a8 h8 a9 h9 a10 h10 a11 h11 a12 h12 a13 h13 hc0 hc1 hc2 x0 x1 x2 x3 s0 s1 s2 s3 s4 s5 = newTs i x0 x2 x3 s2 := by
  unfold sout0_B_2
  rw [View.read_writes_eq_canon _ _ _ (scover0_B_2 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTs]

theorem soutB_3 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_3 c i a2 h2 a3 h3 a4 h4 a5 h5 a6 h6 a7 h7 a8 h8 a9 h9 a10 h10 a11 h11 a12 h12 a13 h13 hc0 hc1 hc2 x0 x1 x2 x3 s0 s1 s2 s3 s4 s5 = newMh i x1 x2 s3 := by
  unfold sout0_B_3
  rw [View.read_writes_eq_canon _ _ _ (scover0_B_3 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMh]

theorem soutB_4 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_4 c i a2 h2 a3 h3 a4 h4 a5 h5 a6 h6 a7 h7 a8 h8 a9 h9 a10 h10 a11 h11 a12 h12 a13 h13 hc0 hc1 hc2 x0 x1 x2 x3 s0 s1 s2 s3 s4 s5 = newLh i x1 x2 s3 s4 := by
  unfold sout0_B_4
  rw [View.read_writes_eq_canon _ _ _ (scover0_B_4 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLh]

theorem soutB_5 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : ¬cond0_1 i) (hc2 : ¬cond0_2 i) (x0 x1 : Vec F S512x512 .bf16) (x2 : Vec F S2048x512 .bf16) (x3 : Vec F S512x1 .i32) (s0 s1 s2 s3 s4 s5 : Vec F S512x1 .f32) :
    sout0_B_5 c i a2 h2 a3 h3 a4 h4 a5 h5 a6 h6 a7 h7 a8 h8 a9 h9 a10 h10 a11 h11 a12 h12 a13 h13 hc0 hc1 hc2 x0 x1 x2 x3 s0 s1 s2 s3 s4 s5 = newTh i x1 x2 x3 s5 := by
  unfold sout0_B_5
  rw [View.read_writes_eq_canon _ _ _ (scover0_B_5 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_B
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTh]

theorem soutC_0 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_0 c i a2 h2 a3 h3 a4 h4 a5 h5 a6 h6 a7 h7 a8 h8 a9 h9 a10 h10 a11 h11 a12 h12 a13 h13 hc0 hc1 hc2 x0 x1 x2 x3 s0 s1 s2 s3 s4 s5 = newMs i x0 x2 s0 := by
  unfold sout0_C_0
  rw [View.read_writes_eq_canon _ _ _ (scover0_C_0 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMs]

theorem soutC_1 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_1 c i a2 h2 a3 h3 a4 h4 a5 h5 a6 h6 a7 h7 a8 h8 a9 h9 a10 h10 a11 h11 a12 h12 a13 h13 hc0 hc1 hc2 x0 x1 x2 x3 s0 s1 s2 s3 s4 s5 = newLs i x0 x2 s0 s1 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLs]

theorem soutC_2 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_2 c i a2 h2 a3 h3 a4 h4 a5 h5 a6 h6 a7 h7 a8 h8 a9 h9 a10 h10 a11 h11 a12 h12 a13 h13 hc0 hc1 hc2 x0 x1 x2 x3 s0 s1 s2 s3 s4 s5 = newTs i x0 x2 x3 s2 := by
  unfold sout0_C_2
  rw [View.read_writes_eq_canon _ _ _ (scover0_C_2 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTs]

theorem soutC_3 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_3 c i a2 h2 a3 h3 a4 h4 a5 h5 a6 h6 a7 h7 a8 h8 a9 h9 a10 h10 a11 h11 a12 h12 a13 h13 hc0 hc1 hc2 x0 x1 x2 x3 s0 s1 s2 s3 s4 s5 = newMh i x1 x2 s3 := by
  unfold sout0_C_3
  rw [View.read_writes_eq_canon _ _ _ (scover0_C_3 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMh]

theorem soutC_4 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_4 c i a2 h2 a3 h3 a4 h4 a5 h5 a6 h6 a7 h7 a8 h8 a9 h9 a10 h10 a11 h11 a12 h12 a13 h13 hc0 hc1 hc2 x0 x1 x2 x3 s0 s1 s2 s3 s4 s5 = newLh i x1 x2 s3 s4 := by
  unfold sout0_C_4
  rw [View.read_writes_eq_canon _ _ _ (scover0_C_4 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newLh]

theorem soutC_5 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    sout0_C_5 c i a2 h2 a3 h3 a4 h4 a5 h5 a6 h6 a7 h7 a8 h8 a9 h9 a10 h10 a11 h11 a12 h12 a13 h13 hc0 hc1 hc2 x0 x1 x2 x3 s0 s1 s2 s3 s4 s5 = newTh i x1 x2 x3 s5 := by
  unfold sout0_C_5
  rw [View.read_writes_eq_canon _ _ _ (scover0_C_5 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newTh]

theorem outC_4 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    out0_C_4 c i a2 h2 a3 h3 a4 h4 a5 h5 a6 h6 a7 h7 a8 h8 a9 h9 a10 h10 a11 h11 a12 h12 a13 h13 hc0 hc1 hc2 x0 x1 x2 x3 s0 s1 s2 s3 s4 s5
      = k0_pay21 (newMs i x0 x2 s0) (newLs i x0 x2 s0 s1) (newTs i x0 x2 x3 s2) := by
  unfold out0_C_4
  rw [View.read_writes_eq_canon _ _ _ (cover0_C_4 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMs, newLs, newTs, newMh, newLh, newTh]

theorem outC_5 (c : Dev nD) (i : grid0.Coords) (a2 : Memref sig .tc .vmem S512x512 .bf16) (h2 : a2.IsWhole) (a3 : Memref sig .tc .vmem S512x512 .bf16) (h3 : a3.IsWhole) (a4 : Memref sig .tc .vmem S2048x512 .bf16) (h4 : a4.IsWhole) (a5 : Memref sig .tc .vmem S512x1 .i32) (h5 : a5.IsWhole) (a6 : Memref sig .tc .vmem S512x1 .f32) (h6 : a6.IsWhole) (a7 : Memref sig .tc .vmem S512x1 .f32) (h7 : a7.IsWhole) (a8 : Memref sig .tc .vmem S512x1 .f32) (h8 : a8.IsWhole) (a9 : Memref sig .tc .vmem S512x1 .f32) (h9 : a9.IsWhole) (a10 : Memref sig .tc .vmem S512x1 .f32) (h10 : a10.IsWhole) (a11 : Memref sig .tc .vmem S512x1 .f32) (h11 : a11.IsWhole) (a12 : Memref sig .tc .vmem S512x1 .f32) (h12 : a12.IsWhole) (a13 : Memref sig .tc .vmem S512x1 .f32) (h13 : a13.IsWhole)
    (hc0 : ¬cond0_0 i) (hc1 : cond0_1 i) (hc2 : cond0_2 i) (x0 x1 : Vec F S512x512 .bf16) (x2 : Vec F S2048x512 .bf16) (x3 : Vec F S512x1 .i32) (s0 s1 s2 s3 s4 s5 : Vec F S512x1 .f32) :
    out0_C_5 c i a2 h2 a3 h3 a4 h4 a5 h5 a6 h6 a7 h7 a8 h8 a9 h9 a10 h10 a11 h11 a12 h12 a13 h13 hc0 hc1 hc2 x0 x1 x2 x3 s0 s1 s2 s3 s4 s5
      = k0_pay4 (newMh i x1 x2 s3) (newLh i x1 x2 s3 s4) (newTh i x1 x2 x3 s5) := by
  unfold out0_C_5
  rw [View.read_writes_eq_canon _ _ _ (cover0_C_5 c i a2 h2 a3 h3 a4 h4 a5 h5 a6 h6 a7 h7 a8 h8 a9 h9 a10 h10 a11 h11 a12 h12 a13 h13 hc0 hc1 hc2 x0 x1 x2 x3 s0 s1 s2 s3 s4 s5)]
  unfold kernelRun0_C
  dsimp only
  sl_unfold_words
  rw [View.canon_unit_zero hz]
  simp only [View.readAt_eq_ld, h2.read_unread, h3.read_unread, h4.read_unread, h5.read_unread, h8.read_unread, h9.read_unread, h10.read_unread, h11.read_unread, h12.read_unread, h13.read_unread, View.ld_unit_zero (S := S512x1) hz, View.ld_unit_zero (S := S512x512) hz, View.ld_unit_zero (S := S2048x512) hz, View.readCov_unit_zero (S := S512x1) _ hz, newMs, newLs, newTs, newMh, newLh, newTh]

end Cert.KernelIdeal.Pieces

end
-- ==== Proof.KBlocks.lean ====
/-
  The input blocks of a grid point read at an index. Point t of the 8 x 5 grid (batch tile t / 5, class tile t % 5, the
  class axis running fastest) stages rows (t / 5) * 512 + r of the two batches and of the label column, and rows
  (t % 5) * 2048 + j of the padded weights: a block's coordinate is always index * size + the coordinate inside the block.
-/
import proofs.«406640_j61916248539750_2_alg».proof.Proof.Gen.KernelIdeal.Frame.Runs
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The grid has 40 points. -/
theorem N_eq : cfg0.N = 40 := N_0

/-- The class-tile coordinate of point `t`. -/
theorem coords_1 (t : Fin cfg0.N) : ((grid0.coords t) 1).val = t.val % 5 :=
  (by decide +kernel : ∀ t : Fin grid0.N, ((grid0.coords t) 1).val = t.val % 5) t

/-- The batch-tile coordinate of point `t`. -/
theorem coords_0 (t : Fin cfg0.N) : ((grid0.coords t) 0).val = t.val / 5 :=
  (by decide +kernel : ∀ t : Fin grid0.N, ((grid0.coords t) 0).val = t.val / 5) t

/-- The input blocks of point `t`, at their literal types. -/
abbrev xsBlk (c : Dev nD) (t : Fin cfg0.N) : Vec Ideal S512x512 .bf16 := iblk m c 0 t
abbrev xhBlk (c : Dev nD) (t : Fin cfg0.N) : Vec Ideal S512x512 .bf16 := iblk m c 1 t
abbrev wBlk (c : Dev nD) (t : Fin cfg0.N) : Vec Ideal S2048x512 .bf16 := iblk m c 2 t
abbrev tgBlk (c : Dev nD) (t : Fin cfg0.N) : Vec Ideal S512x1 .i32 := iblk m c 3 t

theorem rowLt (t : Fin cfg0.N) (r : Fin 512) : t.val / 5 * 512 + r.val < 4096 := by
  have h : t.val < 40 := lt_of_lt_of_eq t.isLt N_eq
  have hr := r.isLt
  omega

theorem clsLt (t : Fin cfg0.N) (j : Fin 2048) : t.val % 5 * 2048 + j.val < 10240 := by
  have hj := j.isLt
  omega

/-- The block indices of the four input windows over the grid: the two batches and the label column sit at block row
    `t / 5`, the padded weights at block row `t % 5`, every window at block column 0. -/
theorem blockIndex : ∀ t : Fin cfg0.N,
    win0_0.index t (0 : Fin 2) = t.val / 5 ∧ win0_0.index t (1 : Fin 2) = 0
    ∧ win0_1.index t (0 : Fin 2) = t.val / 5 ∧ win0_1.index t (1 : Fin 2) = 0
    ∧ win0_2.index t (0 : Fin 2) = t.val % 5 ∧ win0_2.index t (1 : Fin 2) = 0
    ∧ win0_3.index t (0 : Fin 2) = t.val / 5 ∧ win0_3.index t (1 : Fin 2) = 0 :=
  (by decide +kernel : ∀ t : Fin grid0.N, _)

theorem xsBlk_apply (c : Dev nD) (t : Fin cfg0.N) (r k : Fin 512) :
    (xsBlk m c t : S512x512.Idx → EReal) (ix2 r k)
      = (V m c main_v2 : S4096x512.Idx → EReal) (ix2 ⟨t.val / 5 * 512 + r.val, rowLt t r⟩ k) := by
  obtain ⟨e0, e1, -⟩ := blockIndex t
  show V m c main_v2 (((cfg0.win 0).blk t).view.emb (ix2 r k)) = V m c main_v2 (ix2 ⟨t.val / 5 * 512 + r.val, rowLt t r⟩ k)
  refine congrArg (V m c main_v2) ?_
  funext a; apply Fin.ext
  match a with
  | ⟨0, _⟩ => show win0_0.index t (0 : Fin 2) * 512 + 1 * r.val = t.val / 5 * 512 + r.val; omega
  | ⟨1, _⟩ => show win0_0.index t (1 : Fin 2) * 512 + 1 * k.val = k.val; omega

theorem xhBlk_apply (c : Dev nD) (t : Fin cfg0.N) (r k : Fin 512) :
    (xhBlk m c t : S512x512.Idx → EReal) (ix2 r k)
      = (V m c main_v3 : S4096x512.Idx → EReal) (ix2 ⟨t.val / 5 * 512 + r.val, rowLt t r⟩ k) := by
  obtain ⟨-, -, e0, e1, -⟩ := blockIndex t
  show V m c main_v3 (((cfg0.win 1).blk t).view.emb (ix2 r k)) = V m c main_v3 (ix2 ⟨t.val / 5 * 512 + r.val, rowLt t r⟩ k)
  refine congrArg (V m c main_v3) ?_
  funext a; apply Fin.ext
  match a with
  | ⟨0, _⟩ => show win0_1.index t (0 : Fin 2) * 512 + 1 * r.val = t.val / 5 * 512 + r.val; omega
  | ⟨1, _⟩ => show win0_1.index t (1 : Fin 2) * 512 + 1 * k.val = k.val; omega

theorem wBlk_apply (c : Dev nD) (t : Fin cfg0.N) (j : Fin 2048) (k : Fin 512) :
    (wBlk m c t : S2048x512.Idx → EReal) (ix2 j k)
      = (V m c main_v1 : S10240x512.Idx → EReal) (ix2 ⟨t.val % 5 * 2048 + j.val, clsLt t j⟩ k) := by
  obtain ⟨-, -, -, -, e0, e1, -⟩ := blockIndex t
  show V m c main_v1 (((cfg0.win 2).blk t).view.emb (ix2 j k)) = V m c main_v1 (ix2 ⟨t.val % 5 * 2048 + j.val, clsLt t j⟩ k)
  refine congrArg (V m c main_v1) ?_
  funext a; apply Fin.ext
  match a with
  | ⟨0, _⟩ => show win0_2.index t (0 : Fin 2) * 2048 + 1 * j.val = t.val % 5 * 2048 + j.val; omega
  | ⟨1, _⟩ => show win0_2.index t (1 : Fin 2) * 512 + 1 * k.val = k.val; omega

theorem tgBlk_apply (c : Dev nD) (t : Fin cfg0.N) (r : Fin 512) :
    (tgBlk m c t : S512x1.Idx → BitVec 32) (ix2 r 0)
      = (V m c main_v5 : S4096x1.Idx → BitVec 32) (ix2 ⟨t.val / 5 * 512 + r.val, rowLt t r⟩ 0) := by
  obtain ⟨-, -, -, -, -, -, e0, e1⟩ := blockIndex t
  show V m c main_v5 (((cfg0.win 3).blk t).view.emb (ix2 r 0)) = V m c main_v5 (ix2 ⟨t.val / 5 * 512 + r.val, rowLt t r⟩ 0)
  refine congrArg (V m c main_v5) ?_
  funext a; apply Fin.ext
  match a with
  | ⟨0, _⟩ => show win0_3.index t (0 : Fin 2) * 512 + 1 * r.val = t.val / 5 * 512 + r.val; omega
  | ⟨1, _⟩ => show win0_3.index t (1 : Fin 2) * 1 + 1 * (0 : Fin 1).val = (0 : Fin 1).val; omega

end Cert.KernelIdeal.Blocks

end
-- ==== Proof.KHost.lean ====
/-
  The arrays the kernel region finds, read at an index at the ideal instance: the two batches unchanged (a change of float
  format is the identity), the weights padded with 240 zero rows, the labels clamped into [0, 9999] and laid out as a column.
-/
import proofs.«406640_j61916248539750_2_alg».proof.Proof.Gen.KernelIdeal.Frame.Runs
import Idealize.ShloMosaic.Lib.StableHlo.Run
import Idealize.ShloMosaic.Lib.ValueIdx
import Idealize.ShloMosaic.Lib.Pipeline.Value
import Idealize.ShloMosaic.Lib.ValueLayout
import Idealize.ShloMosaic.Lib.KernelVsHost

noncomputable section

namespace Cert.KernelIdeal.HostIn

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-! ## The composed terms -/

/-- The clamp of a label array into [0, 9999], as the host operations compose it: the maximum with the constant 0
    array, then the minimum with the constant 9999 array. -/
abbrev clampTerm (x : S4096.Idx → BitVec 32) : S4096.Idx → BitVec 32 :=
  minsi (broadcastInDim S4096 ![] bcast_S_S4096 (constantI S_ 32 9999#32))
    (maxsi (broadcastInDim S4096 ![] bcast_S_S4096 (constantI S_ 32 0#32)) x)

/-- The weights as the region finds them: the argument array padded by 240 rows of the converted integer zero (the
    change of float format after it is the identity). -/
theorem V_v1_eq (c : Dev nD) :
    (V m c main_v1 : S10240x512.Idx → EReal)
      = pad S10240x512 ![0, 0] ![240, 0] ![0, 0] (m ((c : Thread nD τ).loc main_arg4) : S10000x512.Idx → EReal)
          (sitofp (F := Ideal) .f32 (constantI S_ 32 0#32)) pads_S10000x512_S10240x512_02400_000 h_S_ := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The clamped labels as a rank-1 array. -/
theorem V_v4_eq (c : Dev nD) :
    (V m c main_v4 : S4096.Idx → BitVec 32) = clampTerm (m ((c : Thread nD τ).loc main_arg2) : S4096.Idx → BitVec 32) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The label column: the clamped labels laid out as [4096, 1]. -/
theorem V_v5_eq (c : Dev nD) :
    (V m c main_v5 : S4096x1.Idx → BitVec 32)
      = shapeCast S4096x1 (clampTerm (m ((c : Thread nD τ).loc main_arg2) : S4096.Idx → BitVec 32)) shapeCasts_S4096_S4096x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-! ## The composed terms read at an index, over any argument array -/

/-- The clamp read at a label: the minimum of 9999 and the maximum of 0 and the label. -/
theorem clampTerm_apply (x : S4096.Idx → BitVec 32) (b : Fin 4096) :
    clampTerm x (ix1 b) = IntOp.minsi 9999#32 (IntOp.maxsi 0#32 (x (ix1 b))) := rfl

/-- The clamped labels laid out as a column, read at (b, 0): the clamp of label b (row b of a column of width one is
    position b in row-major order). -/
theorem clampCol_apply (x : S4096.Idx → BitVec 32) (b : Fin 4096) :
    shapeCast S4096x1 (clampTerm x) shapeCasts_S4096_S4096x1 (ix2 b 0)
      = IntOp.minsi 9999#32 (IntOp.maxsi 0#32 (x (ix1 b))) := by
  rw [shapeCast_apply _ _ (ix2 b 0) (ix1 b) (by
    rw [Shape.rowMajor_val_two, Shape.rowMajor_val_one]
    show b.val = b.val * 1 + 0
    omega)]
  exact clampTerm_apply x b

/-- An array of 10000 rows padded by 240 rows of the converted integer zero, read at (j, k): the array's entry in the
    first 10000 rows, zero below them (the integer zero converts to the real zero). -/
theorem padTerm_apply (x : S10000x512.Idx → EReal) (j : Fin 10240) (k : Fin 512) :
    pad S10240x512 ![0, 0] ![240, 0] ![0, 0] x (sitofp (F := Ideal) .f32 (constantI S_ 32 0#32))
        pads_S10000x512_S10240x512_02400_000 h_S_ (ix2 j k)
      = if h : j.val < 10000 then x (ix2 ⟨j.val, h⟩ k) else (0 : EReal) := by
  by_cases h : j.val < 10000
  · rw [dif_pos h]
    refine pad_apply_of_inside _ _ _ _ _ _ _ (ix2 j k) (ix2 ⟨j.val, h⟩ k) (fun a => ?_)
    match a with
    | ⟨0, _⟩ => show j.val = 0 + j.val * (0 + 1); omega
    | ⟨1, _⟩ => show k.val = 0 + k.val * (0 + 1); omega
  · rw [dif_neg h]
    rw [pad_apply_of_not_inside _ _ _ _ _ _ _ (ix2 j k) (0 : Fin 2) (fun hin => h (by
      have h3 : (j.val - 0) / (0 + 1) < 10000 := hin.2.2
      have e : (j.val - 0) / (0 + 1) = j.val := by simp
      exact e ▸ h3))]
    show (((0#32 : BitVec 32).toInt : ℝ) : EReal) = 0
    simp

/-! ## The arrays the region finds -/

/-- The soft batch as the region finds it: the argument array. -/
theorem V_xs (c : Dev nD) :
    (V m c main_v2 : S4096x512.Idx → EReal) = (m ((c : Thread nD τ).loc main_arg0) : S4096x512.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The hard batch as the region finds it: the argument array. -/
theorem V_xh (c : Dev nD) :
    (V m c main_v3 : S4096x512.Idx → EReal) = (m ((c : Thread nD τ).loc main_arg1) : S4096x512.Idx → EReal) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- The padded weights at (j, k): the weight row below 10000, zero in the 240 padding rows. -/
theorem V_w (c : Dev nD) (j : Fin 10240) (k : Fin 512) :
    (V m c main_v1 : S10240x512.Idx → EReal) (ix2 j k)
      = if h : j.val < 10000 then (m ((c : Thread nD τ).loc main_arg4) : S10000x512.Idx → EReal) (ix2 ⟨j.val, h⟩ k) else (0 : EReal) := by
  rw [V_v1_eq]; exact padTerm_apply _ j k

/-- The label column at (b, 0): the label clamped into [0, 9999]. -/
theorem V_tg (c : Dev nD) (b : Fin 4096) :
    (V m c main_v5 : S4096x1.Idx → BitVec 32) (ix2 b 0)
      = IntOp.minsi 9999#32 (IntOp.maxsi 0#32 ((m ((c : Thread nD τ).loc main_arg2) : S4096.Idx → BitVec 32) (ix1 b))) := by
  rw [V_v5_eq]; exact clampCol_apply _ b

/-- The clamped labels as the tail finds them (the rank-1 array the gather's indices are made from). -/
theorem V_v4 (c : Dev nD) (b : Fin 4096) :
    (V m c main_v4 : S4096.Idx → BitVec 32) (ix1 b)
      = IntOp.minsi 9999#32 (IntOp.maxsi 0#32 ((m ((c : Thread nD τ).loc main_arg2) : S4096.Idx → BitVec 32) (ix1 b))) := by
  rw [V_v4_eq]; exact clampTerm_apply _ b

end Cert.KernelIdeal.HostIn

end
-- ==== Proof.Goal.lean ====
/-
  The value both programs compute, as ONE function of the five argument arrays, written over plain index functions.

  With x a batch of 4096 rows of 512 features, w the 10000 class rows, tg the labels (clamped into [0, 9999] as the
  kernel's host code clamps them) and cn the class centers:
    loss = mean_b L(xs, b) + mean_b L(xh, b) + (1/2 * (1/2 * (sum (xs - c)^2 + sum (xh - c)^2))) / 4096
  where L(x, b) is the running log-sum-exp loss of row b over the five class tiles (Spec.rowLoss) and c is the gather of
  the center rows at the labels. Sums are written as the host's reductions read them: the initial value plus the sum.
-/
import proofs.«406640_j61916248539750_2_alg».proof.Proof.Spec
import Idealize.ShloMosaic.Lib.ValueIdx

noncomputable section

namespace Cert.Goal

open Idealize.ShloMosaic Idealize.ShloMosaic.ValueIdx

abbrev SX : Shape := ⟨2, ![4096, 512]⟩
abbrev SW : Shape := ⟨2, ![10000, 512]⟩
abbrev ST : Shape := ⟨1, ![4096]⟩
abbrev SO : Shape := ⟨2, ![4096, 1]⟩
abbrev S0 : Shape := ⟨0, ![]⟩

/-- A label clamped into [0, 9999], signed, as the host's clip does it. -/
def clampT (t : BitVec 32) : BitVec 32 := IntOp.minsi 9999#32 (IntOp.maxsi 0#32 t)

/-- A label in [0, 10000), read signed, is below 10000 read unsigned. -/
theorem toNat_lt {t : BitVec 32} (h : 0 ≤ t.toInt ∧ t.toInt < 10000) : t.toNat < 10000 := by
  have h2 := BitVec.toInt_eq_toNat_cond t
  have h3 := t.isLt
  split at h2 <;> omega

/-- A label in [0, 10000) is its own clamp. -/
theorem clampT_eq {t : BitVec 32} (h : 0 ≤ t.toInt ∧ t.toInt < 10000) : clampT t = t := by
  have h0 : (0#32 : BitVec 32).toInt = 0 := by decide
  have h9 : (9999#32 : BitVec 32).toInt = 9999 := by decide
  -- the label is not below 0, so the lower clamp keeps it
  have a : ¬ (t.slt 0#32 = true) := by
    rw [BitVec.slt_iff_toInt_lt, h0]
    omega
  -- 9999 is not below the label, so the upper clamp keeps it
  have b : ¬ ((9999#32 : BitVec 32).slt t = true) := by
    rw [BitVec.slt_iff_toInt_lt, h9]
    omega
  unfold clampT IntOp.minsi IntOp.maxsi
  rw [if_neg a, if_neg b]

/-- A clamped label lies in [0, 9999] read signed. -/
theorem clampT_range (t : BitVec 32) : 0 ≤ (clampT t).toInt ∧ (clampT t).toInt < 10000 := by
  have h0 : (0#32 : BitVec 32).toInt = 0 := by decide
  have h9 : (9999#32 : BitVec 32).toInt = 9999 := by decide
  unfold clampT IntOp.minsi IntOp.maxsi
  by_cases a : t.slt 0#32 = true
  · -- a negative label is clamped to 0, and 9999 is not below 0
    have b : ¬ ((9999#32 : BitVec 32).slt 0#32 = true) := by
      rw [BitVec.slt_iff_toInt_lt, h0, h9]
      omega
    rw [if_pos a, if_neg b, h0]
    omega
  · rw [if_neg a]
    by_cases b : (9999#32 : BitVec 32).slt t = true
    · -- a label above 9999 is clamped to 9999
      rw [if_pos b, h9]
      omega
    · -- otherwise the label is kept, and the two failed comparisons are its bounds
      rw [if_neg b]
      rw [BitVec.slt_iff_toInt_lt, h0] at a
      rw [BitVec.slt_iff_toInt_lt, h9] at b
      omega

/-- Row `b` of a batch. -/
def xrow (x : SX.Idx → EReal) (b : Fin 4096) : Fin 512 → EReal := fun k => x (ix2 b k)

/-- Class row `j` of the weights. -/
def wrow (w : SW.Idx → EReal) (j : Fin 10000) : Fin 512 → EReal := fun k => w (ix2 j k)

/-- The 10000 logits of row `b`. -/
def logits (x : SX.Idx → EReal) (w : SW.Idx → EReal) (b : Fin 4096) : Fin 10000 → EReal :=
  fun j => Spec.dot (xrow x b) (wrow w j)

/-- The clamped label of row `b`, as a natural number. -/
def label (tg : ST.Idx → BitVec 32) (b : Fin 4096) : ℕ := (clampT (tg (ix1 b))).toNat

/-- The kernel's per-row loss array [4096, 1]: five class tiles of 2048 over the masked logits of the row. -/
def lossK (x : SX.Idx → EReal) (w : SW.Idx → EReal) (tg : ST.Idx → BitVec 32) : SO.Idx → EReal :=
  fun i => Spec.rowLoss 2048 5 (Spec.masked (logits x w (i 0))) (label tg (i 0))

/-- The start indices of the centers gather: the clamped label of the row, as a [4096, 1] array. -/
def cidx (tg : ST.Idx → BitVec 32) : SO.Idx → BitVec 32 := fun i => clampT (tg (ix1 (i 0)))

/-- The dimension record of the centers gather (one row of 512 per label). -/
abbrev cdims (wf : GatherDims.WF SW SO SX [1] [0] [] [0] [] 1 ![1, 512]) : GatherDims SW SO SX where
  offsetDims := [1]
  collapsedSliceDims := [0]
  operandBatchingDims := []
  startIndicesBatchingDims := []
  startIndexMap := [0]
  indexVectorDim := 1
  sliceSizes := ![1, 512]
  wf := wf

/-- The gathered center rows [4096, 512]. -/
def crows (wf : GatherDims.WF SW SO SX [1] [0] [] [0] [] 1 ![1, 512]) (cn : SW.Idx → EReal) (tg : ST.Idx → BitVec 32) :
    SX.Idx → EReal := Host.gather (cdims wf) cn (cidx tg)

/-- The three literals of the tail: +0.0, 4096.0 and 0.5. -/
abbrev zeroL : EReal := Ideal.ofBits .f32 0x00000000#32
abbrev nL : EReal := Ideal.ofBits .f32 0x45800000#32
abbrev halfL : EReal := Ideal.ofBits .f32 0x3F000000#32

/-- A mean over the batch as the host takes it: (0 + sum) / 4096. -/
def meanB (o : SO.Idx → EReal) : EReal := Ideal.div (zeroL + ∑ i : SO.Idx, o i) nL

/-- A sum of squared differences as the host takes it: 0 + sum (x - c) * (x - c). -/
def sqsum (x c : SX.Idx → EReal) : EReal := zeroL + ∑ i : SX.Idx, (x i - c i) * (x i - c i)

/-- The tail: the two means and the quantization term. -/
def tail (os oh : SO.Idx → EReal) (xs xh c : SX.Idx → EReal) : EReal :=
  (meanB os + meanB oh) + Ideal.div (halfL * (halfL * (sqsum xs c + sqsum xh c))) nL

/-- THE VALUE: the scalar result as a function of the argument arrays. -/
def G (wf : GatherDims.WF SW SO SX [1] [0] [] [0] [] 1 ![1, 512]) (xs xh : SX.Idx → EReal) (tg : ST.Idx → BitVec 32)
    (cn w : SW.Idx → EReal) : S0.Idx → EReal :=
  fun _ => tail (lossK xs w tg) (lossK xh w tg) xs xh (crows wf cn tg)

end Cert.Goal

end
-- ==== Proof.KArgs.lean ====
/-
  The kernel program's five argument arrays of a core, named as plain index functions.
-/
import proofs.«406640_j61916248539750_2_alg».proof.Proof.Gen.KernelIdeal.Frame.Runs
import proofs.«406640_j61916248539750_2_alg».proof.Proof.Goal

noncomputable section

namespace Cert.KernelIdeal.Args

open Cert.KernelIdeal Cert.KernelIdeal.Gen Idealize.ShloMosaic Idealize.ShloMosaic.TcCoe Idealize.SL.Sem

variable (m : (ℓ : Loc nD τ sig) → Buf (Elt Ideal) ℓ)

/-- The argument arrays of core `c`, as plain index functions. -/
abbrev aXs (c : Dev nD) : Goal.SX.Idx → EReal := m ((c : Thread nD τ).loc main_arg0)
abbrev aXh (c : Dev nD) : Goal.SX.Idx → EReal := m ((c : Thread nD τ).loc main_arg1)
abbrev aTg (c : Dev nD) : Goal.ST.Idx → BitVec 32 := m ((c : Thread nD τ).loc main_arg2)
abbrev aCn (c : Dev nD) : Goal.SW.Idx → EReal := m ((c : Thread nD τ).loc main_arg3)
abbrev aW (c : Dev nD) : Goal.SW.Idx → EReal := m ((c : Thread nD τ).loc main_arg4)

end Cert.KernelIdeal.Args

end
-- ==== Proof.KTile.lean ====
/-
  A grid point's masked logits are the rows' masked logits. At point t (batch tile t / 5, class tile t % 5) row r of the batch
  block is row (t / 5) * 512 + r of the batch, row j of the weight block is class (t % 5) * 2048 + j of the padded weights:
  below 10000 the class row itself, so the tile's masked logit is the inner product of the two rows, and from 10000 on the
  mask -infinity; the block's label is the row's clamped label.
-/
import proofs.«406640_j61916248539750_2_alg».proof.Proof.KBody
import proofs.«406640_j61916248539750_2_alg».proof.Proof.KBlocks
import proofs.«406640_j61916248539750_2_alg».proof.Proof.KHost
import proofs.«406640_j61916248539750_2_alg».proof.Proof.KArgs

noncomputable section

namespace Cert.KernelIdeal.Tile

open Cert.KernelIdeal Cert.KernelIdeal.Gen Cert.KernelIdeal.Args Cert.KernelIdeal.Blocks Idealize.ShloMosaic Idealize.ShloMosaic.TcCoe Idealize.SL.Sem Idealize.ShloMosaic.ValueIdx

variable (m : (ℓ : Loc nD τ sig) → Buf (Elt Ideal) ℓ)

/-- The batch row that row `r` of the blocks of point `t` is. -/
def rowOf (t : Fin cfg0.N) (r : Fin 512) : Fin 4096 := ⟨t.val / 5 * 512 + r.val, rowLt t r⟩

/-- A tile's masked logit over any batch block whose row `r` is row `rowOf t r` of the batch: the condition is the same on both
    sides; below 10000 the weight block's row `j` is the class row itself, so the two inner products agree term by term. -/
theorem zt_of (c : Dev nD) (t : Fin cfg0.N) (r : Fin 512) (j : Fin 2048) (xB : S512x512.Idx → EReal) (aX : Goal.SX.Idx → EReal)
    (hx : ∀ k : Fin 512, xB (ix2 r k) = aX (ix2 (rowOf t r) k)) :
    Body.zt (grid0.coords t) xB (wBlk m c t) r j
      = Spec.masked (Goal.logits aX (aW m c) (rowOf t r)) (((grid0.coords t) 1).val * 2048 + j.val) := by
  have hc : ((grid0.coords t) 1).val = t.val % 5 := coords_1 t
  unfold Body.zt Spec.masked
  by_cases h : ((grid0.coords t) 1).val * 2048 + j.val < 10000
  · have h' : t.val % 5 * 2048 + j.val < 10000 := by omega
    rw [if_pos h, dif_pos h]
    show ∑ k : Fin 512, xB (ix2 r k) * (wBlk m c t : S2048x512.Idx → EReal) (ix2 j k)
        = ∑ k : Fin 512, aX (ix2 (rowOf t r) k) * aW m c (ix2 ⟨((grid0.coords t) 1).val * 2048 + j.val, h⟩ k)
    refine Finset.sum_congr rfl fun k _ => ?_
    have ew : (wBlk m c t : S2048x512.Idx → EReal) (ix2 j k)
        = aW m c (ix2 ⟨((grid0.coords t) 1).val * 2048 + j.val, h⟩ k) := by
      refine (wBlk_apply m c t j k).trans ((HostIn.V_w m c ⟨t.val % 5 * 2048 + j.val, clsLt t j⟩ k).trans ?_)
      refine (dif_pos h').trans ?_
      exact congrArg (fun q : Fin 10000 => aW m c (ix2 q k)) (Fin.ext (by
        show t.val % 5 * 2048 + j.val = ((grid0.coords t) 1).val * 2048 + j.val
        rw [hc]))
    rw [hx k, ew]
  · rw [if_neg h, dif_neg h]

/-- The soft batch: the tile's masked logit of (r, j) is the row's masked logit at class (t % 5) * 2048 + j. -/
theorem zt_soft (c : Dev nD) (t : Fin cfg0.N) (r : Fin 512) (j : Fin 2048) :
    Body.zt (grid0.coords t) (xsBlk m c t) (wBlk m c t) r j
      = Spec.masked (Goal.logits (aXs m c) (aW m c) (rowOf t r)) (((grid0.coords t) 1).val * 2048 + j.val) :=
  zt_of m c t r j _ _ fun k => (xsBlk_apply m c t r k).trans (congrFun (HostIn.V_xs m c) _)

/-- The hard batch likewise. -/
theorem zt_hard (c : Dev nD) (t : Fin cfg0.N) (r : Fin 512) (j : Fin 2048) :
    Body.zt (grid0.coords t) (xhBlk m c t) (wBlk m c t) r j
      = Spec.masked (Goal.logits (aXh m c) (aW m c) (rowOf t r)) (((grid0.coords t) 1).val * 2048 + j.val) :=
  zt_of m c t r j _ _ fun k => (xhBlk_apply m c t r k).trans (congrFun (HostIn.V_xh m c) _)

/-- The block's label at row `r` is the row's clamped label. -/
theorem label_eq (c : Dev nD) (t : Fin cfg0.N) (r : Fin 512) :
    ((tgBlk m c t : S512x1.Idx → BitVec 32) (ix2 r 0)).toNat = Goal.label (aTg m c) (rowOf t r) := by
  have e : (tgBlk m c t : S512x1.Idx → BitVec 32) (ix2 r 0) = Goal.clampT (aTg m c (ix1 (rowOf t r))) :=
    (tgBlk_apply m c t r).trans (HostIn.V_tg m c ⟨t.val / 5 * 512 + r.val, rowLt t r⟩)
  exact congrArg BitVec.toNat e

end Cert.KernelIdeal.Tile

end
-- ==== Proof.KInduct.lean ====
/-
  The invariant of the carried scratch over the grid. After the body at point n (batch tile n / 5, class tile n % 5) the six
  scratch columns hold, at row r, the state Spec.run of row (n / 5) * 512 + r after n % 5 + 1 class tiles: of the soft batch in
  the first three columns, of the hard batch in the last three. By induction on the point: a first class tile starts from the
  reset values, which are Spec.St.init; a later one from what the point before left, the batch tile being the same; one tile of
  the body is Spec.step, the block's rows being the arrays' rows and the padded weight rows carrying the mask -infinity. At a last
  class tile the two output blocks hold the rows' losses.
-/
import proofs.«406640_j61916248539750_2_alg».proof.Proof.KPieces
import proofs.«406640_j61916248539750_2_alg».proof.Proof.KStep
import proofs.«406640_j61916248539750_2_alg».proof.Proof.KTile

noncomputable section

namespace Cert.KernelIdeal.Induct

open Cert.KernelIdeal Cert.KernelIdeal.Gen Cert.KernelIdeal.Args Idealize.ShloMosaic Idealize.ShloMosaic.TcCoe Idealize.SL.Sem Idealize.ShloMosaic.ValueIdx

variable (m : (ℓ : Loc nD τ sig) → Buf (Elt Ideal) ℓ)

/-- The batch row that row `r` of the blocks of point `n` is. -/
def rowOf (n : ℕ) (hn : n < cfg0.N) (r : Fin 512) : Fin 4096 := Tile.rowOf ⟨n, hn⟩ r

/-- The soft batch's state of that row after the class tiles up to point `n`'s. -/
def stS (c : Dev nD) (n : ℕ) (hn : n < cfg0.N) (r : Fin 512) : Spec.St :=
  Spec.run 2048 (Spec.masked (Goal.logits (aXs m c) (aW m c) (rowOf n hn r))) (Goal.label (aTg m c) (rowOf n hn r)) (n % 5 + 1)

/-- The hard batch's. -/
def stH (c : Dev nD) (n : ℕ) (hn : n < cfg0.N) (r : Fin 512) : Spec.St :=
  Spec.run 2048 (Spec.masked (Goal.logits (aXh m c) (aW m c) (rowOf n hn r))) (Goal.label (aTg m c) (rowOf n hn r)) (n % 5 + 1)

open Cert.KernelIdeal.Step Cert.KernelIdeal.Blocks

/-- What the point before `t` left (read only where `t` is not a first class tile). -/
abbrev prev (c : Dev nD) (t : Fin cfg0.N) := outsAt0 m c (t.val - 1) (Nat.lt_of_le_of_lt (Nat.sub_le _ _) t.isLt)

/-- The six scratch columns after a first class tile: the body's update of the reset columns. -/
theorem colsA (c : Dev nD) (t : Fin cfg0.N) (h0 : t.val % 5 = 0) :
    (outsAt0 m c t.val t.isLt).2.2.1 = newMs (F := Ideal) (grid0.coords t) (xsBlk m c t) (wBlk m c t) (k0_pay5 (F := Ideal))
    ∧ (outsAt0 m c t.val t.isLt).2.2.2.1 = newLs (F := Ideal) (grid0.coords t) (xsBlk m c t) (wBlk m c t) (k0_pay5 (F := Ideal)) (k0_pay6 (F := Ideal))
    ∧ (outsAt0 m c t.val t.isLt).2.2.2.2.1 = newTs (F := Ideal) (grid0.coords t) (xsBlk m c t) (wBlk m c t) (tgBlk m c t) (k0_pay7 (F := Ideal))
    ∧ (outsAt0 m c t.val t.isLt).2.2.2.2.2.1 = newMh (F := Ideal) (grid0.coords t) (xhBlk m c t) (wBlk m c t) (k0_pay8 (F := Ideal))
    ∧ (outsAt0 m c t.val t.isLt).2.2.2.2.2.2.1 = newLh (F := Ideal) (grid0.coords t) (xhBlk m c t) (wBlk m c t) (k0_pay8 (F := Ideal)) (k0_pay9 (F := Ideal))
    ∧ (outsAt0 m c t.val t.isLt).2.2.2.2.2.2.2 = newTh (F := Ideal) (grid0.coords t) (xhBlk m c t) (wBlk m c t) (tgBlk m c t) (k0_pay10 (F := Ideal)) := by
  have h1 : ¬t.val % 5 = 4 := by omega
  rw [outsAt0_A m c t h0 h1 h1]
  dsimp only
  exact ⟨Pieces.soutA_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t),
    Pieces.soutA_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t),
    Pieces.soutA_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t),
    Pieces.soutA_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t),
    Pieces.soutA_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t),
    Pieces.soutA_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) ((hcond0_0 t).mpr h0) (fun h => h1 ((hcond0_1 t).mp h)) (fun h => h1 ((hcond0_2 t).mp h)) (xsBlk m c t) (xhBlk m c t) (wBlk m c t) (tgBlk m c t)⟩

/-- The six scratch columns after a middle class tile: the body's update of what the point before left. -/
theorem colsB (c : Dev nD) (t : Fin cfg0.N) (h0 : ¬t.val % 5 = 0) (h1 : ¬t.val % 5 = 4) :
    (outsAt0 m c t.val t.isLt).2.2.1 = newMs (F := Ideal) (grid0.coords t) (xsBlk m c t) (wBlk m c t) (prev m c t).2.2.1
    ∧ (outsAt0 m c t.val t.isLt).2.2.2.1 = newLs (F := Ideal) (grid0.coords t) (xsBlk m c t) (wBlk m c t) (prev m c t).2.2.1 (prev m c t).2.2.2.1
    ∧ (outsAt0 m c t.val t.isLt).2.2.2.2.1 = newTs (F := Ideal) (grid0.coords t) (xsBlk m c t) (wBlk m c t) (tgBlk m c t) (prev m c t).2.2.2.2.1
    ∧ (outsAt0 m c t.val t.isLt).2.2.2.2.2.1 = newMh (F := Ideal) (grid0.coords t) (xhBlk m c t) (wBlk m c t) (prev m c t).2.2.2.2.2.1
    ∧ (outsAt0 m c t.val t.isLt).2.2.2.2.2.2.1 = newLh (F := Ideal) (grid0.coords t) (xhBlk m c t) (wBlk m c t) (prev m c t).2.2.2.2.2.1 (prev m c t).2.2.2.2.2.2.1
    ∧ (outsAt0 m c t.val t.isLt).2.2.2.2.2.2.2 = newTh (F := Ideal) (grid0.coords t) (xhBlk m c t) (wBlk m c t) (tgBlk m c t) (prev m c t).2.2.2.2.2.2.2 := by
  rw [outsAt0_B m c t h0 h1 h1]
  dsimp only
  exact ⟨Pieces.soutB_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutB_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutB_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutB_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutB_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutB_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) (fun h => h1 ((hcond0_1 t).mp h)) (fun h => h1 ((hcond0_2 t).mp h)) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2⟩

/-- After a last class tile: the same six updates, and the two output blocks hold (m + log l) - t of the updated columns. -/
theorem colsC (c : Dev nD) (t : Fin cfg0.N) (h0 : ¬t.val % 5 = 0) (h1 : t.val % 5 = 4) :
    (outsAt0 m c t.val t.isLt).1 = k0_pay21 (F := Ideal) (newMs (F := Ideal) (grid0.coords t) (xsBlk m c t) (wBlk m c t) (prev m c t).2.2.1) (newLs (F := Ideal) (grid0.coords t) (xsBlk m c t) (wBlk m c t) (prev m c t).2.2.1 (prev m c t).2.2.2.1) (newTs (F := Ideal) (grid0.coords t) (xsBlk m c t) (wBlk m c t) (tgBlk m c t) (prev m c t).2.2.2.2.1)
    ∧ (outsAt0 m c t.val t.isLt).2.1 = k0_pay4 (F := Ideal) (newMh (F := Ideal) (grid0.coords t) (xhBlk m c t) (wBlk m c t) (prev m c t).2.2.2.2.2.1) (newLh (F := Ideal) (grid0.coords t) (xhBlk m c t) (wBlk m c t) (prev m c t).2.2.2.2.2.1 (prev m c t).2.2.2.2.2.2.1) (newTh (F := Ideal) (grid0.coords t) (xhBlk m c t) (wBlk m c t) (tgBlk m c t) (prev m c t).2.2.2.2.2.2.2)
    ∧ (outsAt0 m c t.val t.isLt).2.2.1 = newMs (F := Ideal) (grid0.coords t) (xsBlk m c t) (wBlk m c t) (prev m c t).2.2.1
    ∧ (outsAt0 m c t.val t.isLt).2.2.2.1 = newLs (F := Ideal) (grid0.coords t) (xsBlk m c t) (wBlk m c t) (prev m c t).2.2.1 (prev m c t).2.2.2.1
    ∧ (outsAt0 m c t.val t.isLt).2.2.2.2.1 = newTs (F := Ideal) (grid0.coords t) (xsBlk m c t) (wBlk m c t) (tgBlk m c t) (prev m c t).2.2.2.2.1
    ∧ (outsAt0 m c t.val t.isLt).2.2.2.2.2.1 = newMh (F := Ideal) (grid0.coords t) (xhBlk m c t) (wBlk m c t) (prev m c t).2.2.2.2.2.1
    ∧ (outsAt0 m c t.val t.isLt).2.2.2.2.2.2.1 = newLh (F := Ideal) (grid0.coords t) (xhBlk m c t) (wBlk m c t) (prev m c t).2.2.2.2.2.1 (prev m c t).2.2.2.2.2.2.1
    ∧ (outsAt0 m c t.val t.isLt).2.2.2.2.2.2.2 = newTh (F := Ideal) (grid0.coords t) (xhBlk m c t) (wBlk m c t) (tgBlk m c t) (prev m c t).2.2.2.2.2.2.2 := by
  rw [outsAt0_C m c t h0 h1 h1]
  dsimp only
  exact ⟨Pieces.outC_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.outC_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2,
    Pieces.soutC_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) scM0_4 (Memref.isWhole_whole _) scM0_5 (Memref.isWhole_whole _) (fun h => h0 ((hcond0_0 t).mp h)) ((hcond0_1 t).mpr h1) ((hcond0_2 t).mpr h1) (xsBlk m c t) (xhBlk m c t) (wBlk m c t) (tgBlk m c t) (prev m c t).2.2.1 (prev m c t).2.2.2.1 (prev m c t).2.2.2.2.1 (prev m c t).2.2.2.2.2.1 (prev m c t).2.2.2.2.2.2.1 (prev m c t).2.2.2.2.2.2.2⟩

/-- The six scratch columns after any later class tile. -/
theorem colsLater (c : Dev nD) (t : Fin cfg0.N) (h0 : ¬t.val % 5 = 0) :
    (outsAt0 m c t.val t.isLt).2.2.1 = newMs (F := Ideal) (grid0.coords t) (xsBlk m c t) (wBlk m c t) (prev m c t).2.2.1
    ∧ (outsAt0 m c t.val t.isLt).2.2.2.1 = newLs (F := Ideal) (grid0.coords t) (xsBlk m c t) (wBlk m c t) (prev m c t).2.2.1 (prev m c t).2.2.2.1
    ∧ (outsAt0 m c t.val t.isLt).2.2.2.2.1 = newTs (F := Ideal) (grid0.coords t) (xsBlk m c t) (wBlk m c t) (tgBlk m c t) (prev m c t).2.2.2.2.1
    ∧ (outsAt0 m c t.val t.isLt).2.2.2.2.2.1 = newMh (F := Ideal) (grid0.coords t) (xhBlk m c t) (wBlk m c t) (prev m c t).2.2.2.2.2.1
    ∧ (outsAt0 m c t.val t.isLt).2.2.2.2.2.2.1 = newLh (F := Ideal) (grid0.coords t) (xhBlk m c t) (wBlk m c t) (prev m c t).2.2.2.2.2.1 (prev m c t).2.2.2.2.2.2.1
    ∧ (outsAt0 m c t.val t.isLt).2.2.2.2.2.2.2 = newTh (F := Ideal) (grid0.coords t) (xhBlk m c t) (wBlk m c t) (tgBlk m c t) (prev m c t).2.2.2.2.2.2.2 := by
  by_cases h1 : t.val % 5 = 4
  · exact (colsC m c t h0 h1).2.2
  · exact colsB m c t h0 h1

/-- A point that is not a first class tile lies in the batch tile of the point before it. -/
theorem rowOf_pred (t : Fin cfg0.N) (h0 : ¬t.val % 5 = 0) (r : Fin 512) :
    rowOf (t.val - 1) (Nat.lt_of_le_of_lt (Nat.sub_le _ _) t.isLt) r = Tile.rowOf t r := by
  apply Fin.ext
  show (t.val - 1) / 5 * 512 + r.val = t.val / 5 * 512 + r.val
  omega

/-- After a first class tile the state is one step from the initial state. -/
theorem stS_first (c : Dev nD) (t : Fin cfg0.N) (h0 : t.val % 5 = 0) (r : Fin 512) :
    Spec.step 2048 (Spec.masked (Goal.logits (aXs m c) (aW m c) (Tile.rowOf t r))) (Goal.label (aTg m c) (Tile.rowOf t r)) ((grid0.coords t) 1).val Spec.St.init = stS m c t.val t.isLt r := by
  unfold stS
  rw [coords_1 t, h0]
  rfl

theorem stH_first (c : Dev nD) (t : Fin cfg0.N) (h0 : t.val % 5 = 0) (r : Fin 512) :
    Spec.step 2048 (Spec.masked (Goal.logits (aXh m c) (aW m c) (Tile.rowOf t r))) (Goal.label (aTg m c) (Tile.rowOf t r)) ((grid0.coords t) 1).val Spec.St.init = stH m c t.val t.isLt r := by
  unfold stH
  rw [coords_1 t, h0]
  rfl

/-- After a later class tile the state is one step from the state after the point before: the row, hence its masked
    logits and its label, is the same, and the class tile is the next one. -/
theorem stS_later (c : Dev nD) (t : Fin cfg0.N) (h0 : ¬t.val % 5 = 0) (r : Fin 512) :
    Spec.step 2048 (Spec.masked (Goal.logits (aXs m c) (aW m c) (Tile.rowOf t r))) (Goal.label (aTg m c) (Tile.rowOf t r)) ((grid0.coords t) 1).val (stS m c (t.val - 1) (Nat.lt_of_le_of_lt (Nat.sub_le _ _) t.isLt) r) = stS m c t.val t.isLt r := by
  have hk : (t.val - 1) % 5 + 1 = t.val % 5 := by omega
  unfold stS
  rw [rowOf_pred t h0 r, hk, coords_1 t]
  rfl

theorem stH_later (c : Dev nD) (t : Fin cfg0.N) (h0 : ¬t.val % 5 = 0) (r : Fin 512) :
    Spec.step 2048 (Spec.masked (Goal.logits (aXh m c) (aW m c) (Tile.rowOf t r))) (Goal.label (aTg m c) (Tile.rowOf t r)) ((grid0.coords t) 1).val (stH m c (t.val - 1) (Nat.lt_of_le_of_lt (Nat.sub_le _ _) t.isLt) r) = stH m c t.val t.isLt r := by
  have hk : (t.val - 1) % 5 + 1 = t.val % 5 := by omega
  unfold stH
  rw [rowOf_pred t h0 r, hk, coords_1 t]
  rfl

/-- The invariant at row `r` after point `n`. -/
def Inv (c : Dev nD) (n : ℕ) (hn : n < cfg0.N) (r : Fin 512) : Prop :=
  ((outsAt0 m c n hn).2.2.1 : S512x1.Idx → EReal) (ix2 r 0) = (stS m c n hn r).m
    ∧ ((outsAt0 m c n hn).2.2.2.1 : S512x1.Idx → EReal) (ix2 r 0) = (stS m c n hn r).l
    ∧ ((outsAt0 m c n hn).2.2.2.2.1 : S512x1.Idx → EReal) (ix2 r 0) = (stS m c n hn r).t
    ∧ ((outsAt0 m c n hn).2.2.2.2.2.1 : S512x1.Idx → EReal) (ix2 r 0) = (stH m c n hn r).m
    ∧ ((outsAt0 m c n hn).2.2.2.2.2.2.1 : S512x1.Idx → EReal) (ix2 r 0) = (stH m c n hn r).l
    ∧ ((outsAt0 m c n hn).2.2.2.2.2.2.2 : S512x1.Idx → EReal) (ix2 r 0) = (stH m c n hn r).t

/-- One point of the induction: the invariant at `t` from the invariant at the point before, needed only where `t` is
    not a first class tile. -/
theorem inv_point (c : Dev nD) (t : Fin cfg0.N) (r : Fin 512)
    (ih : ¬t.val % 5 = 0 → Inv m c (t.val - 1) (Nat.lt_of_le_of_lt (Nat.sub_le _ _) t.isLt) r) : Inv m c t.val t.isLt r := by
  by_cases h0 : t.val % 5 = 0
  · obtain ⟨e0, e1, e2, e3, e4, e5⟩ := colsA m c t h0
    have hS := Step.soft_step (grid0.coords t) (xsBlk m c t) (wBlk m c t) (tgBlk m c t)
      (k0_pay5 (F := Ideal)) (k0_pay6 (F := Ideal)) (k0_pay7 (F := Ideal)) r (Spec.masked (Goal.logits (aXs m c) (aW m c) (Tile.rowOf t r))) (Goal.label (aTg m c) (Tile.rowOf t r)) Spec.St.init
      (Tile.zt_soft m c t r) (Tile.label_eq m c t r)
      (Step.reset_soft (ix2 r 0)).1 (Step.reset_soft (ix2 r 0)).2.1 (Step.reset_soft (ix2 r 0)).2.2
    have hH := Step.hard_step (grid0.coords t) (xhBlk m c t) (wBlk m c t) (tgBlk m c t)
      (k0_pay8 (F := Ideal)) (k0_pay9 (F := Ideal)) (k0_pay10 (F := Ideal)) r (Spec.masked (Goal.logits (aXh m c) (aW m c) (Tile.rowOf t r))) (Goal.label (aTg m c) (Tile.rowOf t r)) Spec.St.init
      (Tile.zt_hard m c t r) (Tile.label_eq m c t r)
      (Step.reset_hard (ix2 r 0)).1 (Step.reset_hard (ix2 r 0)).2.1 (Step.reset_hard (ix2 r 0)).2.2
    have hs := stS_first m c t h0 r
    have hh := stH_first m c t h0 r
    exact ⟨(congrFun e0 (ix2 r 0)).trans (hS.1.trans (congrArg Spec.St.m hs)),
      (congrFun e1 (ix2 r 0)).trans (hS.2.1.trans (congrArg Spec.St.l hs)),
      (congrFun e2 (ix2 r 0)).trans (hS.2.2.trans (congrArg Spec.St.t hs)),
      (congrFun e3 (ix2 r 0)).trans (hH.1.trans (congrArg Spec.St.m hh)),
      (congrFun e4 (ix2 r 0)).trans (hH.2.1.trans (congrArg Spec.St.l hh)),
      (congrFun e5 (ix2 r 0)).trans (hH.2.2.trans (congrArg Spec.St.t hh))⟩
  · obtain ⟨e0, e1, e2, e3, e4, e5⟩ := colsLater m c t h0
    obtain ⟨i0, i1, i2, i3, i4, i5⟩ := ih h0
    have hS := Step.soft_step (grid0.coords t) (xsBlk m c t) (wBlk m c t) (tgBlk m c t)
      (prev m c t).2.2.1 (prev m c t).2.2.2.1 (prev m c t).2.2.2.2.1 r (Spec.masked (Goal.logits (aXs m c) (aW m c) (Tile.rowOf t r))) (Goal.label (aTg m c) (Tile.rowOf t r))
      (stS m c (t.val - 1) (Nat.lt_of_le_of_lt (Nat.sub_le _ _) t.isLt) r)
      (Tile.zt_soft m c t r) (Tile.label_eq m c t r) i0 i1 i2
    have hH := Step.hard_step (grid0.coords t) (xhBlk m c t) (wBlk m c t) (tgBlk m c t)
      (prev m c t).2.2.2.2.2.1 (prev m c t).2.2.2.2.2.2.1 (prev m c t).2.2.2.2.2.2.2 r (Spec.masked (Goal.logits (aXh m c) (aW m c) (Tile.rowOf t r))) (Goal.label (aTg m c) (Tile.rowOf t r))
      (stH m c (t.val - 1) (Nat.lt_of_le_of_lt (Nat.sub_le _ _) t.isLt) r)
      (Tile.zt_hard m c t r) (Tile.label_eq m c t r) i3 i4 i5
    have hs := stS_later m c t h0 r
    have hh := stH_later m c t h0 r
    exact ⟨(congrFun e0 (ix2 r 0)).trans (hS.1.trans (congrArg Spec.St.m hs)),
      (congrFun e1 (ix2 r 0)).trans (hS.2.1.trans (congrArg Spec.St.l hs)),
      (congrFun e2 (ix2 r 0)).trans (hS.2.2.trans (congrArg Spec.St.t hs)),
      (congrFun e3 (ix2 r 0)).trans (hH.1.trans (congrArg Spec.St.m hh)),
      (congrFun e4 (ix2 r 0)).trans (hH.2.1.trans (congrArg Spec.St.l hh)),
      (congrFun e5 (ix2 r 0)).trans (hH.2.2.trans (congrArg Spec.St.t hh))⟩

/-- THE INVARIANT: the six scratch columns after point `n`, row by row. -/
theorem scratch_inv (c : Dev nD) : ∀ (n : ℕ) (hn : n < cfg0.N) (r : Fin 512),
    ((outsAt0 m c n hn).2.2.1 : S512x1.Idx → EReal) (ix2 r 0) = (stS m c n hn r).m
    ∧ ((outsAt0 m c n hn).2.2.2.1 : S512x1.Idx → EReal) (ix2 r 0) = (stS m c n hn r).l
    ∧ ((outsAt0 m c n hn).2.2.2.2.1 : S512x1.Idx → EReal) (ix2 r 0) = (stS m c n hn r).t
    ∧ ((outsAt0 m c n hn).2.2.2.2.2.1 : S512x1.Idx → EReal) (ix2 r 0) = (stH m c n hn r).m
    ∧ ((outsAt0 m c n hn).2.2.2.2.2.2.1 : S512x1.Idx → EReal) (ix2 r 0) = (stH m c n hn r).l
    ∧ ((outsAt0 m c n hn).2.2.2.2.2.2.2 : S512x1.Idx → EReal) (ix2 r 0) = (stH m c n hn r).t := by
  intro n
  induction n using Nat.strong_induction_on with
  | _ n ih =>
    intro hn r
    refine inv_point m c ⟨n, hn⟩ r fun h => ih (n - 1) ?_ _ r
    have h' : ¬n % 5 = 0 := h
    omega

/-- At a last class tile the soft output block holds the rows' losses. -/
theorem out_soft (c : Dev nD) (t : Fin cfg0.N) (h4 : t.val % 5 = 4) (r : Fin 512) :
    ((outsAt0 m c t.val t.isLt).1 : S512x1.Idx → EReal) (ix2 r 0)
      = Goal.lossK (aXs m c) (aW m c) (aTg m c) (ix2 (rowOf t.val t.isLt r) 0) := by
  have h0 : ¬t.val % 5 = 0 := by omega
  obtain ⟨o4, -, e0, e1, e2, -, -, -⟩ := colsC m c t h0 h4
  obtain ⟨s0, s1, s2, -, -, -⟩ := scratch_inv m c t.val t.isLt r
  -- the updated columns at row r are the state after the five class tiles
  have a0 := (congrFun e0 (ix2 r 0)).symm.trans s0
  have a1 := (congrFun e1 (ix2 r 0)).symm.trans s1
  have a2 := (congrFun e2 (ix2 r 0)).symm.trans s2
  have hst : stS m c t.val t.isLt r
      = Spec.run 2048 (Spec.masked (Goal.logits (aXs m c) (aW m c) (rowOf t.val t.isLt r)))
          (Goal.label (aTg m c) (rowOf t.val t.isLt r)) 5 := by
    unfold stS
    rw [h4]
  refine (congrFun o4 (ix2 r 0)).trans ((Body2.pay21_apply _ _ _ (ix2 r 0)).trans ?_)
  rw [a0, a1, a2, hst]
  rfl

/-- And the hard output block the hard batch's. -/
theorem out_hard (c : Dev nD) (t : Fin cfg0.N) (h4 : t.val % 5 = 4) (r : Fin 512) :
    ((outsAt0 m c t.val t.isLt).2.1 : S512x1.Idx → EReal) (ix2 r 0)
      = Goal.lossK (aXh m c) (aW m c) (aTg m c) (ix2 (rowOf t.val t.isLt r) 0) := by
  have h0 : ¬t.val % 5 = 0 := by omega
  obtain ⟨-, o5, -, -, -, e3, e4, e5⟩ := colsC m c t h0 h4
  obtain ⟨-, -, -, s3, s4, s5⟩ := scratch_inv m c t.val t.isLt r
  have a3 := (congrFun e3 (ix2 r 0)).symm.trans s3
  have a4 := (congrFun e4 (ix2 r 0)).symm.trans s4
  have a5 := (congrFun e5 (ix2 r 0)).symm.trans s5
  have hst : stH m c t.val t.isLt r
      = Spec.run 2048 (Spec.masked (Goal.logits (aXh m c) (aW m c) (rowOf t.val t.isLt r)))
          (Goal.label (aTg m c) (rowOf t.val t.isLt r)) 5 := by
    unfold stH
    rw [h4]
  refine (congrFun o5 (ix2 r 0)).trans ((Body2.pay4_apply _ _ _ (ix2 r 0)).trans ?_)
  rw [a3, a4, a5, hst]
  rfl

end Cert.KernelIdeal.Induct

end
-- ==== Proof.KFinal.lean ====
/-
  From blocks to arrays: the two loss columns after the run. Output window 4 (and 5) is written back at the last class tile
  of each batch tile, block (t / 5, 0) of 512 rows; those eight blocks cover the [4096, 1] array, and each holds the rows'
  losses, so the array is the whole loss column.
-/
import proofs.«406640_j61916248539750_2_alg».proof.Proof.KInduct
import Idealize.ShloMosaic.Lib.Pipeline.Value

noncomputable section

namespace Cert.KernelIdeal.Final

open Cert.KernelIdeal Cert.KernelIdeal.Gen Cert.KernelIdeal.Args Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The block indices of the two output windows over the grid: block row `t / 5`, block column 0. -/
theorem outIndex : ∀ t : Fin cfg0.N,
    win0_4.index t (0 : Fin 2) = t.val / 5 ∧ win0_4.index t (1 : Fin 2) = 0
    ∧ win0_5.index t (0 : Fin 2) = t.val / 5 ∧ win0_5.index t (1 : Fin 2) = 0 :=
  (by decide +kernel : ∀ t : Fin grid0.N, _)

/-- What a last class tile's point writes back through window 4 is its block of `G`, when the output block there holds,
    row by row, `G` at the block's rows. -/
theorem flushed4 (c : Dev nD) (G : S4096x1.Idx → EReal) (row : Fin cfg0.N → Fin 512 → Fin 4096)
    (hrow : ∀ t r, (row t r).val = t.val / 5 * 512 + r.val)
    (hout : ∀ t : Fin cfg0.N, t.val % 5 = 4 → ∀ r : Fin 512,
      ((outsAt0 m c t.val t.isLt).1 : S512x1.Idx → EReal) (ix2 r 0) = G (ix2 (row t r) 0))
    (t : Fin cfg0.N) (hf : (cfg0.win 4).flush t = true) :
    (dats m 0 c).flushed 4 t = ((cfg0.win 4).blk t).view.read (Elt Ideal) G := by
  have h4 : t.val % 5 = 4 := (flush0_4 t).mp hf
  obtain ⟨e40, e41, e50, e51⟩ := outIndex t
  show (cfg0.win 4).cut (grid0.coords t) ((dats m 0 c).after 4 t) = _
  rw [after0_4]
  have key : ∀ y : S512x1.Idx, ((outsAt0 m c t.val t.isLt).1 : S512x1.Idx → EReal) y = G (((cfg0.win 4).blk t).view.emb y) := by
    intro y
    obtain ⟨r, u, rfl⟩ : ∃ (r : Fin 512) (u : Fin 1), y = ix2 r u := ⟨y 0, y 1, eq_ix2 y⟩
    obtain rfl : u = 0 := Subsingleton.elim _ _
    have hr := hrow t r
    refine (hout t h4 r).trans (congrArg G ?_)
    funext a; apply Fin.ext
    match a with
    | ⟨0, _⟩ => show (row t r).val = win0_4.index t (0 : Fin 2) * 512 + 1 * r.val; omega
    | ⟨1, _⟩ => show (0 : Fin 1).val = win0_4.index t (1 : Fin 2) * 1 + 1 * (0 : Fin 1).val; omega
  exact funext key

/-- An index of the array is in point `t`'s block of window 4 iff each coordinate is in the block's range on its axis. -/
theorem mem_blk4 (t : Fin cfg0.N) (i : S4096x1.Idx) :
    i ∈ ((cfg0.win 4).blk t).view.set ↔ ∀ a : Fin 2, win0_4.index t a * S512x1.size a ≤ (i a).val ∧ (i a).val < win0_4.index t a * S512x1.size a + S512x1.size a := by
  show i ∈ ((View.whole main_v6_0).slice (win0_4.rect t)).set ↔ _
  rw [View.set_slice_whole, Rect.mem_set_unit]
  exact Iff.rfl

/-- Row `R` of the array is in the block written back at the last class tile of batch tile `R / 512`. -/
theorem cover4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 40 := N_0
  obtain ⟨t, ht⟩ : ∃ t : Fin cfg0.N, t.val = 5 * ((i 0).val / 512) + 4 := ⟨⟨5 * ((i 0).val / 512) + 4, by omega⟩, rfl⟩
  obtain ⟨e40, e41, e50, e51⟩ := outIndex t
  refine ⟨t, (flush0_4 t).mpr (by omega), ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

/-- So the array of window 4 ends holding `G`: the eight blocks written back cover it. -/
theorem final4 (c : Dev nD) (G : S4096x1.Idx → EReal) (row : Fin cfg0.N → Fin 512 → Fin 4096)
    (hrow : ∀ t r, (row t r).val = t.val / 5 * 512 + r.val)
    (hout : ∀ t : Fin cfg0.N, t.val % 5 = 4 → ∀ r : Fin 512,
      ((outsAt0 m c t.val t.isLt).1 : S512x1.Idx → EReal) (ix2 r 0) = G (ix2 (row t r) 0)) :
    ((dats m 0 c).arrAt 4 cfg0.N : S4096x1.Idx → EReal) = G :=
  (dats m 0 c).arrAt_eq_of_cover 4 G (flushed4 m c G row hrow hout) cover4

/-- What a last class tile's point writes back through window 5 is its block of `G`, when the output block there holds,
    row by row, `G` at the block's rows. -/
theorem flushed5 (c : Dev nD) (G : S4096x1.Idx → EReal) (row : Fin cfg0.N → Fin 512 → Fin 4096)
    (hrow : ∀ t r, (row t r).val = t.val / 5 * 512 + r.val)
    (hout : ∀ t : Fin cfg0.N, t.val % 5 = 4 → ∀ r : Fin 512,
      ((outsAt0 m c t.val t.isLt).2.1 : S512x1.Idx → EReal) (ix2 r 0) = G (ix2 (row t r) 0))
    (t : Fin cfg0.N) (hf : (cfg0.win 5).flush t = true) :
    (dats m 0 c).flushed 5 t = ((cfg0.win 5).blk t).view.read (Elt Ideal) G := by
  have h4 : t.val % 5 = 4 := (flush0_5 t).mp hf
  obtain ⟨e40, e41, e50, e51⟩ := outIndex t
  show (cfg0.win 5).cut (grid0.coords t) ((dats m 0 c).after 5 t) = _
  rw [after0_5]
  have key : ∀ y : S512x1.Idx, ((outsAt0 m c t.val t.isLt).2.1 : S512x1.Idx → EReal) y = G (((cfg0.win 5).blk t).view.emb y) := by
    intro y
    obtain ⟨r, u, rfl⟩ : ∃ (r : Fin 512) (u : Fin 1), y = ix2 r u := ⟨y 0, y 1, eq_ix2 y⟩
    obtain rfl : u = 0 := Subsingleton.elim _ _
    have hr := hrow t r
    refine (hout t h4 r).trans (congrArg G ?_)
    funext a; apply Fin.ext
    match a with
    | ⟨0, _⟩ => show (row t r).val = win0_5.index t (0 : Fin 2) * 512 + 1 * r.val; omega
    | ⟨1, _⟩ => show (0 : Fin 1).val = win0_5.index t (1 : Fin 2) * 1 + 1 * (0 : Fin 1).val; omega
  exact funext key

/-- An index of the array is in point `t`'s block of window 5 iff each coordinate is in the block's range on its axis. -/
theorem mem_blk5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v6_1).slice (win0_5.rect t)).set ↔ _
  rw [View.set_slice_whole, Rect.mem_set_unit]
  exact Iff.rfl

/-- Row `R` of the array is in the block written back at the last class tile of batch tile `R / 512`. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 40 := N_0
  obtain ⟨t, ht⟩ : ∃ t : Fin cfg0.N, t.val = 5 * ((i 0).val / 512) + 4 := ⟨⟨5 * ((i 0).val / 512) + 4, by omega⟩, rfl⟩
  obtain ⟨e40, e41, e50, e51⟩ := outIndex t
  refine ⟨t, (flush0_5 t).mpr (by omega), ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-- So the array of window 5 ends holding `G`: the eight blocks written back cover it. -/
theorem final5 (c : Dev nD) (G : S4096x1.Idx → EReal) (row : Fin cfg0.N → Fin 512 → Fin 4096)
    (hrow : ∀ t r, (row t r).val = t.val / 5 * 512 + r.val)
    (hout : ∀ t : Fin cfg0.N, t.val % 5 = 4 → ∀ r : Fin 512,
      ((outsAt0 m c t.val t.isLt).2.1 : S512x1.Idx → EReal) (ix2 r 0) = G (ix2 (row t r) 0)) :
    ((dats m 0 c).arrAt 5 cfg0.N : S4096x1.Idx → EReal) = G :=
  (dats m 0 c).arrAt_eq_of_cover 5 G (flushed5 m c G row hrow hout) cover5

/-- The soft loss column after the run. -/
theorem final_soft (c : Dev nD) :
    ((dats m 0 c).arrAt 4 cfg0.N : S4096x1.Idx → EReal) = Goal.lossK (aXs m c) (aW m c) (aTg m c) := by
  exact final4 m c (Goal.lossK (aXs m c) (aW m c) (aTg m c)) (fun t r => Induct.rowOf t.val t.isLt r) (fun t r => rfl)
    (fun t h4 r => Induct.out_soft m c t h4 r)

/-- The hard loss column after the run. -/
theorem final_hard (c : Dev nD) :
    ((dats m 0 c).arrAt 5 cfg0.N : S4096x1.Idx → EReal) = Goal.lossK (aXh m c) (aW m c) (aTg m c) := by
  exact final5 m c (Goal.lossK (aXh m c) (aW m c) (aTg m c)) (fun t r => Induct.rowOf t.val t.isLt r) (fun t r => rfl)
    (fun t h4 r => Induct.out_hard m c t h4 r)

end Cert.KernelIdeal.Final

end
-- ==== Proof.KTail.lean ====
/-
  The host operations after the kernel region, read as one function of the buffers they start from: the two batch means of
  the kernel's per-row losses, the center rows gathered at the clamped labels (the gather's bounds test passes and no label
  is negative, the labels being clamped), the two sums of squared differences, and the final sum.
-/
import proofs.«406640_j61916248539750_2_alg».proof.Proof.Gen.KernelIdeal.Launch
import proofs.«406640_j61916248539750_2_alg».proof.Proof.Goal
import Idealize.ShloMosaic.Lib.StableHlo.Run
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Pipeline.Frame
import Idealize.ShloMosaic.PureOps.Reduce

noncomputable section

namespace Cert.KernelIdeal.Tail

open Cert.KernelIdeal Cert.KernelIdeal.Gen Idealize.ShloMosaic Idealize.ShloMosaic.TcCoe Idealize.SL.Sem Idealize.ShloMosaic.ValueIdx

/-- The kernel program's gather record is the one G gathers with. -/
abbrev wfK : GatherDims.WF Goal.SW Goal.SO Goal.SX [1] [0] [] [0] [] 1 ![1, 512] :=
  Facts₀.gather_S10000x512_S4096x1_S4096x512_1_0_n_n_0_1_1512_wf

/-! ## The three stretches as functions of the arrays they read -/

/-- A batch mean as the host computes it: the sum from +0.0 over both axes, divided by 4096.0. -/
def meanArr (o : S4096x1.Idx → EReal) : S_.Idx → EReal :=
  Host.divf (Host.reduceAdd (φ := .f32) o (constant (F := Ideal) S_ .f32 0x00000000#32) reducesTo_S4096x1_S_d0_1 h_S_)
    (constant (F := Ideal) S_ .f32 0x45800000#32)

/-- The labels with a negative one wrapped by +10000. -/
def wrapIdx (t : S4096.Idx → BitVec 32) : S4096.Idx → BitVec 32 :=
  select (cmpi .slt t (broadcastInDim S4096 ![] bcast_S_S4096 (constantI S_ 32 0#32)))
    (addi t (broadcastInDim S4096 ![] bcast_S_S4096 (constantI S_ 32 10000#32))) t

/-- The wrapped labels laid out as a column. -/
def colIdx (t : S4096.Idx → BitVec 32) : S4096x1.Idx → BitVec 32 :=
  broadcastInDim S4096x1 ![0] bcast_S4096_S4096x1_0 (wrapIdx t)

/-- The gather's bounds test per row: 0 ≤ index ≤ 9999, and-reduced over the column axis. -/
def inBounds (c : S4096x1.Idx → BitVec 32) : S4096.Idx → BitVec 1 :=
  Host.reduce IntOp.andi
    (andi (cmpi .sge c (broadcastInDim S4096x1 ![] bcast_S_S4096x1 (constantI S_ 32 0#32)))
      (cmpi .sle c (broadcastInDim S4096x1 ![0, 1] bcast_S1x1_S4096x1_0_1
        (broadcastInDim S1x1 ![1] bcast_S1_S1x1_1 (constantI S1 32 9999#32)))))
    (constantI S_ 1 1#1) reducesTo_S4096x1_S4096_d1 h_S_

/-- The center rows taken at the labels: the gather where the bounds test passes, NaN elsewhere. -/
def taken (cn : S10000x512.Idx → EReal) (t : S4096.Idx → BitVec 32) : S4096x512.Idx → EReal :=
  select (broadcastInDim S4096x512 ![0] bcast_S4096_S4096x512_0 (inBounds (colIdx t)))
    (Host.gather gather_S10000x512_S4096x1_S4096x512_1_0_n_n_0_1_1512 cn (colIdx t))
    (broadcastInDim S4096x512 ![] bcast_S_S4096x512 (constant (F := Ideal) S_ .f32 0x7FC00000#32))

/-- A sum of squared differences as the host computes it: the sum from +0.0 over both axes of (x - c) * (x - c). -/
def sqArr (x c : S4096x512.Idx → EReal) : S_.Idx → EReal :=
  Host.reduceAdd (φ := .f32) (mulf (φ := .f32) (subf (φ := .f32) x c) (subf (φ := .f32) x c)) (constant (F := Ideal) S_ .f32 0x00000000#32)
    reducesTo_S4096x512_S_d0_1 h_S_

/-- The last stretch: the two means added, plus 0.5 * (0.5 * (the two sums added)) / 4096.0. -/
def tailArr (m1 m2 : S_.Idx → EReal) (xs xh c : S4096x512.Idx → EReal) : S_.Idx → EReal :=
  addf (φ := .f32) (addf (φ := .f32) m1 m2)
    (Host.divf (φ := .f32)
      (mulf (φ := .f32) (constant (F := Ideal) S_ .f32 0x3F000000#32)
        (mulf (φ := .f32) (constant (F := Ideal) S_ .f32 0x3F000000#32) (addf (φ := .f32) (sqArr xs c) (sqArr xh c))))
      (constant (F := Ideal) S_ .f32 0x45800000#32))

/-- The first stretch writes the mean of the first loss column. -/
theorem s1_v8 (W : Valuation τ sig (Elt Ideal)) :
    (StableHlo.after (hostOps1 (F := Ideal)) W (Proc.devRef .tc main_v8) : S_.Idx → EReal)
      = meanArr (W (Proc.devRef .tc main_v6_0)) := by
  simp only [hostOps1]
  after_results_simp
  rfl

/-- The first stretch writes the mean of the second loss column. -/
theorem s1_v10 (W : Valuation τ sig (Elt Ideal)) :
    (StableHlo.after (hostOps1 (F := Ideal)) W (Proc.devRef .tc main_v10) : S_.Idx → EReal)
      = meanArr (W (Proc.devRef .tc main_v6_1)) := by
  simp only [hostOps1]
  after_results_simp
  rfl

/-- The middle stretch writes the center rows taken at the labels. -/
theorem s2_v11 (W : Valuation τ sig (Elt Ideal)) :
    (StableHlo.after (hostOps1_1 (F := Ideal)) W (Proc.devRef .tc main_v11) : S4096x512.Idx → EReal)
      = taken (W (Proc.devRef .tc main_arg3)) (W (Proc.devRef .tc main_v4)) := by
  simp only [hostOps1_1]
  after_results_simp
  rfl

/-- The last stretch writes the sum of the two means and the scaled sums of squares. -/
theorem s3_v23 (W : Valuation τ sig (Elt Ideal)) :
    (StableHlo.after (hostOps1_2 (F := Ideal)) W (Proc.devRef .tc main_v23) : S_.Idx → EReal)
      = tailArr (W (Proc.devRef .tc main_v8)) (W (Proc.devRef .tc main_v10)) (W (Proc.devRef .tc main_arg0))
          (W (Proc.devRef .tc main_arg1)) (W (Proc.devRef .tc main_v11)) := by
  simp only [hostOps1_2]
  after_results_simp
  rfl

/-! ## What each stretch leaves alone

The first stretch writes neither batch, nor the centers, nor the labels; the middle stretch writes neither batch nor the two means. -/

theorem keep1_arg0 (W : Valuation τ sig (Elt Ideal)) :
    StableHlo.after (hostOps1 (F := Ideal)) W (Proc.devRef .tc main_arg0) = W (Proc.devRef .tc main_arg0) := by
  simp only [hostOps1]
  after_results_simp
theorem keep1_arg1 (W : Valuation τ sig (Elt Ideal)) :
    StableHlo.after (hostOps1 (F := Ideal)) W (Proc.devRef .tc main_arg1) = W (Proc.devRef .tc main_arg1) := by
  simp only [hostOps1]
  after_results_simp
theorem keep1_arg3 (W : Valuation τ sig (Elt Ideal)) :
    StableHlo.after (hostOps1 (F := Ideal)) W (Proc.devRef .tc main_arg3) = W (Proc.devRef .tc main_arg3) := by
  simp only [hostOps1]
  after_results_simp
theorem keep1_v4 (W : Valuation τ sig (Elt Ideal)) :
    StableHlo.after (hostOps1 (F := Ideal)) W (Proc.devRef .tc main_v4) = W (Proc.devRef .tc main_v4) := by
  simp only [hostOps1]
  after_results_simp
theorem keep2_arg0 (W : Valuation τ sig (Elt Ideal)) :
    StableHlo.after (hostOps1_1 (F := Ideal)) W (Proc.devRef .tc main_arg0) = W (Proc.devRef .tc main_arg0) := by
  simp only [hostOps1_1]
  after_results_simp
theorem keep2_arg1 (W : Valuation τ sig (Elt Ideal)) :
    StableHlo.after (hostOps1_1 (F := Ideal)) W (Proc.devRef .tc main_arg1) = W (Proc.devRef .tc main_arg1) := by
  simp only [hostOps1_1]
  after_results_simp
theorem keep2_v8 (W : Valuation τ sig (Elt Ideal)) :
    StableHlo.after (hostOps1_1 (F := Ideal)) W (Proc.devRef .tc main_v8) = W (Proc.devRef .tc main_v8) := by
  simp only [hostOps1_1]
  after_results_simp
theorem keep2_v10 (W : Valuation τ sig (Elt Ideal)) :
    StableHlo.after (hostOps1_1 (F := Ideal)) W (Proc.devRef .tc main_v10) = W (Proc.devRef .tc main_v10) := by
  simp only [hostOps1_1]
  after_results_simp

/-! ## The labels' stretch under the range hypothesis -/

/-- No label in [0, 10000) is negative, so the wrap keeps every label. -/
theorem wrapIdx_eq (t : S4096.Idx → BitVec 32) (h : ∀ i, 0 ≤ (t i).toInt ∧ (t i).toInt < 10000) : wrapIdx t = t := by
  funext i
  have h0 : (0#32 : BitVec 32).toInt = 0 := by decide
  have a : (t i).slt 0#32 = false := by
    rw [Bool.eq_false_iff]
    intro e
    rw [BitVec.slt_iff_toInt_lt, h0] at e
    have := (h i).1
    omega
  show Scalar.select (BitVec.ofBool ((t i).slt 0#32)) (IntOp.addi (t i) 10000#32) (t i) = t i
  rw [a]
  exact select_zero _ _

/-- The column of the kept labels: row b holds label b. -/
theorem colIdx_eq (t : S4096.Idx → BitVec 32) (h : ∀ i, 0 ≤ (t i).toInt ∧ (t i).toInt < 10000) :
    colIdx t = fun i => t (ix1 (i 0)) := by
  unfold colIdx
  rw [wrapIdx_eq t h]
  funext j
  exact broadcastInDim_apply _ _ t j (ix1 (j 0)) (fun a => match a with | ⟨0, _⟩ => rfl)

/-- An and-fold from 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    have e : IntOp.andi 1#1 1#1 = 1#1 := by decide
    rw [List.foldl_cons, hf a, e]
    exact foldl_andi_one f hf l

/-- Every index in [0, 10000) passes the bounds test 0 ≤ index ≤ 9999. -/
theorem inBounds_eq (c : S4096x1.Idx → BitVec 32) (h : ∀ j, 0 ≤ (c j).toInt ∧ (c j).toInt < 10000) :
    inBounds c = fun _ => 1#1 := by
  funext i
  have h0 : (0#32 : BitVec 32).toInt = 0 := by decide
  have h9 : (9999#32 : BitVec 32).toInt = 9999 := by decide
  unfold inBounds
  rw [Host.reduce_eq_foldl]
  refine foldl_andi_one _ (fun j => ?_) _
  have a : (0#32 : BitVec 32).sle (c j) = true := by
    rw [BitVec.sle_iff_toInt_le, h0]
    exact (h j).1
  have b : (c j).sle 9999#32 = true := by
    rw [BitVec.sle_iff_toInt_le, h9]
    have := (h j).2
    omega
  show IntOp.andi (BitVec.ofBool ((0#32 : BitVec 32).sle (c j))) (BitVec.ofBool ((c j).sle 9999#32)) = 1#1
  rw [a, b]
  decide

/-- With every label in range the taken rows are the gather at the labels laid out as a column. -/
theorem taken_eq (cn : S10000x512.Idx → EReal) (t : S4096.Idx → BitVec 32)
    (h : ∀ i, 0 ≤ (t i).toInt ∧ (t i).toInt < 10000) :
    taken cn t = Host.gather (Goal.cdims wfK) cn (fun i : S4096x1.Idx => t (ix1 (i 0))) := by
  unfold taken
  rw [colIdx_eq t h, inBounds_eq _ (fun j => h (ix1 (j 0)))]
  funext j
  exact select_one _ _

/-! ## The scalars read at their one index -/

/-- A host sum over every axis from a literal: the literal plus the total sum. -/
theorem reduceAdd_all {s : Shape} {axes : List (Fin s.rank)} (x : s.Idx → EReal) (b : BitVec 32) (h : s.ReducesTo axes S_)
    (i : S_.Idx) :
    Host.reduceAdd (F := Ideal) (φ := .f32) x (constant (F := Ideal) S_ .f32 b) h h_S_ i
      = Ideal.ofBits .f32 b + ∑ j : s.Idx, x j := by
  simp only [Host.reduceAdd, Ideal.hostReduceAdd_def]
  exact Ideal.hostReduceAdd_total h (fun b => b.elim0) x _ i

/-- The batch mean at its one index: (0 + sum) / 4096. -/
theorem meanArr_apply (o : S4096x1.Idx → EReal) (i : S_.Idx) : meanArr o i = Goal.meanB o := by
  unfold meanArr Goal.meanB
  show Ideal.div (Host.reduceAdd (F := Ideal) (φ := .f32) o (constant (F := Ideal) S_ .f32 0x00000000#32) reducesTo_S4096x1_S_d0_1 h_S_ i)
      (Ideal.ofBits .f32 0x45800000#32) = _
  rw [reduceAdd_all]

/-- The sum of squared differences at its one index: 0 + sum (x - c) * (x - c). -/
theorem sqArr_apply (x c : S4096x512.Idx → EReal) (i : S_.Idx) : sqArr x c i = Goal.sqsum x c := by
  unfold sqArr Goal.sqsum
  rw [reduceAdd_all]
  exact congrArg (Ideal.ofBits .f32 0x00000000#32 + ·) (Finset.sum_congr rfl fun j _ => rfl)

/-- The last stretch at its one index. -/
theorem tailArr_apply (m1 m2 : S_.Idx → EReal) (xs xh c : S4096x512.Idx → EReal) (i : S_.Idx) :
    tailArr m1 m2 xs xh c i
      = (m1 i + m2 i) + Ideal.div (Goal.halfL * (Goal.halfL * (sqArr xs c i + sqArr xh c i))) Goal.nL := rfl

/-- The tail's result from any buffer contents `W` whose clamped-label buffer `main_v4` holds labels in [0, 10000):
    the tail function of the two loss columns, the two batches and the center rows gathered at those labels. -/
theorem tail_after (W : Valuation τ sig (Elt Ideal))
    (hv4 : ∀ i : S4096.Idx, 0 ≤ ((W (Proc.devRef .tc main_v4) : S4096.Idx → BitVec 32) i).toInt
        ∧ ((W (Proc.devRef .tc main_v4) : S4096.Idx → BitVec 32) i).toInt < 10000) :
    (StableHlo.after (List.flatten [hostOps1, hostOps1_1, hostOps1_2]) W (Proc.devRef .tc main_v23) : S_.Idx → EReal)
      = fun _ => Goal.tail (W (Proc.devRef .tc main_v6_0) : S4096x1.Idx → EReal) (W (Proc.devRef .tc main_v6_1) : S4096x1.Idx → EReal)
          (W (Proc.devRef .tc main_arg0) : S4096x512.Idx → EReal) (W (Proc.devRef .tc main_arg1) : S4096x512.Idx → EReal)
          (Host.gather (Goal.cdims wfK) (W (Proc.devRef .tc main_arg3) : S10000x512.Idx → EReal)
            (fun i : S4096x1.Idx => (W (Proc.devRef .tc main_v4) : S4096.Idx → BitVec 32) (ix1 (i 0)))) := by
  -- the three stretches one after the other
  have hflat : List.flatten [hostOps1 (F := Ideal), hostOps1_1, hostOps1_2] = hostOps1 ++ (hostOps1_1 ++ hostOps1_2) := by
    simp only [List.flatten_cons, List.flatten_nil, List.append_nil]
  rw [hflat, StableHlo.after_append, StableHlo.after_append]
  -- the last stretch reads the means, the batches and the taken rows, which the middle stretch keeps or writes
  rw [s3_v23, keep2_v8, keep2_v10, keep2_arg0, keep2_arg1, s2_v11]
  -- and the first stretch writes the means and keeps the rest
  rw [s1_v8, s1_v10, keep1_arg0, keep1_arg1, keep1_arg3, keep1_v4]
  funext i
  rw [tailArr_apply, meanArr_apply, meanArr_apply, sqArr_apply, sqArr_apply, taken_eq _ _ hv4]
  rfl

end Cert.KernelIdeal.Tail

end
-- ==== Proof.KRun.lean ====
/-
  The idealized kernel's run, read: every weakly fair execution ends with the result buffer at G of the argument arrays and
  the arguments unchanged. The region leaves the two loss columns (Final); the host operations after it compute the tail of
  those columns, the batches and the center rows gathered at the clamped labels (Tail), which is G.
-/
import proofs.«406640_j61916248539750_2_alg».proof.Proof.KFinal
import proofs.«406640_j61916248539750_2_alg».proof.Proof.KTail
import proofs.«406640_j61916248539750_2_alg».proof.Proof.KHost
import Idealize.ShloMosaic.Lib.StableHlo.Run

noncomputable section

namespace Cert.KernelIdeal.Value

open Cert.KernelIdeal Cert.KernelIdeal.Gen Cert.KernelIdeal.Args Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The buffers when the region is left -/

/-- The core's buffer contents when the region is left: the pipeline's arrays as the run leaves them, every other
    buffer as the region found it. The host operations after the region start from these. -/
abbrev WR (c : Dev nD) : Valuation τ sig (Elt Ideal) :=
  Pipeline.withArrays (cfgs 0).spec c (V0 m c) fun w => (dats m 0 c).arrAt w (cfgs 0).N

/-- The soft loss column is the array of window 4, which the run leaves at the rows' losses. -/
theorem WR_v6_0 (c : Dev nD) :
    (WR m c (Proc.devRef .tc main_v6_0) : S4096x1.Idx → EReal) = Goal.lossK (aXs m c) (aW m c) (aTg m c) :=
  (Pipeline.withArrays_arr spec0 launch0.win.arr_inj c _ _ 4).trans (Final.final_soft m c)

/-- The hard loss column is the array of window 5, which the run leaves at the rows' losses. -/
theorem WR_v6_1 (c : Dev nD) :
    (WR m c (Proc.devRef .tc main_v6_1) : S4096x1.Idx → EReal) = Goal.lossK (aXh m c) (aW m c) (aTg m c) :=
  (Pipeline.withArrays_arr spec0 launch0.win.arr_inj c _ _ 5).trans (Final.final_hard m c)

/-- The soft batch is no array of the pipeline and no host operation before the region writes it: the argument. -/
theorem WR_arg0 (c : Dev nD) :
    (WR m c (Proc.devRef .tc main_arg0) : S4096x512.Idx → EReal) = aXs m c :=
  (Pipeline.withArrays_of_ne _ c (V0 m c) _ main_arg0 (by exact (by decide : ∀ w, Pipeline.arrRef spec0 w ≠ main_arg0))).trans (V_main_arg0 m c)

/-- The hard batch likewise. -/
theorem WR_arg1 (c : Dev nD) :
    (WR m c (Proc.devRef .tc main_arg1) : S4096x512.Idx → EReal) = aXh m c :=
  (Pipeline.withArrays_of_ne _ c (V0 m c) _ main_arg1 (by exact (by decide : ∀ w, Pipeline.arrRef spec0 w ≠ main_arg1))).trans (V_main_arg1 m c)

/-- The centers likewise. -/
theorem WR_arg3 (c : Dev nD) :
    (WR m c (Proc.devRef .tc main_arg3) : S10000x512.Idx → EReal) = aCn m c :=
  (Pipeline.withArrays_of_ne _ c (V0 m c) _ main_arg3 (by exact (by decide : ∀ w, Pipeline.arrRef spec0 w ≠ main_arg3))).trans (V_main_arg3 m c)

/-- The clamped labels are no array of the pipeline: they are as the region found them, each label clamped. -/
theorem WR_v4 (c : Dev nD) :
    (WR m c (Proc.devRef .tc main_v4) : S4096.Idx → BitVec 32) = fun i => Goal.clampT (aTg m c i) := by
  refine (Pipeline.withArrays_of_ne _ c (V0 m c) _ main_v4 (by exact (by decide : ∀ w, Pipeline.arrRef spec0 w ≠ main_v4))).trans ?_
  funext i
  rw [eq_ix1 i]
  exact HostIn.V_v4 m c (i 0)

/-! ## The result -/

/-- The result buffer after the tail is G of the arguments. -/
theorem tail_eq_G (c : Dev nD) :
    (Pipeline.afterTail₀ cfgs (dats m) 0 (V0 m) [hostOps1, hostOps1_1, hostOps1_2] c main_v23 : S_.Idx → EReal)
      = Goal.G Tail.wfK (aXs m c) (aXh m c) (aTg m c) (aCn m c) (aW m c) := by
  unfold Pipeline.afterTail₀
  -- the labels the tail gathers at are clamped, so in [0, 10000)
  have hv4 : ∀ i : S4096.Idx, 0 ≤ ((WR m c (Proc.devRef .tc main_v4) : S4096.Idx → BitVec 32) i).toInt
      ∧ ((WR m c (Proc.devRef .tc main_v4) : S4096.Idx → BitVec 32) i).toInt < 10000 := by
    intro i
    rw [WR_v4]
    exact Goal.clampT_range _
  -- the tail is the tail function of the buffers it starts from; each of those is known
  refine (Tail.tail_after (WR m c) hv4).trans ?_
  rw [WR_v6_0, WR_v6_1, WR_arg0, WR_arg1, WR_arg3, WR_v4]
  unfold Goal.G Goal.crows Goal.cidx
  rfl

/-- The run, read. -/
theorem run : θ_run defs (onTc (τ := τ) (main (F := Ideal))) ⟨m, fun _ => 0, ρ⟩ fun r => ∀ c : Dev nD,
      (r.2.mem ((c : Thread nD τ).loc main_v23) : S_.Idx → EReal) = Goal.G Tail.wfK (aXs m c) (aXh m c) (aTg m c) (aCn m c) (aW m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  -- the result buffer and the five arguments are unscoped buffers that are no array of the pipeline: the run leaves each
  -- as the host operations after the region leave it, the result at G and an argument (which none of them writes) as launched
  exact (θ_run defs _ _).mono (fun _ h c =>
    ⟨((h c).2 main_v23 (Pipeline.mem_restRefs_of main_v23 (by decide) (by decide))).trans (tail_eq_G m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Value

end
-- ==== Proof.RefRow.lean ====
/-
  One row of the reference's gathered log-softmax. The reference multiplies the batch by the transposed weights (the
  logits of every row), takes each row's maximum over -infinity, subtracts it, exponentiates, sums, takes the logarithm,
  subtracts again, and picks the entry at the row's label; for a label in range the pick's bounds test passes and the entry
  is Spec.refLogp of the row's logits at the label.
-/
import proofs.«406640_j61916248539750_2_alg».proof.Proof.RefReadP
import proofs.«406640_j61916248539750_2_alg».proof.Proof.Goal
import Idealize.ShloMosaic.PureOps.Ideal.Laws
import Idealize.ShloMosaic.Lib.ValueIdx
import Idealize.ShloMosaic.Lib.Pipeline.Value
import Idealize.ShloMosaic.Lib.ValueLayout
import Idealize.ShloMosaic.Lib.Affine

noncomputable section

namespace Cert.RefRow

open Cert.ReferenceIdeal Cert.ReferenceIdeal.Gen Cert.ReferenceIdeal.Read Idealize.ShloMosaic Idealize.ShloMosaic.ValueIdx

/-- The class axis of the logits matrix is the one the row reductions drop. -/
theorem red_row : S4096x10000.Reduces [1] S4096 := by decide

/-- Row `b` of the matrix with class `j` inserted on the dropped axis is the index (b, j). -/
theorem lift_row (b : Fin 4096) (j : Fin 10000) : red_row.lift (ix1 b) j = ix2 b j :=
  funext fun a => Fin.ext (by match a with | ⟨0, _⟩ => rfl | ⟨1, _⟩ => rfl)

/-- A row maximum of a [4096, 10000] matrix read at row `b`: the fold of `max` over the row's entries from the initial value. -/
theorem rowMax_read (x : FVec Ideal S4096x10000 .f32) (init : FVec Ideal S_ .f32) (b : Fin 4096) :
    (Host.reduce (FloatOps.maximumf (F := Ideal) (φ := .f32)) x init reducesTo_S4096x10000_S4096_d1 h_S_ (ix1 b) : EReal)
      = (Finset.univ : Finset (Fin 10000)).fold max (init (Shape.Idx.first h_S_)) (fun j => x (ix2 b j)) := by
  refine (Host.reduce_eq_fold_single (FloatOps.maximumf (F := Ideal) (φ := .f32)) x init reducesTo_S4096x10000_S4096_d1 red_row h_S_ (ix1 b)).trans ?_
  have e : (x ∘ red_row.lift (ix1 b)) = fun j : Fin 10000 => x (ix2 b j) := funext fun j => congrArg x (lift_row b j)
  rw [e]
  rfl

/-- The unit axis the bounds test's reduction drops. -/
theorem red_one : S4096x1x1.Reduces [2] S4096x1 := by decide

/-- Over (b, 0) the only index with a coordinate inserted on the dropped unit axis is (b, 0, 0). -/
theorem lift_one (b : Fin 4096) (k : Fin 1) : red_one.lift (ix2 b (0 : Fin 1)) k = ix3 b (0 : Fin 1) (0 : Fin 1) :=
  funext fun a => Fin.ext (by
    match a with
    | ⟨0, _⟩ => rfl
    | ⟨1, _⟩ => rfl
    | ⟨2, _⟩ => have := k.isLt; show k.val = 0; omega)

/-- A reduction by `and` over a unit axis read at (b, 0): the one element under it, met with the initial value. -/
theorem andReduce_read (v : IVec S4096x1x1 1) (init : IVec S_ 1) (b : Fin 4096) :
    Host.reduce IntOp.andi v init reducesTo_S4096x1x1_S4096x1_d2 h_S_ (ix2 b (0 : Fin 1))
      = IntOp.andi (v (ix3 b 0 0)) (init (Shape.Idx.first h_S_)) := by
  refine (Host.reduce_eq_fold_single IntOp.andi v init reducesTo_S4096x1x1_S4096x1_d2 red_one h_S_ (ix2 b 0)).trans ?_
  have e : (v ∘ red_one.lift (ix2 b (0 : Fin 1))) = fun _ : Fin 1 => v (ix3 b 0 0) := funext fun k => congrArg v (lift_one b k)
  rw [e]
  show (Finset.univ : Finset (Fin 1)).fold IntOp.andi _ _ = _
  rw [Finset.univ_unique, Finset.fold_singleton]

/-- The pick's operand index at (b, 0), first coordinate: the row itself (the batching axis). -/
theorem pick_coord0 (idx : IVec S4096x1x1 32) (b : Fin 4096) :
    (gather_S4096x10000_S4096x1x1_S4096x1_n_1_0_0_1_2_11.operandIdx (ix2 b (0 : Fin 1)) idx 0).val = b.val := by
  show gather_S4096x10000_S4096x1x1_S4096x1_n_1_0_0_1_2_11.start (ix2 b (0 : Fin 1)) idx 0
    + gather_S4096x10000_S4096x1x1_S4096x1_n_1_0_0_1_2_11.batchCoord (ix2 b (0 : Fin 1)) 0
    + gather_S4096x10000_S4096x1x1_S4096x1_n_1_0_0_1_2_11.offCoord (ix2 b (0 : Fin 1)) 0 = b.val
  rw [GatherDims.start_batching _ _ _ _ (show (0 : Fin S4096x10000.rank) ∈ gather_S4096x10000_S4096x1x1_S4096x1_n_1_0_0_1_2_11.operandBatchingDims from List.mem_singleton.mpr rfl),
    GatherDims.offCoord_eq_zero _ _ _ (fun h => ((GatherDims.mem_sKept _ _).mp h).2 (List.mem_singleton.mpr rfl))]
  simp only [Nat.zero_add, Nat.add_zero]
  unfold GatherDims.batchCoord
  rw [dif_pos (show (0 : Fin S4096x10000.rank) ∈ gather_S4096x10000_S4096x1x1_S4096x1_n_1_0_0_1_2_11.operandBatchingDims from List.mem_singleton.mpr rfl)]
  rfl

/-- Second coordinate: the start index at (b, 0, 0), read signed and clamped into [0, 9999] (the collapsed class axis). -/
theorem pick_coord1 (idx : IVec S4096x1x1 32) (b : Fin 4096) :
    (gather_S4096x10000_S4096x1x1_S4096x1_n_1_0_0_1_2_11.operandIdx (ix2 b (0 : Fin 1)) idx 1).val
      = min (idx (ix3 b 0 0)).toInt.toNat 9999 := by
  show gather_S4096x10000_S4096x1x1_S4096x1_n_1_0_0_1_2_11.start (ix2 b (0 : Fin 1)) idx 1
    + gather_S4096x10000_S4096x1x1_S4096x1_n_1_0_0_1_2_11.batchCoord (ix2 b (0 : Fin 1)) 1
    + gather_S4096x10000_S4096x1x1_S4096x1_n_1_0_0_1_2_11.offCoord (ix2 b (0 : Fin 1)) 1 = _
  rw [GatherDims.batchCoord_eq_zero _ _ _ (show (1 : Fin S4096x10000.rank) ∉ gather_S4096x10000_S4096x1x1_S4096x1_n_1_0_0_1_2_11.operandBatchingDims by decide),
    GatherDims.offCoord_eq_zero _ _ _ (fun h => ((GatherDims.mem_sKept _ _).mp h).1 (List.mem_singleton.mpr rfl))]
  simp only [Nat.add_zero]
  unfold GatherDims.start
  rw [dif_pos (show (1 : Fin S4096x10000.rank) ∈ gather_S4096x10000_S4096x1x1_S4096x1_n_1_0_0_1_2_11.startIndexMap from List.mem_singleton.mpr rfl)]
  have hsi : gather_S4096x10000_S4096x1x1_S4096x1_n_1_0_0_1_2_11.siIdx (ix2 b (0 : Fin 1))
      ⟨List.idxOf (1 : Fin S4096x10000.rank) gather_S4096x10000_S4096x1x1_S4096x1_n_1_0_0_1_2_11.startIndexMap,
        List.idxOf_lt_length_iff.2 (List.mem_singleton.mpr rfl)⟩ = ix3 b (0 : Fin 1) (0 : Fin 1) := by
    funext c; refine Fin.ext ?_
    match c with
    | ⟨0, _⟩ => rfl
    | ⟨1, _⟩ => rfl
    | ⟨2, _⟩ => rfl
  rw [hsi]
  rfl

/-- THE PICK READ AT (b, 0): the matrix at (b, the start index clamped into [0, 9999]). -/
theorem pick_read {α : Type} (x : S4096x10000.Idx → α) (idx : IVec S4096x1x1 32) (b : Fin 4096) :
    Host.gather gather_S4096x10000_S4096x1x1_S4096x1_n_1_0_0_1_2_11 x idx (ix2 b (0 : Fin 1))
      = x (ix2 b ⟨min (idx (ix3 b 0 0)).toInt.toNat 9999, by omega⟩) := by
  unfold Host.gather
  refine congrArg x (funext fun a => Fin.ext ?_)
  match a with
  | ⟨0, _⟩ => exact pick_coord0 idx b
  | ⟨1, _⟩ => exact pick_coord1 idx b

/-! ## The stages of the soft path, read at row `b` -/

/-- The pattern of -infinity is the bottom of the extended reals. -/
theorem negInf : Ideal.ofBits .f32 0xFF800000#32 = (⊥ : EReal) := by simp [Ideal.ofBits, Ideal.ieee]

/-- The product with the transposed weights at (b, j) is logit `j` of row `b`. -/
theorem logit_read (x0 : (⟨S4096x512, .f32⟩ : BufTy).Contents (Elt Ideal)) (x4 : (⟨S10000x512, .f32⟩ : BufTy).Contents (Elt Ideal))
    (b : Fin 4096) (j : Fin 10000) :
    (val_main_v1 (F := Ideal) x0 x4 : S4096x10000.Idx → EReal) (ix2 b j) = Goal.logits x0 x4 b j := by
  rw [val_main_v1_apply]
  show _ = ∑ k : Fin 512, x0 (ix2 b k) * x4 (ix2 j k)
  refine Finset.sum_congr rfl fun k _ => ?_
  rw [val_main_v0_apply]
  have el : lidx_main_v1 (ix2 b j) k = ix2 b k :=
    funext fun a => Fin.ext (by match a with | ⟨0, _⟩ => rfl | ⟨1, _⟩ => rfl)
  have er : idx_main_v0 (ridx_main_v1 (ix2 b j) k) = ix2 j k :=
    funext fun a => Fin.ext (by match a with | ⟨0, _⟩ => rfl | ⟨1, _⟩ => rfl)
  rw [el, er]

/-- The row maximum, taken once more against -infinity, is the maximum of the row's logits over -infinity. -/
theorem max_read (x0 : (⟨S4096x512, .f32⟩ : BufTy).Contents (Elt Ideal)) (x4 : (⟨S10000x512, .f32⟩ : BufTy).Contents (Elt Ideal))
    (b : Fin 4096) :
    (val_main_call0_v2 (F := Ideal) x0 x4 : S4096.Idx → EReal) (ix1 b) = Spec.refMax (Goal.logits x0 x4 b) := by
  rw [val_main_call0_v2_apply, val_main_call0_v1_apply, val_main_call0_cst_0_apply]
  unfold val_main_call0_v0
  refine (congrArg (FloatOps.maximumf (F := Ideal) (φ := .f32) (FloatOps.ofBits .f32 0xFF800000#32))
    (rowMax_read (val_main_v1 (F := Ideal) x0 x4) (val_main_call0_cst (F := Ideal)) b)).trans ?_
  have e : (fun j : Fin 10000 => (val_main_v1 (F := Ideal) x0 x4 : S4096x10000.Idx → EReal) (ix2 b j)) = Goal.logits x0 x4 b :=
    funext fun j => logit_read x0 x4 b j
  rw [e]
  show max (Ideal.ofBits .f32 0xFF800000#32)
    ((Finset.univ : Finset (Fin 10000)).fold max (Ideal.ofBits .f32 0xFF800000#32) (Goal.logits x0 x4 b)) = _
  rw [negInf, max_bot_left]
  rfl

/-- The shifted logit at (b, j): the logit minus the row's maximum. -/
theorem shifted_read (x0 : (⟨S4096x512, .f32⟩ : BufTy).Contents (Elt Ideal)) (x4 : (⟨S10000x512, .f32⟩ : BufTy).Contents (Elt Ideal))
    (b : Fin 4096) (j : Fin 10000) :
    (val_main_call0_v5 (F := Ideal) x0 x4 : S4096x10000.Idx → EReal) (ix2 b j)
      = Goal.logits x0 x4 b j - Spec.refMax (Goal.logits x0 x4 b) := by
  rw [val_main_call0_v5_apply, val_main_call0_v4_apply, val_main_call0_v3_apply, logit_read]
  have e : idx_main_call0_v3 (idx_main_call0_v4 (ix2 b j)) = ix1 b :=
    funext fun a => Fin.ext (by match a with | ⟨0, _⟩ => rfl)
  rw [e, max_read]
  rfl

/-- The row's sum of exponentials of the shifted logits (the reduction starts from the literal 0). -/
theorem sum_read (x0 : (⟨S4096x512, .f32⟩ : BufTy).Contents (Elt Ideal)) (x4 : (⟨S10000x512, .f32⟩ : BufTy).Contents (Elt Ideal))
    (b : Fin 4096) :
    (val_main_call0_v7 (F := Ideal) x0 x4 : S4096.Idx → EReal) (ix1 b)
      = ∑ k : Fin 10000, Ideal.exp (Goal.logits x0 x4 b k - Spec.refMax (Goal.logits x0 x4 b)) := by
  rw [val_main_call0_v7_apply, val_main_call0_cst_1_apply]
  show Ideal.ofBits .f32 0x00000000#32 + _ = _
  rw [Ideal.ofBits_zero_f32, zero_add]
  refine Finset.sum_congr rfl fun k _ => ?_
  have e : idx_main_call0_v7 (ix1 b) k = ix2 b k :=
    funext fun a => Fin.ext (by match a with | ⟨0, _⟩ => rfl | ⟨1, _⟩ => rfl)
  rw [e, val_main_call0_v6_apply, shifted_read]
  rfl

/-- The log-softmax matrix at (b, j) is the reference's row value at class `j`. -/
theorem logp_read (x0 : (⟨S4096x512, .f32⟩ : BufTy).Contents (Elt Ideal)) (x4 : (⟨S10000x512, .f32⟩ : BufTy).Contents (Elt Ideal))
    (b : Fin 4096) (j : Fin 10000) :
    (val_main_v4 (F := Ideal) x0 x4 : S4096x10000.Idx → EReal) (ix2 b j) = Spec.refLogp (Goal.logits x0 x4 b) j := by
  rw [val_main_v4_apply, shifted_read, val_main_call0_v10_apply, val_main_call0_v9_apply, val_main_call0_v8_apply]
  have e : idx_main_call0_v8 (idx_main_call0_v10 (ix2 b j)) = ix1 b :=
    funext fun a => Fin.ext (by match a with | ⟨0, _⟩ => rfl)
  rw [e, sum_read]
  rfl

/-- The label column, wrapped and reshaped, at (b, 0, 0): a nonnegative label is not wrapped, so it is the label itself. -/
theorem label_read (x2 : (⟨S4096, .i32⟩ : BufTy).Contents (Elt Ideal)) (b : Fin 4096)
    (hb : 0 ≤ ((x2 (ix1 b) : BitVec 32)).toInt) :
    (val_main_call1_v5 (F := Ideal) x2 : S4096x1x1.Idx → BitVec 32) (ix3 b (0 : Fin 1) (0 : Fin 1)) = x2 (ix1 b) := by
  rw [val_main_call1_v5_apply, val_main_call1_v4_apply, val_main_call1_v1_apply, val_main_v5_apply, val_main_call1_v0_apply,
    val_main_call1_c_apply]
  have e : idx_main_v5 (idx_main_call1_v5 (ix3 b (0 : Fin 1) (0 : Fin 1))) = ix1 b :=
    funext fun a => Fin.ext (by
      match a with
      | ⟨0, _⟩ => show ((b.val * 1 + 0) * 1 + 0) / 1 = b.val; omega)
  rw [e]
  have h1 : IntOp.cmpi .slt (x2 (ix1 b) : BitVec 32) 0#32 = 0#1 := eq_zero_of_ne_one fun h => by
    rw [IntOp.cmpi_slt] at h
    have h0 : (0#32 : BitVec 32).toInt = 0 := by decide
    omega
  rw [h1, select_zero]

/-- The bounds test at (b, 0): a label in [0, 9999] passes. -/
theorem bounds_read (x2 : (⟨S4096, .i32⟩ : BufTy).Contents (Elt Ideal)) (b : Fin 4096)
    (hb : 0 ≤ ((x2 (ix1 b) : BitVec 32)).toInt ∧ ((x2 (ix1 b) : BitVec 32)).toInt < 10000) :
    (val_main_call1_v12 (F := Ideal) x2 : S4096x1.Idx → BitVec 1) (ix2 b (0 : Fin 1)) = 1#1 := by
  unfold val_main_call1_v12
  refine (andReduce_read (val_main_call1_v11 (F := Ideal) x2) (val_main_call1_c_3 (F := Ideal)) b).trans ?_
  rw [IntOp.andi_eq_one]
  refine ⟨?_, rfl⟩
  rw [val_main_call1_v11_apply, IntOp.andi_eq_one, val_main_call1_v7_apply, val_main_call1_v10_apply, label_read x2 b hb.1,
    val_main_call1_v6_apply, val_main_call1_c_2_apply, val_main_call1_v9_apply, val_main_call1_v8_apply, val_main_call1_c_1_apply,
    IntOp.cmpi_sge, IntOp.cmpi_sle]
  have h0 : (0#32 : BitVec 32).toInt = 0 := by decide
  have h9 : (9999#32 : BitVec 32).toInt = 9999 := by decide
  rw [h0, h9]
  omega

/-- The soft path: the picked log-softmax entry of row `b`. -/
theorem row_soft (x0 : (⟨S4096x512, .f32⟩ : BufTy).Contents (Elt Ideal)) (x2 : (⟨S4096, .i32⟩ : BufTy).Contents (Elt Ideal))
    (x4 : (⟨S10000x512, .f32⟩ : BufTy).Contents (Elt Ideal)) (b : Fin 4096)
    (hb : 0 ≤ ((x2 (ix1 b) : BitVec 32)).toInt ∧ ((x2 (ix1 b) : BitVec 32)).toInt < 10000) :
    (val_main_v6 (F := Ideal) x0 x2 x4 : S4096x1.Idx → EReal) (ix2 b 0)
      = Spec.refLogp (Goal.logits x0 x4 b) ⟨((x2 (ix1 b) : BitVec 32)).toNat, Goal.toNat_lt hb⟩ := by
  rw [val_main_v6_apply, bounds_read x2 b hb, select_one]
  unfold val_main_call1_v13
  rw [pick_read, logp_read]
  congr 1
  apply Fin.ext
  show min ((val_main_call1_v5 (F := Ideal) x2 : S4096x1x1.Idx → BitVec 32) (ix3 b (0 : Fin 1) (0 : Fin 1))).toInt.toNat 9999
    = ((x2 (ix1 b) : BitVec 32)).toNat
  rw [label_read x2 b hb.1]
  have h2 := BitVec.toInt_eq_toNat_cond (x2 (ix1 b) : BitVec 32)
  have h3 := (x2 (ix1 b) : BitVec 32).isLt
  split at h2 <;> omega

/-! ## The hard path: the same operations on the second batch -/

/-- The second batch goes through a second copy of the same operations: stage for stage the two chains are one function of the batch. -/
theorem hard_eq_soft (x1 : (⟨S4096x512, .f32⟩ : BufTy).Contents (Elt Ideal)) (x2 : (⟨S4096, .i32⟩ : BufTy).Contents (Elt Ideal))
    (x4 : (⟨S10000x512, .f32⟩ : BufTy).Contents (Elt Ideal)) :
    val_main_v12 (F := Ideal) x1 x2 x4 = val_main_v6 (F := Ideal) x1 x2 x4 := rfl

/-- The hard path: the same reading of the second batch. -/
theorem row_hard (x1 : (⟨S4096x512, .f32⟩ : BufTy).Contents (Elt Ideal)) (x2 : (⟨S4096, .i32⟩ : BufTy).Contents (Elt Ideal))
    (x4 : (⟨S10000x512, .f32⟩ : BufTy).Contents (Elt Ideal)) (b : Fin 4096)
    (hb : 0 ≤ ((x2 (ix1 b) : BitVec 32)).toInt ∧ ((x2 (ix1 b) : BitVec 32)).toInt < 10000) :
    (val_main_v12 (F := Ideal) x1 x2 x4 : S4096x1.Idx → EReal) (ix2 b 0)
      = Spec.refLogp (Goal.logits x1 x4 b) ⟨((x2 (ix1 b) : BitVec 32)).toNat, Goal.toNat_lt hb⟩ := by
  rw [hard_eq_soft]
  exact row_soft x1 x2 x4 b hb

end Cert.RefRow

end
-- ==== Proof.RefTail.lean ====
/-
  The reference's scalar result read through its last stages: the negated batch means of the two picked log-softmax
  columns, plus the quantization term over the center rows gathered at the labels (a negative label first wrapped by
  10000: not the case for a label in range).
-/
import proofs.«406640_j61916248539750_2_alg».proof.Proof.RefReadP
import proofs.«406640_j61916248539750_2_alg».proof.Proof.Goal
import Idealize.ShloMosaic.PureOps.Ideal.Laws
import Idealize.ShloMosaic.Lib.ValueIdx
import Idealize.ShloMosaic.Lib.Pipeline.Value
import Idealize.ShloMosaic.Lib.ValueLayout

noncomputable section

namespace Cert.RefTail

open Cert.ReferenceIdeal Cert.ReferenceIdeal.Gen Cert.ReferenceIdeal.Read Idealize.ShloMosaic Idealize.ShloMosaic.ValueIdx

/-- The reference's result as sums over its stages: the two negated means and the quantization term of the gathered rows
    `c = val_main_v22 x2 x3`. -/
theorem result_eq (x0 x1 : (⟨S4096x512, .f32⟩ : BufTy).Contents (Elt Ideal)) (x2 : (⟨S4096, .i32⟩ : BufTy).Contents (Elt Ideal))
    (x3 x4 : (⟨S10000x512, .f32⟩ : BufTy).Contents (Elt Ideal)) (i : S_.Idx) :
    (val_main_v34 (F := Ideal) x0 x1 x2 x3 x4 : S_.Idx → EReal) i
      = (-(Ideal.div (Goal.zeroL + ∑ j : S4096x1.Idx, (val_main_v6 (F := Ideal) x0 x2 x4 : S4096x1.Idx → EReal) j) Goal.nL)
          + -(Ideal.div (Goal.zeroL + ∑ j : S4096x1.Idx, (val_main_v12 (F := Ideal) x1 x2 x4 : S4096x1.Idx → EReal) j) Goal.nL))
        + Ideal.div (Goal.halfL * (Goal.halfL * (Goal.sqsum x0 (val_main_v22 (F := Ideal) x2 x3) + Goal.sqsum x1 (val_main_v22 (F := Ideal) x2 x3)))) Goal.nL := by
  -- the last stages, one operation at a time: the sum of the two negated means and of the scaled quantization term
  rw [val_main_v34_apply, val_main_v31_apply, val_main_v33_apply, val_main_v9_apply, val_main_v15_apply,
    val_main_v8_apply, val_main_v14_apply, val_main_v32_apply, val_main_v30_apply, val_main_v29_apply,
    val_main_v7_apply, val_main_v13_apply, val_main_v25_apply, val_main_v28_apply]
  -- what is left is the same expression: a literal read at an index is its word, a squared difference is the product
  -- of the difference with itself, and the operations at this instance are the ones of the extended reals
  rfl

/-- The wrapped labels, as a column, are the clamped labels when every label is in range: the wrap's test "negative"
    fails, so the label is kept, and a label in range is its own clamp. -/
theorem labels_eq (x2 : (⟨S4096, .i32⟩ : BufTy).Contents (Elt Ideal))
    (ht : ∀ i, 0 ≤ ((x2 i : BitVec 32)).toInt ∧ ((x2 i : BitVec 32)).toInt < 10000) :
    (val_main_v21 (F := Ideal) x2 : S4096x1.Idx → BitVec 32) = Goal.cidx x2 := by
  funext i
  rw [val_main_v21_apply, val_main_v20_apply, val_main_v17_apply, val_main_v16_apply, val_main_c_apply]
  have hi := ht (idx_main_v21 i)
  -- the label is not negative, so "label < 0" read signed is false
  have hn : ¬ ((x2 (idx_main_v21 i) : BitVec 32).slt 0#32 = true) := by
    have h0 : (0#32 : BitVec 32).toInt = 0 := by decide
    rw [BitVec.slt_iff_toInt_lt, h0]
    omega
  have hf : (x2 (idx_main_v21 i) : BitVec 32).slt 0#32 = false := by
    cases h : (x2 (idx_main_v21 i) : BitVec 32).slt 0#32
    · rfl
    · exact absurd h hn
  have hc : IntOp.cmpi .slt (x2 (idx_main_v21 i) : BitVec 32) 0#32 = 0#1 := by
    show BitVec.ofBool ((x2 (idx_main_v21 i) : BitVec 32).slt 0#32) = 0#1
    rw [hf]
    rfl
  rw [hc, select_zero]
  -- the column's row index is the label's index
  have e : idx_main_v21 i = ix1 (i 0) := by
    funext d
    match d with
    | ⟨0, _⟩ => rfl
  show x2 (idx_main_v21 i) = Goal.clampT (x2 (ix1 (i 0)))
  rw [e]
  exact (Goal.clampT_eq (ht (ix1 (i 0)))).symm

/-- For labels in range the gathered center rows are the ones G gathers (the wrap of negatives and the clamp both leave a
    label in range alone; the two dimension records have the same fields). -/
theorem crows_eq (wf : GatherDims.WF Goal.SW Goal.SO Goal.SX [1] [0] [] [0] [] 1 ![1, 512])
    (x2 : (⟨S4096, .i32⟩ : BufTy).Contents (Elt Ideal)) (x3 : (⟨S10000x512, .f32⟩ : BufTy).Contents (Elt Ideal))
    (ht : ∀ i, 0 ≤ ((x2 i : BitVec 32)).toInt ∧ ((x2 i : BitVec 32)).toInt < 10000) :
    (val_main_v22 (F := Ideal) x2 x3 : S4096x512.Idx → EReal) = Goal.crows wf x3 x2 := by
  -- the two dimension records have the same fields (the last one is a proof)
  have hd : gather_S10000x512_S4096x1_S4096x512_1_0_n_n_0_1_1512 = Goal.cdims wf := rfl
  unfold val_main_v22 Goal.crows
  rw [labels_eq x2 ht, hd]

end Cert.RefTail

end
-- ==== Proof.Online.lean ====
/-
  The online (tile by tile) log-sum-exp of one row agrees with the reference's one-pass log-softmax, over real logits.

  After n tiles the carried maximum is the maximum of the masked logits of the classes seen, the carried target logit is
  the target's logit once its class has been seen, and the carried sum satisfies, for EVERY real level M',
      exp (m - M') * l = sum over the classes seen of exp (x_j - M')     (a padded class contributes 0).
  That one statement survives the first tile (where m is still -infinity and l = 0: both sides are 0) and each later
  rescaling by exp (m - m'), because exp (a - b) * exp (x - a) = exp (x - b). After the last tile every class has been
  seen, the carried maximum is the row's maximum M (a real number: class 0 is real and nothing is +infinity), and taking
  M' = M gives l = sum_j exp (x_j - M), a positive real. Both sides of the claim are then the same real number up to sign:
  (M + log l) - x_tg = -((x_tg - M) - log l).
-/
import proofs.«406640_j61916248539750_2_alg».proof.Proof.Spec

noncomputable section

namespace Cert.Online

open Cert.Spec Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- the inner product of real rows is the real inner product -/
theorem dot_coe {K : ℕ} (x w : Fin K → ℝ) :
    Spec.dot (fun k => (x k : EReal)) (fun k => (w k : EReal)) = ((∑ k, x k * w k : ℝ) : EReal) := by
  unfold Spec.dot
  rw [coe_sum]
  exact Finset.sum_congr rfl fun k _ => (EReal.coe_mul _ _).symm

/-! ### Tiles of the class axis as stretches of an initial segment -/

/-- The sum over one tile, indexed by the naturals below the tile width. -/
theorem tile_sum {β : Type*} [AddCommMonoid β] (T n : ℕ) (f : ℕ → β) :
    ∑ j : Fin T, f (n * T + j.val) = ∑ x ∈ Finset.range T, f (n * T + x) :=
  (Finset.sum_range fun x => f (n * T + x)).symm

/-- The first `n + 1` tiles are the first `n` tiles and tile `n`. -/
theorem sum_succ_tile {β : Type*} [AddCommMonoid β] (T n : ℕ) (f : ℕ → β) :
    ∑ k ∈ Finset.range ((n + 1) * T), f k
      = ∑ k ∈ Finset.range (n * T), f k + ∑ j : Fin T, f (n * T + j.val) := by
  rw [Nat.succ_mul, Finset.sum_range_add, tile_sum]

/-- The maximum over the first `n + 1` tiles is the larger of the maximum over the first `n` and tile `n`'s. -/
theorem fold_max_tile (T : ℕ) (z : ℕ → EReal) (n : ℕ) :
    max ((Finset.range (n * T)).fold max ⊥ z) (Spec.tileMax T z n)
      = (Finset.range ((n + 1) * T)).fold max ⊥ z := by
  unfold Spec.tileMax
  apply le_antisymm
  · refine max_le ?_ ?_
    · refine (Finset.fold_max_le _).2 ⟨bot_le, fun k hk => (Finset.le_fold_max _).2 (Or.inr ⟨k, ?_, le_rfl⟩)⟩
      rw [Finset.mem_range] at hk ⊢
      exact lt_of_lt_of_le hk (Nat.mul_le_mul_right T (Nat.le_succ n))
    · refine (Finset.fold_max_le _).2 ⟨bot_le, fun j _ =>
        (Finset.le_fold_max _).2 (Or.inr ⟨n * T + j.val, ?_, le_rfl⟩)⟩
      rw [Finset.mem_range, Nat.succ_mul]
      exact Nat.add_lt_add_left j.isLt _
  · refine (Finset.fold_max_le _).2 ⟨bot_le, fun k hk => ?_⟩
    rw [Finset.mem_range, Nat.succ_mul] at hk
    rcases lt_or_ge k (n * T) with h | h
    · exact le_max_of_le_left ((Finset.le_fold_max _).2 (Or.inr ⟨k, Finset.mem_range.2 h, le_rfl⟩))
    · refine le_max_of_le_right ((Finset.le_fold_max _).2
        (Or.inr ⟨⟨k - n * T, by omega⟩, Finset.mem_univ _, ?_⟩))
      show z k ≤ z (n * T + (k - n * T))
      rw [Nat.add_sub_of_le h]

/-! ### The three carried numbers after `n` tiles, for any masked row -/

/-- The running maximum is the maximum over the classes seen. -/
theorem run_m (T : ℕ) (z : ℕ → EReal) (tg n : ℕ) :
    (Spec.run T z tg n).m = (Finset.range (n * T)).fold max ⊥ z := by
  induction n with
  | zero => simp [Spec.run, Spec.St.init]
  | succ n ih =>
    show max (Spec.run T z tg n).m (Spec.tileMax T z n) = _
    rw [ih]
    exact fold_max_tile T z n

/-- The carried target logit is the sum of the target's indicator times the logit over the classes seen. -/
theorem run_t (T : ℕ) (z : ℕ → EReal) (tg n : ℕ) :
    (Spec.run T z tg n).t = ∑ k ∈ Finset.range (n * T), if tg = k then z k else 0 := by
  induction n with
  | zero => simp [Spec.run, Spec.St.init]
  | succ n ih =>
    show (Spec.run T z tg n).t
      + ∑ j : Fin T, (if tg = n * T + j.val then z (n * T + j.val) else 0) = _
    rw [ih, sum_succ_tile T n (fun k => if tg = k then z k else 0)]

section Real

variable {C : ℕ} (lg : Fin C → ℝ)

/-- The masked row of real logits. -/
abbrev mz : ℕ → EReal := Spec.masked fun j => (lg j : EReal)

/-- The exponential of class `k`'s masked logit against the real level `M`: a padded class contributes 0. -/
def g (M : ℝ) (k : ℕ) : ℝ := if h : k < C then Real.exp (lg ⟨k, h⟩ - M) else 0

theorem exp_masked_sub (M : ℝ) (k : ℕ) :
    Ideal.exp (mz lg k - (M : EReal)) = ((g lg M k : ℝ) : EReal) := by
  simp only [mz, Spec.masked, g]
  split_ifs with h
  · rw [← EReal.coe_sub, Ideal.exp_coe]
  · rw [EReal.bot_sub, Ideal.exp_bot, EReal.coe_zero]

/-- Moving the level from `a` to `b` multiplies every exponential by `exp (a - b)`. -/
theorem g_rescale (a b : ℝ) (k : ℕ) : Real.exp (a - b) * g lg a k = g lg b k := by
  unfold g
  split_ifs with h
  · rw [← Real.exp_add]
    congr 1
    ring
  · exact mul_zero _

/-- Over an initial segment that holds class 0 the maximum of the masked row is a real number. -/
theorem fold_real (hC : 0 < C) (N : ℕ) (hN : 0 < N) :
    ∃ M : ℝ, (Finset.range N).fold max ⊥ (mz lg) = (M : EReal) := by
  have htop : (Finset.range N).fold max ⊥ (mz lg) ≠ ⊤ := by
    apply ne_of_lt
    refine (Finset.fold_max_lt _).2 ⟨bot_lt_top, fun k _ => ?_⟩
    simp only [mz, Spec.masked]
    split_ifs
    · exact EReal.coe_lt_top _
    · exact bot_lt_top
  have hbot : (Finset.range N).fold max ⊥ (mz lg) ≠ ⊥ := by
    apply ne_of_gt
    refine (Finset.lt_fold_max _).2 (Or.inr ⟨0, Finset.mem_range.2 hN, ?_⟩)
    simp only [mz, Spec.masked, dif_pos hC]
    exact EReal.bot_lt_coe _
  exact ⟨_, (EReal.coe_toReal htop hbot).symm⟩

/-- Over an initial segment that holds every class the maximum of the masked row is the row's maximum. -/
theorem fold_eq_refMax (N : ℕ) (hN : C ≤ N) :
    (Finset.range N).fold max ⊥ (mz lg) = Spec.refMax fun j => (lg j : EReal) := by
  unfold Spec.refMax
  apply le_antisymm
  · refine (Finset.fold_max_le _).2 ⟨bot_le, fun k _ => ?_⟩
    simp only [mz, Spec.masked]
    split_ifs with h
    · exact (Finset.le_fold_max _).2 (Or.inr ⟨⟨k, h⟩, Finset.mem_univ _, le_rfl⟩)
    · exact bot_le
  · refine (Finset.fold_max_le _).2 ⟨bot_le, fun j _ => (Finset.le_fold_max _).2
      (Or.inr ⟨j.val, Finset.mem_range.2 (lt_of_lt_of_le j.isLt hN), ?_⟩)⟩
    simp [mz, Spec.masked, j.isLt]

/-- Over an initial segment that holds every class the padded classes add nothing to the sum of exponentials. -/
theorem sum_g (M : ℝ) (N : ℕ) (hN : C ≤ N) :
    ∑ k ∈ Finset.range N, g lg M k = ∑ j : Fin C, Real.exp (lg j - M) := by
  rw [← Finset.sum_subset (Finset.range_mono hN) (fun k _ hk => by
    rw [Finset.mem_range] at hk
    simp [g, hk])]
  rw [Finset.sum_range]
  exact Finset.sum_congr rfl fun j _ => by simp [g, j.isLt]

/-- The carried sum, moved to any real level `M'`, is the sum of the exponentials of the classes seen at that level.
    Before the first tile both sides are 0; from the first tile on the running maximum is real, the old sum moves to
    the new maximum by the induction hypothesis, and the tile's exponentials are taken at the new maximum already. -/
theorem run_l (hC : 0 < C) (T : ℕ) (hT : 0 < T) (tg n : ℕ) (M' : ℝ) :
    Ideal.exp ((Spec.run T (mz lg) tg n).m - (M' : EReal)) * (Spec.run T (mz lg) tg n).l
      = ((∑ k ∈ Finset.range (n * T), g lg M' k : ℝ) : EReal) := by
  induction n generalizing M' with
  | zero => simp [Spec.run, Spec.St.init]
  | succ n ih =>
    obtain ⟨M1, hM1⟩ := fold_real lg hC ((n + 1) * T) (Nat.mul_pos (Nat.succ_pos n) hT)
    have hm : (Spec.run T (mz lg) tg (n + 1)).m = (M1 : EReal) := by rw [run_m, hM1]
    have hmax : max (Spec.run T (mz lg) tg n).m (Spec.tileMax T (mz lg) n) = (M1 : EReal) := hm
    have hl : (Spec.run T (mz lg) tg (n + 1)).l
        = ((∑ k ∈ Finset.range ((n + 1) * T), g lg M1 k : ℝ) : EReal) := by
      show Ideal.exp ((Spec.run T (mz lg) tg n).m
            - max (Spec.run T (mz lg) tg n).m (Spec.tileMax T (mz lg) n)) * (Spec.run T (mz lg) tg n).l
          + ∑ j : Fin T, Ideal.exp (mz lg (n * T + j.val)
            - max (Spec.run T (mz lg) tg n).m (Spec.tileMax T (mz lg) n)) = _
      rw [hmax, ih M1, sum_succ_tile, EReal.coe_add, coe_sum Finset.univ]
      congr 1
      exact Finset.sum_congr rfl fun j _ => exp_masked_sub lg M1 _
    rw [hm, hl, ← EReal.coe_sub, Ideal.exp_coe, ← EReal.coe_mul, Finset.mul_sum]
    congr 1
    exact Finset.sum_congr rfl fun k _ => g_rescale lg M1 M' k

end Real

/-- the kernel's running loss is the negated reference log-softmax, over real logits and a target class in range -/
theorem rowLoss_eq_neg_refLogp (lg : Fin 10000 → ℝ) (tg : Fin 10000) :
    Spec.rowLoss 2048 5 (Spec.masked fun j => (lg j : EReal)) tg.val
      = - Spec.refLogp (fun j => (lg j : EReal)) tg := by
  obtain ⟨M, hM⟩ := fold_real lg (by norm_num) (5 * 2048) (by norm_num)
  have href : Spec.refMax (fun j => (lg j : EReal)) = (M : EReal) := by
    rw [← fold_eq_refMax lg (5 * 2048) (by norm_num), hM]
  have hm : (Spec.run 2048 (mz lg) tg.val 5).m = (M : EReal) := by rw [run_m, hM]
  have hl : (Spec.run 2048 (mz lg) tg.val 5).l = ((∑ j, Real.exp (lg j - M) : ℝ) : EReal) := by
    have h := run_l lg (by norm_num) 2048 (by norm_num) tg.val 5 M
    rw [hm, ← EReal.coe_sub, sub_self, Ideal.exp_coe, Real.exp_zero, EReal.coe_one, one_mul,
      sum_g lg M _ (by norm_num)] at h
    exact h
  have ht : (Spec.run 2048 (mz lg) tg.val 5).t = (lg tg : EReal) := by
    rw [run_t, Finset.sum_ite_eq, if_pos (Finset.mem_range.2 (by have := tg.isLt; omega))]
    simp [mz, Spec.masked, tg.isLt]
  have hS : 0 < ∑ j : Fin 10000, Real.exp (lg j - M) :=
    Finset.sum_pos (fun j _ => Real.exp_pos _) ⟨tg, Finset.mem_univ _⟩
  have hsum : ∑ j, Ideal.exp ((lg j : EReal) - (M : EReal)) = ((∑ j, Real.exp (lg j - M) : ℝ) : EReal) := by
    rw [coe_sum]
    exact Finset.sum_congr rfl fun j _ => by rw [← EReal.coe_sub, Ideal.exp_coe]
  show ((Spec.run 2048 (mz lg) tg.val 5).m + Ideal.log (Spec.run 2048 (mz lg) tg.val 5).l)
      - (Spec.run 2048 (mz lg) tg.val 5).t
    = - (((lg tg : EReal) - Spec.refMax (fun j => (lg j : EReal)))
      - Ideal.log (∑ j, Ideal.exp ((lg j : EReal) - Spec.refMax (fun j => (lg j : EReal)))))
  rw [hm, hl, ht, href, hsum, Ideal.log_coe, if_neg (not_le.2 hS)]
  rw [← EReal.coe_add, ← EReal.coe_sub, ← EReal.coe_sub, ← EReal.coe_sub, ← EReal.coe_neg]
  exact congrArg (fun r : ℝ => (r : EReal)) (by ring)

/-- and that value is a real number -/
theorem refLogp_real (lg : Fin 10000 → ℝ) (tg : Fin 10000) :
    ∃ r : ℝ, Spec.refLogp (fun j => (lg j : EReal)) tg = (r : EReal) := by
  obtain ⟨M, hM⟩ := fold_real lg (by norm_num) (5 * 2048) (by norm_num)
  have href : Spec.refMax (fun j => (lg j : EReal)) = (M : EReal) := by
    rw [← fold_eq_refMax lg (5 * 2048) (by norm_num), hM]
  have hS : 0 < ∑ j : Fin 10000, Real.exp (lg j - M) :=
    Finset.sum_pos (fun j _ => Real.exp_pos _) ⟨tg, Finset.mem_univ _⟩
  have hsum : ∑ j, Ideal.exp ((lg j : EReal) - (M : EReal)) = ((∑ j, Real.exp (lg j - M) : ℝ) : EReal) := by
    rw [coe_sum]
    exact Finset.sum_congr rfl fun j _ => by rw [← EReal.coe_sub, Ideal.exp_coe]
  refine ⟨(lg tg - M) - Real.log (∑ j, Real.exp (lg j - M)), ?_⟩
  show ((lg tg : EReal) - Spec.refMax (fun j => (lg j : EReal)))
      - Ideal.log (∑ j, Ideal.exp ((lg j : EReal) - Spec.refMax (fun j => (lg j : EReal)))) = _
  rw [href, hsum, Ideal.log_coe, if_neg (not_le.2 hS), ← EReal.coe_sub, ← EReal.coe_sub]

end Cert.Online

end
-- ==== Proof.RefValue.lean ====
/-
  The reference's value is the function G of the argument arrays, for finite inputs and labels in range.
  The reference takes the logits of every row at once (a matrix product with the transposed weights), the log-softmax of
  each row (maximum, shifted exponentials, their sum's logarithm), picks the label's entry, and negates the batch mean; the
  kernel's running loss of a row is the negation of that entry (Online), so the two means agree; the quantization term is
  the same expression of the same gathered center rows, the labels being their own clamp.
-/
import proofs.«406640_j61916248539750_2_alg».proof.Proof.RefRow
import proofs.«406640_j61916248539750_2_alg».proof.Proof.RefTail
import proofs.«406640_j61916248539750_2_alg».proof.Proof.Goal
import proofs.«406640_j61916248539750_2_alg».proof.Proof.Online
import Idealize.ShloMosaic.PureOps.Ideal.Laws
import Idealize.ShloMosaic.Lib.ValueIdx
import Idealize.ShloMosaic.Lib.Pipeline.Value
import Idealize.ShloMosaic.Lib.ValueLayout

noncomputable section

namespace Cert.RefValue

open Cert.ReferenceIdeal Cert.ReferenceIdeal.Gen Idealize.ShloMosaic Idealize.ShloMosaic.TcCoe Idealize.SL.Sem Idealize.ShloMosaic.ValueIdx

/-- The literal 4096.0 denotes the real number 4096. -/
theorem nL_eq : Goal.nL = ((4096 : ℝ) : EReal) := by
  show Ideal.ofBits .f32 0x45800000#32 = _
  simp [Ideal.ofBits, Ideal.ieee, -EReal.coe_mul]
  norm_num

/-- The negated mean of real numbers is the mean of their negations: over any finite index set, with the mean taken as
    the host takes it, (0 + sum) / 4096. -/
theorem neg_mean {ι : Type*} [Fintype ι] (v o : ι → EReal)
    (h : ∀ j, ∃ a : ℝ, v j = (a : EReal) ∧ o j = -(a : EReal)) :
    -(Ideal.div (Goal.zeroL + ∑ j, v j) Goal.nL) = Ideal.div (Goal.zeroL + ∑ j, o j) Goal.nL := by
  choose a ha using h
  have hv : v = fun j => (a j : EReal) := funext fun j => (ha j).1
  have ho : o = fun j => ((-(a j) : ℝ) : EReal) := funext fun j => by rw [(ha j).2, EReal.coe_neg]
  have hz : Goal.zeroL = 0 := Ideal.ofBits_zero_f32
  rw [hv, ho, ← Online.coe_sum, ← Online.coe_sum, nL_eq, hz, zero_add, zero_add,
    Ideal.div_coe (by norm_num), Ideal.div_coe (by norm_num), ← EReal.coe_mul, ← EReal.coe_mul, ← EReal.coe_neg,
    Finset.sum_neg_distrib, neg_mul]

/-- One negated batch mean of the reference is the batch mean of the kernel's row losses. Row by row: the logits of a
    row of finite inputs are real numbers (a finite inner product), so the reference's picked log-softmax entry is a real
    number and the kernel's running loss of that row is its negation; a label in range is its own clamp. -/
theorem mean_eq (x : Goal.SX.Idx → EReal) (w : Goal.SW.Idx → EReal) (tg : Goal.ST.Idx → BitVec 32)
    (v : Goal.SO.Idx → EReal)
    (hx : ∀ i, ∃ r : ℝ, x i = (r : EReal)) (hw : ∀ i, ∃ r : ℝ, w i = (r : EReal))
    (ht : ∀ i, 0 ≤ (tg i).toInt ∧ (tg i).toInt < 10000)
    (hrow : ∀ b : Fin 4096, v (ix2 b 0)
      = Spec.refLogp (Goal.logits x w b) ⟨(tg (ix1 b)).toNat, Goal.toNat_lt (ht (ix1 b))⟩) :
    -(Ideal.div (Goal.zeroL + ∑ j, v j) Goal.nL) = Goal.meanB (Goal.lossK x w tg) := by
  choose rx hrx using hx
  choose rw' hrw using hw
  unfold Goal.meanB
  apply neg_mean
  intro j
  -- an index of the [4096, 1] column is a row number and the one column 0
  obtain ⟨b, c, rfl⟩ : ∃ b c, j = ix2 b c := ⟨j 0, j 1, eq_ix2 j⟩
  obtain rfl : c = 0 := Subsingleton.elim _ _
  -- the row's logits are real
  have hlg : Goal.logits x w b = fun j => ((∑ k, rx (ix2 b k) * rw' (ix2 j k) : ℝ) : EReal) := by
    funext j
    have e1 : Goal.xrow x b = fun k => ((rx (ix2 b k) : ℝ) : EReal) := funext fun k => hrx _
    have e2 : Goal.wrow w j = fun k => ((rw' (ix2 j k) : ℝ) : EReal) := funext fun k => hrw _
    show Spec.dot (Goal.xrow x b) (Goal.wrow w j) = _
    rw [e1, e2]
    exact Online.dot_coe _ _
  have hlab : Goal.label tg b = (tg (ix1 b)).toNat := by
    unfold Goal.label
    rw [Goal.clampT_eq (ht (ix1 b))]
  obtain ⟨r, hr⟩ := Online.refLogp_real (fun j => ∑ k, rx (ix2 b k) * rw' (ix2 j k))
    ⟨(tg (ix1 b)).toNat, Goal.toNat_lt (ht (ix1 b))⟩
  refine ⟨r, ?_, ?_⟩
  · rw [hrow b, hlg]
    exact hr
  · show Spec.rowLoss 2048 5 (Spec.masked (Goal.logits x w b)) (Goal.label tg b) = _
    rw [hlg, hlab, ← hr]
    exact Online.rowLoss_eq_neg_refLogp _ ⟨_, _⟩

/-- The reference's result, as the generated reading names it, is G of the arguments. -/
theorem ref_eq_G (wf : GatherDims.WF Goal.SW Goal.SO Goal.SX [1] [0] [] [0] [] 1 ![1, 512])
    (x0 x1 : (⟨S4096x512, .f32⟩ : BufTy).Contents (Elt Ideal)) (x2 : (⟨S4096, .i32⟩ : BufTy).Contents (Elt Ideal))
    (x3 x4 : (⟨S10000x512, .f32⟩ : BufTy).Contents (Elt Ideal))
    (h0 : ∀ i, ∃ r : ℝ, (x0 i : EReal) = (r : EReal)) (h1 : ∀ i, ∃ r : ℝ, (x1 i : EReal) = (r : EReal))
    (h3 : ∀ i, ∃ r : ℝ, (x3 i : EReal) = (r : EReal)) (h4 : ∀ i, ∃ r : ℝ, (x4 i : EReal) = (r : EReal))
    (ht : ∀ i, 0 ≤ ((x2 i : BitVec 32)).toInt ∧ ((x2 i : BitVec 32)).toInt < 10000) :
    (Cert.ReferenceIdeal.Read.val_main_v34 (F := Ideal) x0 x1 x2 x3 x4 : Goal.S0.Idx → EReal) = Goal.G wf x0 x1 x2 x3 x4 := by
  funext i
  have hs := mean_eq x0 x4 x2 (Read.val_main_v6 (F := Ideal) x0 x2 x4) h0 h4 ht
    (fun b => RefRow.row_soft x0 x2 x4 b (ht (ix1 b)))
  have hh := mean_eq x1 x4 x2 (Read.val_main_v12 (F := Ideal) x1 x2 x4) h1 h4 ht
    (fun b => RefRow.row_hard x1 x2 x4 b (ht (ix1 b)))
  rw [RefTail.result_eq, RefTail.crows_eq wf x2 x3 ht]
  show _ = Goal.tail (Goal.lossK x0 x4 x2) (Goal.lossK x1 x4 x2) x0 x1 (Goal.crows wf x3 x2)
  unfold Goal.tail
  rw [← hs, ← hh]

end Cert.RefValue

end
-- ==== Proof.PreFacts.lean ====
/-
  What the printed precondition says of the inputs: every entry of the four float arrays is a real number, and every label
  lies in [0, 10000) read signed.
-/
import proofs.«406640_j61916248539750_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.PreFacts

open Cert.Pre_finite_inputs Idealize.ShloMosaic Idealize.ShloMosaic.ValueIdx

/-- The shape of rank 0 has one index. -/
instance : Subsingleton S_.Idx := ⟨fun a b => funext fun d => d.elim0⟩

/-- The word 0x7F800000 denotes +∞. -/
theorem inf_word : Ideal.ofBits .f32 0x7F800000#32 = (⊤ : EReal) := by
  simp [Ideal.ofBits, Ideal.ieee]

/-- An extended real whose absolute value max(x, −x) is below +∞ is a real number: at ⊤ and at ⊥ the maximum is ⊤. -/
theorem real_of_abs_lt_top (x : EReal) (h : max x (-x) < ⊤) : ∃ r : ℝ, x = (r : EReal) := by
  induction x using EReal.rec with
  | bot => simp at h
  | coe r => exact ⟨r, rfl⟩
  | top => simp at h

/-- The element fact: the compare |x| < +∞ coming out 1 makes x a real number. -/
theorem real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max x (-x)) (Ideal.ofBits .f32 0x7F800000#32) = 1#1 := h
  rw [inf_word] at h'
  unfold Ideal.cmp at h'
  rw [StableHlo.Predicate.ofBool_eq_one_iff] at h'
  exact real_of_abs_lt_top x (of_decide_eq_true h')

/-- A word that tests ≥ 0 signed reads nonnegative. -/
theorem nonneg_of_cmp (w : BitVec 32) (h : IntOp.cmpi .sge w 0#32 = 1#1) : 0 ≤ w.toInt := by
  have := IntOp.cmpi_sge.1 h
  rwa [show (0#32 : BitVec 32).toInt = 0 from by decide] at this

/-- A word that tests < 10000 signed reads below 10000. -/
theorem lt_of_cmp (w : BitVec 32) (h : IntOp.cmpi .slt w 10000#32 = 1#1) : w.toInt < 10000 := by
  have := IntOp.cmpi_slt.1 h
  rwa [show (10000#32 : BitVec 32).toInt = 10000 from by decide] at this

/-- From the precondition evaluating to all ones: finiteness of the four float inputs and the label range. -/
theorem of_pre [Cert.Pre_finite_inputs.Facts] (x0 x1 : FVec Ideal S4096x512 .f32) (t : IVec S4096 32) (x3 x4 : FVec Ideal S10000x512 .f32)
    (h : Cert.Pre_finite_inputs.fn (F := Ideal) x0 x1 t x3 x4 = fun _ => 1#1) :
    (∀ i, ∃ r : ℝ, (x0 i : EReal) = (r : EReal)) ∧ (∀ i, ∃ r : ℝ, (x1 i : EReal) = (r : EReal))
      ∧ (∀ i, ∃ r : ℝ, (x3 i : EReal) = (r : EReal)) ∧ (∀ i, ∃ r : ℝ, (x4 i : EReal) = (r : EReal))
      ∧ (∀ i, 0 ≤ (t i).toInt ∧ (t i).toInt < 10000) := by
  have e := congrFun h ValueIdx.ix0
  dsimp only [fn, fn_part1] at e
  simp only [andi, IntOp.andi_eq_one] at e
  obtain ⟨⟨⟨⟨⟨h0, h1⟩, h3⟩, h4⟩, hge⟩, hlt⟩ := e
  refine ⟨fun i => ?_, fun i => ?_, fun i => ?_, fun i => ?_, fun i => ⟨?_, ?_⟩⟩
  · exact real_of_cmp (x0 i) (Host.reduce_andi_all _ _ _ _ _ h0 i)
  · exact real_of_cmp (x1 i) (Host.reduce_andi_all _ _ _ _ _ h1 i)
  · exact real_of_cmp (x3 i) (Host.reduce_andi_all _ _ _ _ _ h3 i)
  · exact real_of_cmp (x4 i) (Host.reduce_andi_all _ _ _ _ _ h4 i)
  · exact nonneg_of_cmp (t i) (Host.reduce_andi_all _ _ _ _ _ hge i)
  · exact lt_of_cmp (t i) (Host.reduce_andi_all _ _ _ _ _ hlt i)

end Cert.PreFacts

end
-- ==== Proof.lean ====
/-
  The certificate's claim. Three frames: the two kernel programs run, fault-free, and leave their arguments unchanged (the
  frame certificates of the fused cross-entropy pipeline: 8 batch tiles by 5 class tiles, six scratch columns carried across
  the class tiles), and so does the reference (its run with the result dropped). The idealization names one literal: the
  fill of the 240 padded classes, -infinity at the ideal instance. The value claim: at the ideal instance both programs end at
  G of the argument arrays — the kernel by its run read through the carried state (five class tiles of the running
  maximum, sum of exponentials and target logit per row, then the host's means and the quantization term), the reference by
  its stage-by-stage reading, the running loss of a row being the negated log-softmax entry at the label for finite inputs
  and labels in range, which the precondition gives.
-/
import proofs.«406640_j61916248539750_2_alg».proof.Defs
import proofs.«406640_j61916248539750_2_alg».proof.Proof.Gen.Kernel
import proofs.«406640_j61916248539750_2_alg».proof.Proof.KernelFrameP
import proofs.«406640_j61916248539750_2_alg».proof.Proof.Gen.KernelIdeal
import proofs.«406640_j61916248539750_2_alg».proof.Proof.KernelIdealFrameP
import proofs.«406640_j61916248539750_2_alg».proof.Proof.Gen.ReferenceIdeal
import proofs.«406640_j61916248539750_2_alg».proof.Proof.RefRun2
import proofs.«406640_j61916248539750_2_alg».proof.Proof.Gen.Pre_finite_inputs
import proofs.«406640_j61916248539750_2_alg».proof.Proof.KRun
import proofs.«406640_j61916248539750_2_alg».proof.Proof.RefValue
import proofs.«406640_j61916248539750_2_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.RefRun.run (F := Ideal) m ρ)

/-- The two sites of the padded-class fill: the table gives "neg_big" the value -infinity, and the printed constant is that
    value at the ideal instance. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- Both idealized programs end at G of the (agreeing) argument arrays. -/
theorem algebraic : Cert.algebraic_KernelIdeal_ReferenceIdeal := by
  intro m ρ m' ρ' hpre hagree
  refine ⟨fun c => Goal.G Cert.KernelIdeal.Tail.wfK (Cert.KernelIdeal.Args.aXs m c) (Cert.KernelIdeal.Args.aXh m c)
    (Cert.KernelIdeal.Args.aTg m c) (Cert.KernelIdeal.Args.aCn m c) (Cert.KernelIdeal.Args.aW m c),
    Cert.KernelIdeal.Value.run m ρ, ?_⟩
  refine (θ_run Cert.ReferenceIdeal.defs _ _).mono (fun _ h c => ⟨(h c).1.trans ?_, (h c).2⟩)
    (Cert.RefRun.run (F := Ideal) m' ρ')
  rw [(hagree c).1, (hagree c).2.1, (hagree c).2.2.1, (hagree c).2.2.2.1, (hagree c).2.2.2.2]
  obtain ⟨h0, h1, h3, h4, ht⟩ := Cert.PreFacts.of_pre _ _ _ _ _ (hpre c)
  exact Cert.RefValue.ref_eq_G Cert.KernelIdeal.Tail.wfK _ _ _ _ _ h0 h1 h3 h4 ht

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
